-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S64x1024 .f32 .bf16
  ∧ IdealRules.truncf_extf.Statement Cert.KernelIdeal.S64x128 .f32 .bf16
  ∧ IdealRules.truncf_extf.Statement Cert.KernelIdeal.S64x1024 .f32 .bf16
  ∧ IdealRules.truncf_extf.Statement Cert.KernelIdeal.S2048x128 .f32 .bf16
  ∧ IdealRules.truncf_extf.Statement Cert.KernelIdeal.S2048x1024 .f32 .bf16
  ∧ IdealRules.truncf_extf.Statement Cert.KernelIdeal.S64x128 .f32 .bf16
  ∧ IdealRules.truncf_extf.Statement Cert.KernelIdeal.S64x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1154 : Shape := ⟨2, ![2048, 1154]⟩
abbrev S2x1024 : Shape := ⟨2, ![2, 1024]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S2048x1154 : S_.BroadcastsInDim S2048x1154 (![] : Fin 0 → Fin S2048x1154.rank)
  reducesTo_S2048x1154_S_d0_1 : S2048x1154.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x1024 : S_.BroadcastsInDim S2x1024 (![] : Fin 0 → Fin S2x1024.rank)
  reducesTo_S2x1024_S_d0_1 : S2x1024.ReducesTo [0, 1] S_

variable [Facts]

def fn_part2 {F : FTy → Type} [FloatOps F] (main_arg1 : IVec S2x1024 32) (main_v33 : IVec S_ 1) : IVec S_ 1 :=
  let main_c_12 : IVec S_ 32 := constantI S_ 32 0#32
  let main_v34 : IVec S2x1024 32 := broadcastInDim S2x1024 ![] bcast_S_S2x1024 main_c_12
  let main_v35 : IVec S2x1024 1 := cmpi .sge main_arg1 main_v34
  let main_c_13 : IVec S_ 1 := constantI S_ 1 1#1
  let main_v36 : IVec S_ 1 := (fun x v => Host.reduce IntOp.andi x v reducesTo_S2x1024_S_d0_1 h_S_) main_v35 main_c_13
  let main_v37 : IVec S_ 1 := andi main_v33 main_v36
  let main_c_14 : IVec S_ 32 := constantI S_ 32 128#32
  let main_v38 : IVec S2x1024 32 := broadcastInDim S2x1024 ![] bcast_S_S2x1024 main_c_14
  let main_v39 : IVec S2x1024 1 := cmpi .slt main_arg1 main_v38
  let main_c_15 : IVec S_ 1 := constantI S_ 1 1#1
  let main_v40 : IVec S_ 1 := (fun x v => Host.reduce IntOp.andi x v reducesTo_S2x1024_S_d0_1 h_S_) main_v39 main_c_15
  let main_v41 : IVec S_ 1 := andi main_v37 main_v40
  main_v41

def fn_part1 {F : FTy → Type} [FloatOps F] (main_arg1 : IVec S2x1024 32) (main_arg5 : FVec F S32 .f32) (main_arg6 : FVec F S32x1 .f32) (main_arg7 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S2048x1154 .f32) (main_arg1 : IVec S2x1024 32) (main_arg2 : FVec F S1x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S2048x1154 .f32 := Host.absf main_arg0
  let main_cst : FVec F S_ .f32 := constant S_ .f32 0x7F800000#32
  let main_v1 : FVec F S2048x1154 .f32 := broadcastInDim S2048x1154 ![] bcast_S_S2048x1154 main_cst
  let main_v2 : IVec S2048x1154 1 := cmpf .olt main_v0 main_v1
  let main_c : IVec S_ 1 := constantI S_ 1 1#1
  let main_v3 : IVec S_ 1 := (fun x v => Host.reduce IntOp.andi x v reducesTo_S2048x1154_S_d0_1 h_S_) main_v2 main_c
  let main_v4 : FVec F S1x32 .f32 := Host.absf main_arg2
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg1 main_arg5 main_arg6 main_arg7 main_v13 main_v16
-- ==== Kernel.lean ====
abbrev S2048x1154 : Shape := ⟨2, ![2048, 1154]⟩
abbrev S2x1024 : Shape := ⟨2, ![2, 1024]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1024 : Shape := ⟨2, ![1, 1024]⟩
abbrev S1024 : Shape := ⟨1, ![1024]⟩
abbrev S128 : Shape := ⟨1, ![128]⟩
abbrev S128x1 : Shape := ⟨2, ![128, 1]⟩
abbrev S128x1024 : Shape := ⟨2, ![128, 1024]⟩
abbrev S1024x1 : Shape := ⟨2, ![1024, 1]⟩
abbrev S1x128 : Shape := ⟨2, ![1, 128]⟩
abbrev S1024x128 : Shape := ⟨2, ![1024, 128]⟩
abbrev S1x1 : Shape := ⟨2, ![1, 1]⟩
abbrev S2048x128 : Shape := ⟨2, ![2048, 128]⟩
abbrev S64x1154 : Shape := ⟨2, ![64, 1154]⟩
abbrev S64x128 : Shape := ⟨2, ![64, 128]⟩
abbrev S64x1024 : Shape := ⟨2, ![64, 1024]⟩
abbrev S1x64x128 : Shape := ⟨3, ![1, 64, 128]⟩
abbrev S32x1x1 : Shape := ⟨3, ![32, 1, 1]⟩
abbrev S32x64x128 : Shape := ⟨3, ![32, 64, 128]⟩
abbrev S1x64x1024 : Shape := ⟨3, ![1, 64, 1024]⟩
abbrev S2048x1024 : Shape := ⟨2, ![2048, 1024]⟩
abbrev S32x64x1024 : Shape := ⟨3, ![32, 64, 1024]⟩
abbrev S1x1x1 : Shape := ⟨3, ![1, 1, 1]⟩

abbrev nBuf : Space → Nat
  | .hbm => 31
  | .vmem => 12
  | .smem => 0
  | _ => 0

abbrev bufTy : (tb : Table) → Fin (tcTables nBuf tb) → BufTy
  | .hbm, ⟨0, _⟩ => ⟨S2048x1154, .f32⟩
  | .hbm, ⟨1, _⟩ => ⟨S2x1024, .i32⟩
  | .hbm, ⟨2, _⟩ => ⟨S1x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x1024, .i32⟩
  | .hbm, ⟨9, _⟩ => ⟨S1024, .i32⟩
  | .hbm, ⟨10, _⟩ => ⟨S1x1024, .i32⟩
  | .hbm, ⟨11, _⟩ => ⟨S1024, .i32⟩
  | .hbm, ⟨12, _⟩ => ⟨S128, .i32⟩
  | .hbm, ⟨13, _⟩ => ⟨S128x1, .i32⟩
  | .hbm, ⟨14, _⟩ => ⟨S1x1024, .i32⟩
  | .hbm, ⟨15, _⟩ => ⟨S128x1024, .i32⟩
  | .hbm, ⟨16, _⟩ => ⟨S128x1024, .i32⟩
  | .hbm, ⟨17, _⟩ => ⟨S128x1024, .i1⟩
  | .hbm, ⟨18, _⟩ => ⟨S128x1024, .bf16⟩
  | .hbm, ⟨19, _⟩ => ⟨S1024x1, .i32⟩
  | .hbm, ⟨20, _⟩ => ⟨S1x128, .i32⟩
  | .hbm, ⟨21, _⟩ => ⟨S1024x128, .i32⟩
  | .hbm, ⟨22, _⟩ => ⟨S1024x128, .i32⟩
  | .hbm, ⟨23, _⟩ => ⟨S1024x128, .i1⟩
  | .hbm, ⟨24, _⟩ => ⟨S1024x128, .bf16⟩
  | .hbm, ⟨25, _⟩ => ⟨S32x32, .f32⟩
  | .hbm, ⟨26, _⟩ => ⟨S1x32, .f32⟩
  | .hbm, ⟨27, _⟩ => ⟨S1x32, .f32⟩
  | .hbm, ⟨28, _⟩ => ⟨S1x32, .f32⟩
  | .hbm, ⟨29, _⟩ => ⟨S1x1, .f32⟩
  | .hbm, ⟨30, _⟩ => ⟨S2048x128, .f32⟩
  | .local _ .vmem, ⟨0, _⟩ => ⟨S64x1154, .f32⟩
  | .local _ .vmem, ⟨1, _⟩ => ⟨S64x1154, .f32⟩
  | .local _ .vmem, ⟨2, _⟩ => ⟨S128x1024, .bf16⟩
  | .local _ .vmem, ⟨3, _⟩ => ⟨S1024x128, .bf16⟩
  | .local _ .vmem, ⟨4, _⟩ => ⟨S1x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S1x32, .f32⟩
  | .local _ .vmem, ⟨9, _⟩ => ⟨S1x1, .f32⟩
  | .local _ .vmem, ⟨10, _⟩ => ⟨S64x128, .f32⟩
  | .local _ .vmem, ⟨11, _⟩ => ⟨S64x128, .f32⟩
  | _, _ => ⟨S2048x1154, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1154 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1024_S1x1024_0_0 : S2x1024.Slices ![0, 0] S1x1024
  shapeCasts_S1x1024_S1024 : S1x1024.ShapeCasts S1024
  slices_S2x1024_S1x1024_1_0 : S2x1024.Slices ![1, 0] S1x1024
  bcast_S128_S128x1_0 : S128.BroadcastsInDim S128x1 (![0] : Fin 1 → Fin S128x1.rank)
  bcast_S1024_S1x1024_1 : S1024.BroadcastsInDim S1x1024 (![1] : Fin 1 → Fin S1x1024.rank)
  bcast_S128x1_S128x1024_0_1 : S128x1.BroadcastsInDim S128x1024 (![0, 1] : Fin 2 → Fin S128x1024.rank)
  bcast_S1x1024_S128x1024_0_1 : S1x1024.BroadcastsInDim S128x1024 (![0, 1] : Fin 2 → Fin S128x1024.rank)
  bcast_S1024_S1024x1_0 : S1024.BroadcastsInDim S1024x1 (![0] : Fin 1 → Fin S1024x1.rank)
  bcast_S128_S1x128_1 : S128.BroadcastsInDim S1x128 (![1] : Fin 1 → Fin S1x128.rank)
  bcast_S1024x1_S1024x128_0_1 : S1024x1.BroadcastsInDim S1024x128 (![0, 1] : Fin 2 → Fin S1024x128.rank)
  bcast_S1x128_S1024x128_0_1 : S1x128.BroadcastsInDim S1024x128 (![0, 1] : Fin 2 → Fin S1024x128.rank)
  transposes_S32x32_S32x32_1_0 : S32x32.Transposes [1, 0] S32x32
  transposes_S32x1_S1x32_1_0 : S32x1.Transposes [1, 0] S1x32
  shapeCasts_S32_S1x32 : S32.ShapeCasts S1x32
  shapeCasts_S1_S1x1 : S1.ShapeCasts S1x1
  inb_S64x1154_S64x128_0_0 : ∀ a, (![0, 0] : Fin 2 → Nat) a + S64x128.size a ≤ S64x1154.size a
  h_S64x128 : 0 < S64x128.numel
  inb_S64x1154_S64x1024_0_128 : ∀ a, (![0, 128] : Fin 2 → Nat) a + S64x1024.size a ≤ S64x1154.size a
  h_S64x1024 : 0 < S64x1024.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S32 : S1x32.ShapeCasts S32
  shapeCasts_S1x32_S1x32 : S1x32.ShapeCasts S1x32
  shapeCasts_S64x128_S1x64x128 : S64x128.ShapeCasts S1x64x128
  shapeCasts_S32_S32x1x1 : S32.ShapeCasts S32x1x1
  broadcasts_S1x64x128_S32x64x128 : S1x64x128.Broadcasts S32x64x128
  broadcasts_S32x1x1_S32x64x128 : S32x1x1.Broadcasts S32x64x128
  shapeCasts_S64x1024_S1x64x1024 : S64x1024.ShapeCasts S1x64x1024
  inb_S32x32_S32x32_0_0 : ∀ a, (![0, 0] : Fin 2 → Nat) a + S32x32.size a ≤ S32x32.size a
  h_S32x32 : 0 < S32x32.numel
  shapeCasts_S32x32_S32x32 : S32x32.ShapeCasts S32x32
  slices_S32x32_o0_0_S1x32 : S32x32.Slices ![0, 0] S1x32
  reduces_S32x64x128_S64x128 : S32x64x128.Reduces [0] S64x128
  slices_S32x32_o1_0_S1x32 : S32x32.Slices ![1, 0] S1x32
  slices_S32x32_o2_0_S1x32 : S32x32.Slices ![2, 0] S1x32
  slices_S32x32_o3_0_S1x32 : S32x32.Slices ![3, 0] S1x32
  slices_S32x32_o4_0_S1x32 : S32x32.Slices ![4, 0] S1x32
  slices_S32x32_o5_0_S1x32 : S32x32.Slices ![5, 0] S1x32
  slices_S32x32_o6_0_S1x32 : S32x32.Slices ![6, 0] S1x32
  slices_S32x32_o7_0_S1x32 : S32x32.Slices ![7, 0] S1x32
  slices_S32x32_o8_0_S1x32 : S32x32.Slices ![8, 0] S1x32
  slices_S32x32_o9_0_S1x32 : S32x32.Slices ![9, 0] S1x32
  slices_S32x32_o10_0_S1x32 : S32x32.Slices ![10, 0] S1x32
  slices_S32x32_o11_0_S1x32 : S32x32.Slices ![11, 0] S1x32
  slices_S32x32_o12_0_S1x32 : S32x32.Slices ![12, 0] S1x32
  slices_S32x32_o13_0_S1x32 : S32x32.Slices ![13, 0] S1x32
  slices_S32x32_o14_0_S1x32 : S32x32.Slices ![14, 0] S1x32
  slices_S32x32_o15_0_S1x32 : S32x32.Slices ![15, 0] S1x32
  slices_S32x32_o16_0_S1x32 : S32x32.Slices ![16, 0] S1x32
  slices_S32x32_o17_0_S1x32 : S32x32.Slices ![17, 0] S1x32
  slices_S32x32_o18_0_S1x32 : S32x32.Slices ![18, 0] S1x32
  slices_S32x32_o19_0_S1x32 : S32x32.Slices ![19, 0] S1x32
  slices_S32x32_o20_0_S1x32 : S32x32.Slices ![20, 0] S1x32
  slices_S32x32_o21_0_S1x32 : S32x32.Slices ![21, 0] S1x32
  slices_S32x32_o22_0_S1x32 : S32x32.Slices ![22, 0] S1x32
  slices_S32x32_o23_0_S1x32 : S32x32.Slices ![23, 0] S1x32
  slices_S32x32_o24_0_S1x32 : S32x32.Slices ![24, 0] S1x32
  slices_S32x32_o25_0_S1x32 : S32x32.Slices ![25, 0] S1x32
  slices_S32x32_o26_0_S1x32 : S32x32.Slices ![26, 0] S1x32
  slices_S32x32_o27_0_S1x32 : S32x32.Slices ![27, 0] S1x32
  slices_S32x32_o28_0_S1x32 : S32x32.Slices ![28, 0] S1x32
  slices_S32x32_o29_0_S1x32 : S32x32.Slices ![29, 0] S1x32
  slices_S32x32_o30_0_S1x32 : S32x32.Slices ![30, 0] S1x32
  slices_S32x32_o31_0_S1x32 : S32x32.Slices ![31, 0] S1x32
  concatenates_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S32x64x128_d0 : Shape.Concatenates [S1x64x128, S1x64x128, S1x64x128, S1x64x128, S1x64x128, S1x64x128, S1x64x128, S1x64x128, S1x64x128, S1x64x128, S1x64x128, S1x64x128, S1x64x128, S1x64x128, S1x64x128, S1x64x128, S1x64x128, S1x64x128, S1x64x128, S1x64x128, S1x64x128, S1x64x128, S1x64x128, S1x64x128, S1x64x128, S1x64x128, S1x64x128, S1x64x128, S1x64x128, S1x64x128, S1x64x128, S1x64x128] S32x64x128 0
  shapeCasts_S32x64x128_S2048x128 : S32x64x128.ShapeCasts S2048x128
  shapeCasts_S2048x1024_S32x64x1024 : S2048x1024.ShapeCasts S32x64x1024
  broadcasts_S1x64x1024_S32x64x1024 : S1x64x1024.Broadcasts S32x64x1024
  shapeCasts_S32x64x1024_S2048x1024 : S32x64x1024.ShapeCasts S2048x1024
  shapeCasts_S2048x128_S32x64x128 : S2048x128.ShapeCasts S32x64x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1 : S1x1.ShapeCasts S1
  shapeCasts_S1x64x128_S64x128 : S1x64x128.ShapeCasts S64x128
  shapeCasts_S1x64x1024_S64x1024 : S1x64x1024.ShapeCasts S64x1024
  shapeCasts_S1_S1x1x1 : S1.ShapeCasts S1x1x1
  broadcasts_S1x1x1_S1x64x128 : S1x1x1.Broadcasts S1x64x128
  inb_S64x128_S64x128_0_0 : ∀ a, (![0, 0] : Fin 2 → Nat) a + S64x128.size a ≤ S64x128.size a
  dot_S64x1024_S1024x128_S64x128_1_0_0_1_n_n_wf : DotDims.WF S64x1024 S1024x128 S64x128 [1] [0] [0] [1] [] []
  dot_S64x128_S128x1024_S64x1024_1_0_0_1_n_n_wf : DotDims.WF S64x128 S128x1024 S64x1024 [1] [0] [0] [1] [] []
  dot_S2048x128_S128x1024_S2048x1024_1_0_0_1_n_n_wf : DotDims.WF S2048x128 S128x1024 S2048x1024 [1] [0] [0] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1154.size a ≤ S2048x1154.size a
  hwx0_0 : ∀ i : grid0.Coords, EltTy.bits .f32 = 32 ∨ (Rect.block (s := S2048x1154) S64x1154.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .bf16 = 32 ∨ (Rect.block (s := S128x1024) S128x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S2048x128.size a
  hwx0_9 : ∀ i : grid0.Coords, EltTy.bits .f32 = 32 ∨ (Rect.block (s := S2048x128) S64x128.size (cc0_transform_9 i) (hinb0_9 i)).WholeWords (EltTy.packing .f32)

variable [Facts₀]

def dot_S64x1024_S1024x128_S64x128_1_0_0_1_n_n : DotDims S64x1024 S1024x128 S64x128 where
  lhsContracting := [1]
  rhsContracting := [0]
  lhsNonContracting := [0]
  rhsNonContracting := [1]
  lhsBatch := []
  rhsBatch := []
  wf := dot_S64x1024_S1024x128_S64x128_1_0_0_1_n_n_wf
def dot_S64x128_S128x1024_S64x1024_1_0_0_1_n_n : DotDims S64x128 S128x1024 S64x1024 where
  lhsContracting := [1]
  rhsContracting := [0]
  lhsNonContracting := [0]
  rhsNonContracting := [1]
  lhsBatch := []
  rhsBatch := []
  wf := dot_S64x128_S128x1024_S64x1024_1_0_0_1_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S64x1154.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S64x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2048x1154 : Shape := ⟨2, ![2048, 1154]⟩
abbrev S2x1024 : Shape := ⟨2, ![2, 1024]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S2048x128 : Shape := ⟨2, ![2048, 128]⟩
abbrev S262144x1 : Shape := ⟨2, ![262144, 1]⟩
abbrev S2048x1024 : Shape := ⟨2, ![2048, 1024]⟩
abbrev S2097152 : Shape := ⟨1, ![2097152]⟩
abbrev S2048 : Shape := ⟨1, ![2048]⟩
abbrev S_ : Shape := ⟨0, ![]⟩
abbrev S1x1024 : Shape := ⟨2, ![1, 1024]⟩
abbrev S1024 : Shape := ⟨1, ![1024]⟩
abbrev S2048x1 : Shape := ⟨2, ![2048, 1]⟩
abbrev S262144 : Shape := ⟨1, ![262144]⟩
abbrev S2359296 : Shape := ⟨1, ![2359296]⟩
abbrev S2359296x1 : Shape := ⟨2, ![2359296, 1]⟩
abbrev S262144x32 : Shape := ⟨2, ![262144, 32]⟩
abbrev S2359296x32 : Shape := ⟨2, ![2359296, 32]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S2048x1154, .f32⟩
  | 1 => ⟨S2x1024, .i32⟩
  | 2 => ⟨S1x32, .f32⟩
  | 3 => ⟨S32, .f32⟩
  | 4 => ⟨S32x32, .f32⟩
  | 5 => ⟨S32, .f32⟩
  | 6 => ⟨S32x1, .f32⟩
  | 7 => ⟨S1, .f32⟩
  | 8 => ⟨S2048x128, .f32⟩
  | 9 => ⟨S262144x1, .f32⟩
  | 10 => ⟨S2048x1024, .f32⟩
  | 11 => ⟨S2097152, .f32⟩
  | 12 => ⟨S2048, .i32⟩
  | 13 => ⟨S_, .i32⟩
  | 14 => ⟨S2048, .i32⟩
  | 15 => ⟨S2048, .i32⟩
  | 16 => ⟨S1x1024, .i32⟩
  | 17 => ⟨S1024, .i32⟩
  | 18 => ⟨S1x1024, .i32⟩
  | 19 => ⟨S2048x1, .i32⟩
  | 20 => ⟨S2048x1024, .i32⟩
  | 21 => ⟨S2048x1024, .i32⟩
  | 22 => ⟨S2048x1024, .i32⟩
  | 23 => ⟨S2097152, .i32⟩
  | 24 => ⟨S1x1024, .i32⟩
  | 25 => ⟨S1024, .i32⟩
  | 26 => ⟨S1x1024, .i32⟩
  | 27 => ⟨S2048x1, .i32⟩
  | 28 => ⟨S2048x1024, .i32⟩
  | 29 => ⟨S2048x1024, .i32⟩
  | 30 => ⟨S2048x1024, .i32⟩
  | 31 => ⟨S2097152, .i32⟩
  | 32 => ⟨S262144, .i32⟩
  | 33 => ⟨S2359296, .i32⟩
  | 34 => ⟨S2359296, .i32⟩
  | 35 => ⟨S_, .f32⟩
  | 36 => ⟨S262144, .f32⟩
  | 37 => ⟨S2359296, .f32⟩
  | 38 => ⟨S_, .f32⟩
  | 39 => ⟨S262144, .f32⟩
  | 40 => ⟨S2359296x1, .i32⟩
  | 41 => ⟨S262144, .f32⟩
  | 42 => ⟨S_, .f32⟩
  | 43 => ⟨S262144, .f32⟩
  | 44 => ⟨S262144, .i1⟩
  | 45 => ⟨S_, .f32⟩
  | 46 => ⟨S_, .f32⟩
  | 47 => ⟨S262144, .f32⟩
  | 48 => ⟨S262144, .f32⟩
  | 49 => ⟨S262144, .f32⟩
  | 50 => ⟨S_, .f32⟩
  | 51 => ⟨S262144, .f32⟩
  | 52 => ⟨S262144, .i1⟩
  | 53 => ⟨S_, .f32⟩
  | 54 => ⟨S_, .f32⟩
  | 55 => ⟨S262144, .f32⟩
  | 56 => ⟨S262144, .f32⟩
  | 57 => ⟨S_, .i32⟩
  | 58 => ⟨S2359296, .i32⟩
  | 59 => ⟨S2359296, .i1⟩
  | 60 => ⟨S_, .i32⟩
  | 61 => ⟨S2359296, .i32⟩
  | 62 => ⟨S2359296, .i32⟩
  | 63 => ⟨S2359296, .i32⟩
  | 64 => ⟨S2359296x1, .i32⟩
  | 65 => ⟨S2359296, .f32⟩
  | 66 => ⟨S2359296, .f32⟩
  | 67 => ⟨S_, .i32⟩
  | 68 => ⟨S2359296, .i32⟩
  | 69 => ⟨S2359296, .i1⟩
  | 70 => ⟨S_, .i32⟩
  | 71 => ⟨S2359296, .i32⟩
  | 72 => ⟨S2359296, .i32⟩
  | 73 => ⟨S2359296, .i32⟩
  | 74 => ⟨S2359296x1, .i32⟩
  | 75 => ⟨S2359296, .f32⟩
  | 76 => ⟨S2359296, .f32⟩
  | 77 => ⟨S262144x32, .f32⟩
  | 78 => ⟨S_, .i32⟩
  | 79 => ⟨S2359296, .i32⟩
  | 80 => ⟨S2359296, .i1⟩
  | 81 => ⟨S_, .i32⟩
  | 82 => ⟨S2359296, .i32⟩
  | 83 => ⟨S2359296, .i32⟩
  | 84 => ⟨S2359296, .i32⟩
  | 85 => ⟨S2359296x1, .i32⟩
  | 86 => ⟨S2359296x32, .f32⟩
  | 87 => ⟨S2359296x1, .f32⟩
  | 88 => ⟨S2359296x32, .f32⟩
  | 89 => ⟨S2359296x32, .f32⟩
  | 90 => ⟨S_, .f32⟩
  | 91 => ⟨S262144x32, .f32⟩
  | 92 => ⟨S2359296x1, .i32⟩
  | 93 => ⟨S262144x32, .f32⟩
  | 94 => ⟨S1x32, .f32⟩
  | 95 => ⟨S262144x32, .f32⟩
  | 96 => ⟨S262144x32, .f32⟩
  | 97 => ⟨S_, .f32⟩
  | 98 => ⟨S262144x32, .f32⟩
  | 99 => ⟨S262144x32, .f32⟩
  | 100 => ⟨S262144x32, .f32⟩
  | 101 => ⟨S_, .i32⟩
  | 102 => ⟨S2359296, .i32⟩
  | 103 => ⟨S2359296, .i1⟩
  | 104 => ⟨S_, .i32⟩
  | 105 => ⟨S2359296, .i32⟩
  | 106 => ⟨S2359296, .i32⟩
  | 107 => ⟨S2359296, .i32⟩
  | 108 => ⟨S2359296x1, .i32⟩
  | 109 => ⟨S2359296x32, .f32⟩
  | 110 => ⟨S2359296x1, .f32⟩
  | 111 => ⟨S2359296x32, .f32⟩
  | 112 => ⟨S2359296x32, .f32⟩
  | 113 => ⟨S_, .f32⟩
  | 114 => ⟨S262144x32, .f32⟩
  | 115 => ⟨S2359296x1, .i32⟩
  | 116 => ⟨S262144x32, .f32⟩
  | 117 => ⟨S1x32, .f32⟩
  | 118 => ⟨S262144x32, .f32⟩
  | 119 => ⟨S262144x32, .f32⟩
  | 120 => ⟨S_, .f32⟩
  | 121 => ⟨S262144x32, .f32⟩
  | 122 => ⟨S262144x32, .f32⟩
  | 123 => ⟨S262144x1, .f32⟩
  | 124 => ⟨S_, .i32⟩
  | 125 => ⟨S2359296, .i32⟩
  | 126 => ⟨S2359296, .i1⟩
  | 127 => ⟨S_, .i32⟩
  | _ => ⟨S2048x1154, .f32⟩

abbrev hbmTy0_1 (i : Nat) : BufTy := match i % 128 with
  | 0 => ⟨S2359296, .i32⟩
  | 1 => ⟨S2359296, .i32⟩
  | 2 => ⟨S2359296, .i32⟩
  | 3 => ⟨S2359296x1, .i32⟩
  | 4 => ⟨S2359296x1, .f32⟩
  | 5 => ⟨S2359296x1, .f32⟩
  | 6 => ⟨S2359296x1, .f32⟩
  | 7 => ⟨S_, .f32⟩
  | 8 => ⟨S262144x1, .f32⟩
  | 9 => ⟨S2359296x1, .i32⟩
  | 10 => ⟨S262144x1, .f32⟩
  | 11 => ⟨S1x1, .f32⟩
  | 12 => ⟨S262144x1, .f32⟩
  | 13 => ⟨S262144x1, .f32⟩
  | 14 => ⟨S2048x128, .f32⟩
  | _ => ⟨S2048x1154, .f32⟩

abbrev hbmTy (i : Nat) : BufTy := match i / 128 with
  | 0 => hbmTy0_0 i
  | 1 => hbmTy0_1 i
  | _ => ⟨S2048x1154, .f32⟩

abbrev bufTy : (tb : Table) → Fin (tcTables nBuf tb) → BufTy
  | .hbm, ⟨i, _⟩ => hbmTy i
  | _, _ => ⟨S2048x1154, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_call0_v0 : Ref sig .tc := ⟨.hbm, 46, rfl⟩
abbrev main_call0_v1 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_call1_v0 : Ref sig .tc := ⟨.hbm, 54, rfl⟩
abbrev main_call1_v1 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call2_cst : Ref sig .tc := ⟨.hbm, 97, rfl⟩
abbrev main_call2_v0 : Ref sig .tc := ⟨.hbm, 98, rfl⟩
abbrev main_v71 : Ref sig .tc := ⟨.hbm, 99, rfl⟩
abbrev main_v72 : Ref sig .tc := ⟨.hbm, 100, rfl⟩
abbrev main_c_12 : Ref sig .tc := ⟨.hbm, 101, rfl⟩
abbrev main_v73 : Ref sig .tc := ⟨.hbm, 102, rfl⟩
abbrev main_v74 : Ref sig .tc := ⟨.hbm, 103, rfl⟩
abbrev main_c_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_14 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call3_cst : Ref sig .tc := ⟨.hbm, 120, rfl⟩
abbrev main_call3_v0 : Ref sig .tc := ⟨.hbm, 121, rfl⟩
abbrev main_v89 : Ref sig .tc := ⟨.hbm, 122, rfl⟩
abbrev main_v90 : Ref sig .tc := ⟨.hbm, 123, rfl⟩
abbrev main_c_15 : Ref sig .tc := ⟨.hbm, 124, rfl⟩
abbrev main_v91 : Ref sig .tc := ⟨.hbm, 125, rfl⟩
abbrev main_v92 : Ref sig .tc := ⟨.hbm, 126, rfl⟩
abbrev main_c_16 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_17 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩

abbrev nD : Nat := 1
abbrev τ : Topo := Topo.v7x

variable {F : FTy → Type} [FloatOps F]

class Facts₀ : Prop where
  slices_S2048x1154_S2048x128_0_0 : S2048x1154.Slices ![0, 0] S2048x128
  shapeCasts_S2048x128_S262144x1 : S2048x128.ShapeCasts S262144x1
  slices_S2048x1154_S2048x1024_0_128 : S2048x1154.Slices ![0, 128] S2048x1024
  shapeCasts_S2048x1024_S2097152 : S2048x1024.ShapeCasts S2097152
  bcast_S_S2048 : S_.BroadcastsInDim S2048 (![] : Fin 0 → Fin S2048.rank)
  slices_S2x1024_S1x1024_0_0 : S2x1024.Slices ![0, 0] S1x1024
  shapeCasts_S1x1024_S1024 : S1x1024.ShapeCasts S1024
  bcast_S1024_S1x1024_1 : S1024.BroadcastsInDim S1x1024 (![1] : Fin 1 → Fin S1x1024.rank)
  bcast_S2048_S2048x1_0 : S2048.BroadcastsInDim S2048x1 (![0] : Fin 1 → Fin S2048x1.rank)
  bcast_S1x1024_S2048x1024_0_1 : S1x1024.BroadcastsInDim S2048x1024 (![0, 1] : Fin 2 → Fin S2048x1024.rank)
  bcast_S2048x1_S2048x1024_0_1 : S2048x1.BroadcastsInDim S2048x1024 (![0, 1] : Fin 2 → Fin S2048x1024.rank)
  slices_S2x1024_S1x1024_1_0 : S2x1024.Slices ![1, 0] S1x1024
  concatenates_S2097152_S262144_S2359296_d0 : Shape.Concatenates [S2097152, S262144] S2359296 0
  bcast_S_S262144 : S_.BroadcastsInDim S262144 (![] : Fin 0 → Fin S262144.rank)
  bcast_S2359296_S2359296x1_0 : S2359296.BroadcastsInDim S2359296x1 (![0] : Fin 1 → Fin S2359296x1.rank)
  bcast_S_S2359296 : S_.BroadcastsInDim S2359296 (![] : Fin 0 → Fin S2359296.rank)
  bcast_S2359296x1_S2359296x32_0_1 : S2359296x1.BroadcastsInDim S2359296x32 (![0, 1] : Fin 2 → Fin S2359296x32.rank)
  bcast_S_S262144x32 : S_.BroadcastsInDim S262144x32 (![] : Fin 0 → Fin S262144x32.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S2048x128 : S262144x1.ShapeCasts S2048x128
  scatter_S262144_S2359296x1_S2359296_n_0_0_1_wf : ScatterDims.WF S262144 S2359296x1 S2359296 [] [0] [0] 1
  gather_S262144_S2359296x1_S2359296_n_0_n_n_0_1_1_wf : GatherDims.WF S262144 S2359296x1 S2359296 [] [0] [] [0] [] 1 ![1]
  dot_S262144x1_S1x32_S262144x32_1_0_0_1_n_n_wf : DotDims.WF S262144x1 S1x32 S262144x32 [1] [0] [0] [1] [] []
  gather_S262144x32_S2359296x1_S2359296x32_1_0_n_n_0_1_132_wf : GatherDims.WF S262144x32 S2359296x1 S2359296x32 [1] [0] [] [0] [] 1 ![1, 32]
  scatter_S262144x32_S2359296x1_S2359296x32_1_0_0_1_wf : ScatterDims.WF S262144x32 S2359296x1 S2359296x32 [1] [0] [0] 1
  dot_S262144x32_S32x32_S262144x32_1_0_0_1_n_n_wf : DotDims.WF S262144x32 S32x32 S262144x32 [1] [0] [0] [1] [] []
  dot_S262144x32_S32x1_S262144x1_1_0_0_1_n_n_wf : DotDims.WF S262144x32 S32x1 S262144x1 [1] [0] [0] [1] [] []
  gather_S262144x1_S2359296x1_S2359296x1_1_0_n_n_0_1_11_wf : GatherDims.WF S262144x1 S2359296x1 S2359296x1 [1] [0] [] [0] [] 1 ![1, 1]
  scatter_S262144x1_S2359296x1_S2359296x1_1_0_0_1_wf : ScatterDims.WF S262144x1 S2359296x1 S2359296x1 [1] [0] [0] 1

variable [Facts₀]

def scatter_S262144_S2359296x1_S2359296_n_0_0_1 : ScatterDims S262144 S2359296x1 S2359296 where
  updateWindowDims := []
  insertedWindowDims := [0]
  scatterDimsToOperandDims := [0]
  indexVectorDim := 1
  wf := scatter_S262144_S2359296x1_S2359296_n_0_0_1_wf
def gather_S262144_S2359296x1_S2359296_n_0_n_n_0_1_1 : GatherDims S262144 S2359296x1 S2359296 where
  offsetDims := []
  collapsedSliceDims := [0]
  operandBatchingDims := []
  startIndicesBatchingDims := []
  startIndexMap := [0]
  indexVectorDim := 1
  sliceSizes := ![1]
  wf := gather_S262144_S2359296x1_S2359296_n_0_n_n_0_1_1_wf
def dot_S262144x1_S1x32_S262144x32_1_0_0_1_n_n : DotDims S262144x1 S1x32 S262144x32 where
  lhsContracting := [1]
  rhsContracting := [0]
  lhsNonContracting := [0]
  rhsNonContracting := [1]
  lhsBatch := []
  rhsBatch := []
  wf := dot_S262144x1_S1x32_S262144x32_1_0_0_1_n_n_wf
def gather_S262144x32_S2359296x1_S2359296x32_1_0_n_n_0_1_132 : GatherDims S262144x32 S2359296x1 S2359296x32 where
  offsetDims := [1]
  collapsedSliceDims := [0]
  operandBatchingDims := []
  startIndicesBatchingDims := []
  startIndexMap := [0]
  indexVectorDim := 1
  sliceSizes := ![1, 32]
  wf := gather_S262144x32_S2359296x1_S2359296x32_1_0_n_n_0_1_132_wf
def scatter_S262144x32_S2359296x1_S2359296x32_1_0_0_1 : ScatterDims S262144x32 S2359296x1 S2359296x32 where
  updateWindowDims := [1]
  insertedWindowDims := [0]
  scatterDimsToOperandDims := [0]
  indexVectorDim := 1
  wf := scatter_S262144x32_S2359296x1_S2359296x32_1_0_0_1_wf
def dot_S262144x32_S32x32_S262144x32_1_0_0_1_n_n : DotDims S262144x32 S32x32 S262144x32 where
  lhsContracting := [1]
  rhsContracting := [0]
  lhsNonContracting := [0]
  rhsNonContracting := [1]
  lhsBatch := []
  rhsBatch := []
  wf := dot_S262144x32_S32x32_S262144x32_1_0_0_1_n_n_wf
def dot_S262144x32_S32x1_S262144x1_1_0_0_1_n_n : DotDims S262144x32 S32x1 S262144x1 where
  lhsContracting := [1]
  rhsContracting := [0]
  lhsNonContracting := [0]
  rhsNonContracting := [1]
  lhsBatch := []
  rhsBatch := []
  wf := dot_S262144x32_S32x1_S262144x1_1_0_0_1_n_n_wf
def gather_S262144x1_S2359296x1_S2359296x1_1_0_n_n_0_1_11 : GatherDims S262144x1 S2359296x1 S2359296x1 where
  offsetDims := [1]
  collapsedSliceDims := [0]
  operandBatchingDims := []
  startIndicesBatchingDims := []
  startIndexMap := [0]
  indexVectorDim := 1
  sliceSizes := ![1, 1]
  wf := gather_S262144x1_S2359296x1_S2359296x1_1_0_n_n_0_1_11_wf
def scatter_S262144x1_S2359296x1_S2359296x1_1_0_0_1 : ScatterDims S262144x1 S2359296x1 S2359296x1 where
  updateWindowDims := [1]
  insertedWindowDims := [0]
  scatterDimsToOperandDims := [0]
  indexVectorDim := 1
  wf := scatter_S262144x1_S2359296x1_S2359296x1_1_0_0_1_wf

class Facts : Prop extends Facts₀ where

variable [Facts]
-- ==== Proof.Spec.lean ====
/-
  The mathematics of the claim, over the reals, for ONE graph of the batch.  A graph has 128 nodes and 1024 edges
  `src e → dst e` shared by every graph of the batch; its data are a node signal `p`, edge weights `w`, and the three
  layers' weights.  With self-loops of weight one the in-degree of node `n` is `deg n = 1 + Σ_{dst e = n} w e`, the
  normalisation `dinv n = deg n ^ (-1/2)` where the degree is positive and `0` elsewhere, and one propagation of a
  node field `h` is
      prop h n = (Σ_{dst e = n} h (src e) · dinv (src e) · w e) · dinv n + h n · dinv n²
  (the edges' messages, then the self-loop).  The network is three propagations: a rank-one first layer
  (`prop p n · W1 o + b1 o`, rectified), a 32 → 32 layer (rectified) and a 32 → 1 layer.
  `propR` is the same propagation with the normalisation gathered per edge, `h (src e) · (dinv (src e) · w e · dinv (dst e))`,
  and the self-loop as `h n · (dinv n · 1 · dinv n)`: equal to `prop` by distributivity of the reals.
-/
import Idealize.ShloMosaic.PureOps.Ideal
import Idealize.ShloMosaic.Lib.ValueIdx

noncomputable section

open scoped BigOperators

namespace Cert.Gcn

variable (src dst : Fin 1024 → Fin 128)

/-- The sum of an edge field over the edges that end at node `n`. -/
def agg (f : Fin 1024 → ℝ) (n : Fin 128) : ℝ := ∑ e : Fin 1024, if dst e = n then f e else 0

/-- The weighted in-degree with the self-loop. -/
def deg (w : Fin 1024 → ℝ) (n : Fin 128) : ℝ := 1 + agg dst w n

/-- The symmetric normalisation: the inverse square root of a positive degree, zero otherwise. -/
def dinv (w : Fin 1024 → ℝ) (n : Fin 128) : ℝ := if 0 < deg dst w n then (Real.sqrt (deg dst w n))⁻¹ else 0

/-- One propagation step, the edges' messages summed first and normalised at the destination afterwards. -/
def prop (w : Fin 1024 → ℝ) (h : Fin 128 → ℝ) (n : Fin 128) : ℝ :=
  agg dst (fun e => h (src e) * dinv dst w (src e) * w e) n * dinv dst w n + h n * (dinv dst w n * dinv dst w n)

/-- The same step with the normalisation gathered per edge and the self-loop as an edge of weight one. -/
def propR (w : Fin 1024 → ℝ) (h : Fin 128 → ℝ) (n : Fin 128) : ℝ :=
  agg dst (fun e => h (src e) * (dinv dst w (src e) * w e * dinv dst w (dst e))) n + h n * (dinv dst w n * 1 * dinv dst w n)

variable (w : Fin 1024 → ℝ) (p : Fin 128 → ℝ) (W1 b1 : Fin 32 → ℝ) (W2 : Fin 32 → Fin 32 → ℝ) (b2 : Fin 32 → ℝ)
  (W3 : Fin 32 → ℝ) (b3 : ℝ)

/-- First layer: the scalar field propagated, then the rank-one weight and the bias, rectified. -/
def x1 (o : Fin 32) (n : Fin 128) : ℝ := max (prop src dst w p n * W1 o + b1 o) 0
/-- Second layer's channel mix (before its propagation). -/
def h2 (o : Fin 32) (n : Fin 128) : ℝ := ∑ i : Fin 32, x1 src dst w p W1 b1 i n * W2 i o
/-- Second layer, rectified. -/
def x2 (o : Fin 32) (n : Fin 128) : ℝ := max (prop src dst w (h2 src dst w p W1 b1 W2 o) n + b2 o) 0
/-- Third layer's channel mix. -/
def h3 (n : Fin 128) : ℝ := ∑ i : Fin 32, x2 src dst w p W1 b1 W2 b2 i n * W3 i
/-- The network's output at node `n`. -/
def out (n : Fin 128) : ℝ := prop src dst w (h3 src dst w p W1 b1 W2 b2 W3) n + b3

/-- The reference's arrangement: the first layer mixes channels BEFORE it propagates. -/
def x1R (o : Fin 32) (n : Fin 128) : ℝ := max (propR src dst w (fun k => p k * W1 o) n + b1 o) 0
def h2R (o : Fin 32) (n : Fin 128) : ℝ := ∑ i : Fin 32, x1R src dst w p W1 b1 i n * W2 i o
def x2R (o : Fin 32) (n : Fin 128) : ℝ := max (propR src dst w (h2R src dst w p W1 b1 W2 o) n + b2 o) 0
def h3R (n : Fin 128) : ℝ := ∑ i : Fin 32, x2R src dst w p W1 b1 W2 b2 i n * W3 i
def outR (n : Fin 128) : ℝ := propR src dst w (h3R src dst w p W1 b1 W2 b2 W3) n + b3

/-- The per-edge normalisation factors out of the sum over the edges into a node: both steps are one function. -/
theorem propR_eq (h : Fin 128 → ℝ) (n : Fin 128) : propR src dst w h n = prop src dst w h n := by
  unfold propR prop agg
  rw [Finset.sum_mul]
  congr 1
  · refine Finset.sum_congr rfl fun e _ => ?_
    by_cases he : dst e = n
    · simp only [he, if_true]; ring
    · simp only [he, if_false, zero_mul]
  · ring

/-- Propagation is linear: a constant factor on the field comes out. -/
theorem prop_mul_const (h : Fin 128 → ℝ) (c : ℝ) (n : Fin 128) :
    prop src dst w (fun k => h k * c) n = prop src dst w h n * c := by
  unfold prop agg
  have : ∀ e : Fin 1024, (if dst e = n then h (src e) * c * dinv dst w (src e) * w e else 0)
      = (if dst e = n then h (src e) * dinv dst w (src e) * w e else 0) * c := by
    intro e; by_cases he : dst e = n
    · simp only [he, if_true]; ring
    · simp only [he, if_false, zero_mul]
  simp only [this, ← Finset.sum_mul]
  ring

theorem x1R_eq (o : Fin 32) (n : Fin 128) : x1R src dst w p W1 b1 o n = x1 src dst w p W1 b1 o n := by
  unfold x1R x1; rw [propR_eq, prop_mul_const]

theorem h2R_eq (o : Fin 32) (n : Fin 128) : h2R src dst w p W1 b1 W2 o n = h2 src dst w p W1 b1 W2 o n := by
  unfold h2R h2; simp only [x1R_eq]

theorem x2R_eq (o : Fin 32) (n : Fin 128) : x2R src dst w p W1 b1 W2 b2 o n = x2 src dst w p W1 b1 W2 b2 o n := by
  unfold x2R x2
  rw [propR_eq]
  have : h2R src dst w p W1 b1 W2 o = h2 src dst w p W1 b1 W2 o := funext fun k => h2R_eq src dst w p W1 b1 W2 o k
  rw [this]

theorem h3R_eq (n : Fin 128) : h3R src dst w p W1 b1 W2 b2 W3 n = h3 src dst w p W1 b1 W2 b2 W3 n := by
  unfold h3R h3; simp only [x2R_eq]

/-- The two arrangements of the network are one function. -/
theorem outR_eq (n : Fin 128) : outR src dst w p W1 b1 W2 b2 W3 b3 n = out src dst w p W1 b1 W2 b2 W3 b3 n := by
  unfold outR out
  rw [propR_eq]
  have : h3R src dst w p W1 b1 W2 b2 W3 = h3 src dst w p W1 b1 W2 b2 W3 := funext fun k => h3R_eq src dst w p W1 b1 W2 b2 W3 k
  rw [this]

end Cert.Gcn

/-! ## The batch: the arguments as real data -/

namespace Cert.Gcn

open Idealize.ShloMosaic Idealize.ShloMosaic.ValueIdx

/-- Column `128 + e` of a row of the input: edge `e`'s weight. -/
abbrev wcol (e : Fin 1024) : Fin 1154 := ⟨128 + e.val, by have := e.isLt; omega⟩
/-- Column `k` of a row of the input: node `k`'s signal. -/
abbrev pcol (k : Fin 128) : Fin 1154 := ⟨k.val, by have := k.isLt; omega⟩

/-- Node `k` of graph `B` in the batched graph of 2048 · 128 nodes: `128 B + k`. -/
abbrev node (B : Fin 2048) (k : Fin 128) : Fin 262144 := ⟨B.val * 128 + k.val, by have := B.isLt; have := k.isLt; omega⟩
/-- Edge `e` of graph `B` in the batched list of 2048 · 1024 edges followed by the 262144 self-loops: row `1024 B + e`. -/
abbrev edgeJ (B : Fin 2048) (e : Fin 1024) : Fin 2359296 := ⟨B.val * 1024 + e.val, by have := B.isLt; have := e.isLt; omega⟩
/-- The self-loop of batched node `N` in that list: row `2097152 + N`. -/
abbrev loopJ (N : Fin 262144) : Fin 2359296 := ⟨2097152 + N.val, by have := N.isLt; omega⟩

/-- The network's output for graph `B` of the batch at node `n`, from the arguments as real data: `HX` the input rows
    (node signals, then edge weights), `EI 0` / `EI 1` the edges' sources and destinations. -/
def result (HX : Fin 2048 → Fin 1154 → ℝ) (EI : Fin 2 → Fin 1024 → Fin 128) (W1 b1 : Fin 32 → ℝ) (W2 : Fin 32 → Fin 32 → ℝ)
    (b2 : Fin 32 → ℝ) (W3 : Fin 32 → ℝ) (b3 : ℝ) (B : Fin 2048) (n : Fin 128) : ℝ :=
  out (EI 0) (EI 1) (fun e => HX B (wcol e)) (fun k => HX B (pcol k)) W1 b1 W2 b2 W3 b3 n

/-- The reference's arrangement of the same. -/
def resultR (HX : Fin 2048 → Fin 1154 → ℝ) (EI : Fin 2 → Fin 1024 → Fin 128) (W1 b1 : Fin 32 → ℝ) (W2 : Fin 32 → Fin 32 → ℝ)
    (b2 : Fin 32 → ℝ) (W3 : Fin 32 → ℝ) (b3 : ℝ) (B : Fin 2048) (n : Fin 128) : ℝ :=
  outR (EI 0) (EI 1) (fun e => HX B (wcol e)) (fun k => HX B (pcol k)) W1 b1 W2 b2 W3 b3 n

theorem resultR_eq (HX : Fin 2048 → Fin 1154 → ℝ) (EI : Fin 2 → Fin 1024 → Fin 128) (W1 b1 : Fin 32 → ℝ) (W2 : Fin 32 → Fin 32 → ℝ)
    (b2 : Fin 32 → ℝ) (W3 : Fin 32 → ℝ) (b3 : ℝ) (B : Fin 2048) (n : Fin 128) :
    resultR HX EI W1 b1 W2 b2 W3 b3 B n = result HX EI W1 b1 W2 b2 W3 b3 B n := outR_eq _ _ _ _ _ _ _ _ _ _ n

/-- The eight argument arrays ARE the real data: every float entry is the real it names, every edge endpoint is
    the node index it names (as a 32-bit word). What the precondition gives. -/
structure Inputs
    (a0 : (⟨2, ![2048, 1154]⟩ : Shape).Idx → EReal) (a1 : (⟨2, ![2, 1024]⟩ : Shape).Idx → BitVec 32)
    (a2 : (⟨2, ![1, 32]⟩ : Shape).Idx → EReal) (a3 : (⟨1, ![32]⟩ : Shape).Idx → EReal)
    (a4 : (⟨2, ![32, 32]⟩ : Shape).Idx → EReal) (a5 : (⟨1, ![32]⟩ : Shape).Idx → EReal)
    (a6 : (⟨2, ![32, 1]⟩ : Shape).Idx → EReal) (a7 : (⟨1, ![1]⟩ : Shape).Idx → EReal)
    (HX : Fin 2048 → Fin 1154 → ℝ) (EI : Fin 2 → Fin 1024 → Fin 128) (W1 b1 : Fin 32 → ℝ) (W2 : Fin 32 → Fin 32 → ℝ)
    (b2 : Fin 32 → ℝ) (W3 : Fin 32 → ℝ) (b3 : ℝ) : Prop where
  hx : ∀ (B : Fin 2048) (j : Fin 1154), a0 (ix2 B j) = ((HX B j : ℝ) : EReal)
  ei : ∀ (r : Fin 2) (e : Fin 1024), a1 (ix2 r e) = BitVec.ofNat 32 (EI r e).val
  w1 : ∀ o : Fin 32, a2 (ix2 (0 : Fin 1) o) = ((W1 o : ℝ) : EReal)
  b1 : ∀ o : Fin 32, a3 (ix1 o) = ((b1 o : ℝ) : EReal)
  w2 : ∀ i o : Fin 32, a4 (ix2 i o) = ((W2 i o : ℝ) : EReal)
  b2 : ∀ o : Fin 32, a5 (ix1 o) = ((b2 o : ℝ) : EReal)
  w3 : ∀ i : Fin 32, a6 (ix2 i (0 : Fin 1)) = ((W3 i : ℝ) : EReal)
  b3 : a7 (ix1 (0 : Fin 1)) = ((b3 : ℝ) : EReal)

end Cert.Gcn

end
-- ==== Proof.LibCoe.lean ====
/-
  Extended-real facts used throughout: a finite sum of reals is real, the order and the reciprocal square root on
  reals, a select on a decided comparison, the float words for 0 and 1, and the contraction of a field with an
  indicator (a one-hot row or column picks one entry; an indicator column restricts a sum).
-/
import Idealize.ShloMosaic.PureOps.Ideal
import Idealize.ShloMosaic.PureOps.Ideal.Laws

noncomputable section

open scoped BigOperators

namespace Cert.Gcn

open Idealize.ShloMosaic

/-- A finite sum of real numbers, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The strict comparison of two reals in the extended reals. -/
theorem cmp_ogt_coe (a b : ℝ) : Ideal.cmp .ogt (a : EReal) (b : EReal) = BitVec.ofBool (decide (b < a)) := by
  unfold Ideal.cmp
  simp only [EReal.coe_lt_coe_iff]

/-- A select on a decided condition is the `if`. -/
theorem select_ofBool {α : Type} (c : Prop) [Decidable c] (a b : α) :
    Scalar.select (BitVec.ofBool (decide c)) a b = if c then a else b := by
  unfold Scalar.select
  by_cases h : c
  · simp [h]
  · simp [h]

/-- The reciprocal square root of a positive real. -/
theorem rsqrt_coe_pos {r : ℝ} (h : 0 < r) : Ideal.rsqrt (r : EReal) = (((Real.sqrt r)⁻¹ : ℝ) : EReal) := by
  rw [Ideal.rsqrt_coe, if_neg (not_lt.2 h.le), if_neg (ne_of_gt h)]

/-- The word of `1.0f` denotes one. -/
theorem ofBits_one_f32 : Ideal.ofBits .f32 0x3F800000#32 = ((1 : ℝ) : EReal) := by
  simp [Ideal.ofBits, Ideal.ieee]
  rw [← EReal.coe_mul]
  norm_num

/-- The word of `0.0f` denotes the real zero. -/
theorem ofBits_zero_f32' : Ideal.ofBits .f32 0x00000000#32 = ((0 : ℝ) : EReal) := by
  rw [Ideal.ofBits_zero_f32]; rfl

/-- A real field contracted with a one-hot indicator picks the entry at the hot position. -/
theorem sum_mul_onehot {ι : Type} [Fintype ι] [DecidableEq ι] (f : ι → ℝ) (s : ι) :
    (∑ k : ι, ((f k : ℝ) : EReal) * (if k = s then ((1 : ℝ) : EReal) else ((0 : ℝ) : EReal))) = ((f s : ℝ) : EReal) := by
  have : ∀ k : ι, ((f k : ℝ) : EReal) * (if k = s then ((1 : ℝ) : EReal) else ((0 : ℝ) : EReal))
      = (((if k = s then f k else 0 : ℝ)) : EReal) := by
    intro k; by_cases hk : k = s
    · simp [hk]
    · simp [hk]
  simp only [this, coe_sum, Finset.sum_ite_eq', Finset.mem_univ, if_true]

/-- A real field contracted with an indicator of a predicate is the real sum restricted to the predicate. -/
theorem sum_mul_indicator {ι : Type} [Fintype ι] (f : ι → ℝ) (P : ι → Prop) [DecidablePred P] :
    (∑ k : ι, ((f k : ℝ) : EReal) * (if P k then ((1 : ℝ) : EReal) else ((0 : ℝ) : EReal)))
      = ((∑ k : ι, (if P k then f k else 0) : ℝ) : EReal) := by
  have : ∀ k : ι, ((f k : ℝ) : EReal) * (if P k then ((1 : ℝ) : EReal) else ((0 : ℝ) : EReal))
      = (((if P k then f k else 0 : ℝ)) : EReal) := by
    intro k; by_cases hk : P k
    · simp [hk]
    · simp [hk]
  simp only [this, coe_sum]

end Cert.Gcn

end
-- ==== Proof.Pre.lean ====
/-
  What the precondition says of the arguments: every float entry is a real number, and every entry of `edge_index`
  is a node index `0 ≤ · < 128` — so the arguments are real data in the sense of Spec.lean's `Inputs`.
-/
import proofs.«402176_j11295763988681_3_alg».proof.Proof.Gen.Pre_finite_inputs
import proofs.«402176_j11295763988681_3_alg».proof.Proof.Spec
import proofs.«402176_j11295763988681_3_alg».proof.Proof.LibCoe
import Idealize.ShloMosaic.Lib.ReduceAll
import Idealize.ShloMosaic.Lib.StableHlo.Predicate

noncomputable section

namespace Cert.Gcn.Pre

open Cert.Pre_finite_inputs Idealize.ShloMosaic Idealize.ShloMosaic.ValueIdx

/-- The shape of rank zero has exactly one index. -/
instance : Subsingleton S_.Idx := ⟨fun a b => funext fun d => d.elim0⟩

/-- The single-precision word `0x7F800000` (exponent all ones, fraction zero, sign clear) denotes `+∞`. -/
theorem ofBits_inf_f32 : Ideal.ofBits .f32 0x7F800000#32 = (⊤ : EReal) := by
  simp [Ideal.ofBits, Ideal.ieee]

/-- An extended real whose absolute value `max x (-x)` is strictly below `+∞` is neither `+∞` nor `-∞`
    (since `-(-∞) = +∞`), hence the real number `x.toReal`. -/
theorem real_of_abs_lt_top (x : EReal) (h : Ideal.cmp .olt (max x (-x)) (⊤ : EReal) = 1#1) :
    ((x.toReal : ℝ) : EReal) = x := by
  unfold Ideal.cmp at h
  simp only [StableHlo.Predicate.ofBool_eq_one_iff, decide_eq_true_eq] at h
  have h1 : x < ⊤ := lt_of_le_of_lt (le_max_left _ _) h
  have h2 : -x < ⊤ := lt_of_le_of_lt (le_max_right _ _) h
  refine EReal.coe_toReal (ne_of_lt h1) ?_
  intro hb
  rw [hb, EReal.neg_bot] at h2
  exact lt_irrefl _ h2

/-- The conjunction over all entries of `|x i| < +∞`, when it holds, gives at each entry that `x i` is a real number. -/
theorem real_of_all {s : Shape} {axes : List (Fin s.rank)} (x : FVec Ideal s .f32)
    (hb : S_.BroadcastsInDim s (![] : Fin 0 → Fin s.rank)) (hr : s.ReducesTo axes S_) (h0 : 0 < S_.numel) (init : IVec S_ 1)
    (e : Host.reduce IntOp.andi
        (cmpf .olt (Host.absf x) (broadcastInDim s ![] hb (constant (F := Ideal) S_ .f32 0x7F800000#32))) init hr h0 ix0 = 1#1)
    (i : s.Idx) : (((x i).toReal : ℝ) : EReal) = x i := by
  have hi := Host.reduce_andi_all _ init hr h0 ix0 e i
  have hc : Ideal.cmp .olt (max (x i) (-(x i))) (Ideal.ofBits .f32 0x7F800000#32) = 1#1 := hi
  rw [ofBits_inf_f32] at hc
  exact real_of_abs_lt_top _ hc

/-- A 32-bit word that is `≥ 0` and `< 128` as a signed number: its sign bit is clear, so its unsigned value is its
    signed value, and that is below 128. -/
theorem toNat_lt_of_range (w : BitVec 32) (h0 : IntOp.cmpi .sge w 0#32 = 1#1) (h1 : IntOp.cmpi .slt w 128#32 = 1#1) :
    w.toNat < 128 := by
  unfold IntOp.cmpi at h0 h1
  rw [StableHlo.Predicate.ofBool_eq_one_iff] at h0 h1
  have a0 : (0#32 : BitVec 32).toInt ≤ w.toInt := BitVec.sle_iff_toInt_le.1 h0
  have a1 : w.toInt < (128#32 : BitVec 32).toInt := BitVec.slt_iff_toInt_lt.1 h1
  have e0 : (0#32 : BitVec 32).toInt = 0 := by decide
  have e1 : (128#32 : BitVec 32).toInt = 128 := by decide
  rw [e0] at a0
  rw [e1] at a1
  rw [BitVec.toInt_eq_toNat_cond] at a0 a1
  have hw := w.isLt
  by_cases hc : 2 * w.toNat < 2 ^ 32
  · rw [if_pos hc] at a0 a1; omega
  · rw [if_neg hc] at a0 a1; omega

/-- The conjunctions over all entries of `0 ≤ a i` and of `a i < 128` (signed), when both hold, give at each entry of
    the edge list a word of value below 128. -/
theorem range_of_all (a : IVec S2x1024 32) {axes : List (Fin S2x1024.rank)}
    (hb : S_.BroadcastsInDim S2x1024 (![] : Fin 0 → Fin S2x1024.rank)) (hr : S2x1024.ReducesTo axes S_) (h0 : 0 < S_.numel)
    (init init' : IVec S_ 1)
    (e0 : Host.reduce IntOp.andi (cmpi .sge a (broadcastInDim S2x1024 ![] hb (constantI S_ 32 0#32))) init hr h0 ix0 = 1#1)
    (e1 : Host.reduce IntOp.andi (cmpi .slt a (broadcastInDim S2x1024 ![] hb (constantI S_ 32 128#32))) init' hr h0 ix0 = 1#1)
    (i : S2x1024.Idx) : (a i).toNat < 128 := by
  have g0 : IntOp.cmpi .sge (a i) 0#32 = 1#1 := Host.reduce_andi_all _ init hr h0 ix0 e0 i
  have g1 : IntOp.cmpi .slt (a i) 128#32 = 1#1 := Host.reduce_andi_all _ init' hr h0 ix0 e1 i
  exact toNat_lt_of_range _ g0 g1

/-- THE PRECONDITION DECODED: arguments on which the printed predicate is all ones are real data. -/
theorem inputs_of_pre [Cert.Pre_finite_inputs.Facts]
    (a0 : FVec Ideal S2048x1154 .f32) (a1 : IVec S2x1024 32) (a2 : FVec Ideal S1x32 .f32) (a3 : FVec Ideal S32 .f32)
    (a4 : FVec Ideal S32x32 .f32) (a5 : FVec Ideal S32 .f32) (a6 : FVec Ideal S32x1 .f32) (a7 : FVec Ideal S1 .f32)
    (h : Cert.Pre_finite_inputs.fn (F := Ideal) a0 a1 a2 a3 a4 a5 a6 a7 = fun _ => 1#1) :
    ∃ (HX : Fin 2048 → Fin 1154 → ℝ) (EI : Fin 2 → Fin 1024 → Fin 128) (W1 b1 : Fin 32 → ℝ) (W2 : Fin 32 → Fin 32 → ℝ)
      (b2 : Fin 32 → ℝ) (W3 : Fin 32 → ℝ) (b3 : ℝ), Inputs a0 a1 a2 a3 a4 a5 a6 a7 HX EI W1 b1 W2 b2 W3 b3 := by
  -- the predicate at its one index is a nine-fold conjunction: seven finiteness clauses, then the two range clauses
  have e := congrFun h ix0
  dsimp only [fn, fn_part1, fn_part2] at e
  simp only [andi, IntOp.andi_eq_one] at e
  obtain ⟨⟨⟨⟨⟨⟨⟨⟨h0, h2⟩, h3⟩, h4⟩, h5⟩, h6⟩, h7⟩, hge⟩, hlt⟩ := e
  have r0 := real_of_all a0 _ _ _ _ h0
  have r2 := real_of_all a2 _ _ _ _ h2
  have r3 := real_of_all a3 _ _ _ _ h3
  have r4 := real_of_all a4 _ _ _ _ h4
  have r5 := real_of_all a5 _ _ _ _ h5
  have r6 := real_of_all a6 _ _ _ _ h6
  have r7 := real_of_all a7 _ _ _ _ h7
  have rng := range_of_all a1 _ _ _ _ _ hge hlt
  -- the witnesses: each float entry's real part, each edge endpoint's value (below 128)
  refine ⟨fun B j => (a0 (ix2 B j)).toReal, fun r e => ⟨(a1 (ix2 r e)).toNat, rng _⟩,
    fun o => (a2 (ix2 (0 : Fin 1) o)).toReal, fun o => (a3 (ix1 o)).toReal, fun i o => (a4 (ix2 i o)).toReal,
    fun o => (a5 (ix1 o)).toReal, fun i => (a6 (ix2 i (0 : Fin 1))).toReal, (a7 (ix1 (0 : Fin 1))).toReal, ?_⟩
  exact
    { hx := fun B j => (r0 _).symm
      ei := fun r e => BitVec.eq_of_toNat_eq (by rw [BitVec.toNat_ofNat]; exact (Nat.mod_eq_of_lt (a1 _).isLt).symm)
      w1 := fun o => (r2 _).symm
      b1 := fun o => (r3 _).symm
      w2 := fun i o => (r4 _).symm
      b2 := fun o => (r5 _).symm
      w3 := fun i => (r6 _).symm
      b3 := (r7 _).symm }

end Cert.Gcn.Pre

end
-- ==== Proof.LibDot.lean ====
/-
  The matrix unit's product of an `[R, K]` by a `[K, C]` matrix into a zero accumulator, read at an entry, at the
  extended reals: the sum over `k` of the products.  And the product taken "exactly in two passes": of the left operand
  narrowed, plus of the left operand minus itself narrowed — on a real left operand the second pass is a product with
  zero, and the two passes together are the one real product.
-/
import Idealize.ShloMosaic.PureOps.Ideal
import Idealize.ShloMosaic.PureOps.Ideal.Laws
import Idealize.ShloMosaic.Lib.ValueIdx
import proofs.«402176_j11295763988681_3_alg».proof.Proof.LibCoe

noncomputable section

open scoped BigOperators

namespace Cert.Gcn.Dot

open Idealize.ShloMosaic Idealize.ShloMosaic.ValueIdx

/-- The dimension numbers of a plain matrix product: contract the left operand's axis 1 with the right's axis 0. -/
abbrev mm (R K C : Nat) (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ := ⟨[1], [0], [0], [1], [], [], wf⟩

/-- The left operand's index on axis 0 is the result index's row. -/
theorem lhs_0 {R K C : Nat} (wf : DotDims.WF ⟨2, ![R, K]⟩ ⟨2, ![K, C]⟩ ⟨2, ![R, C]⟩ [1] [0] [0] [1] [] [])
    (j : (⟨2, ![R, C]⟩ : Shape).Idx) (q : (mm R K C wf).contr.Idx) :
    ((mm R K C wf).lhsIdx j q 0).val = (j 0).val := by
  unfold DotDims.lhsIdx
  rw [dif_neg (show ¬(0 : Fin (⟨2, ![R, K]⟩ : Shape).rank) ∈ (mm R K C wf).lhsBatch from List.not_mem_nil),
    dif_pos (show (0 : Fin (⟨2, ![R, K]⟩ : Shape).rank) ∈ (mm R K C wf).lhsNonContracting from List.mem_singleton.mpr rfl)]
  rfl

/-- The left operand's index on axis 1 is the contraction position's one coordinate. -/
theorem lhs_1 {R K C : Nat} (wf : DotDims.WF ⟨2, ![R, K]⟩ ⟨2, ![K, C]⟩ ⟨2, ![R, C]⟩ [1] [0] [0] [1] [] [])
    (j : (⟨2, ![R, C]⟩ : Shape).Idx) (q : (mm R K C wf).contr.Idx) :
    ((mm R K C wf).lhsIdx j q 1).val = (q ⟨0, Nat.one_pos⟩).val :=
  (mm R K C wf).lhsIdx_val_of_single rfl j q

/-- The right operand's index on axis 0 is the contraction position's one coordinate. -/
theorem rhs_0 {R K C : Nat} (wf : DotDims.WF ⟨2, ![R, K]⟩ ⟨2, ![K, C]⟩ ⟨2, ![R, C]⟩ [1] [0] [0] [1] [] [])
    (j : (⟨2, ![R, C]⟩ : Shape).Idx) (q : (mm R K C wf).contr.Idx) :
    ((mm R K C wf).rhsIdx j q 0).val = (q ⟨0, Nat.one_pos⟩).val :=
  (mm R K C wf).rhsIdx_val_of_single rfl j q

/-- The right operand's index on axis 1 is the result index's column. -/
theorem rhs_1 {R K C : Nat} (wf : DotDims.WF ⟨2, ![R, K]⟩ ⟨2, ![K, C]⟩ ⟨2, ![R, C]⟩ [1] [0] [0] [1] [] [])
    (j : (⟨2, ![R, C]⟩ : Shape).Idx) (q : (mm R K C wf).contr.Idx) :
    ((mm R K C wf).rhsIdx j q 1).val = (j 1).val := by
  unfold DotDims.rhsIdx
  rw [dif_neg (show ¬(1 : Fin (⟨2, ![K, C]⟩ : Shape).rank) ∈ (mm R K C wf).rhsBatch from List.not_mem_nil),
    dif_pos (show (1 : Fin (⟨2, ![K, C]⟩ : Shape).rank) ∈ (mm R K C wf).rhsNonContracting from List.mem_singleton.mpr rfl)]
  rfl

/-- THE PRODUCT AT `(r, c)`: into a zero accumulator, the sum over the contracted axis. -/
theorem matmul_zero_apply {R K C : Nat} {φ₁ φ₂ : FTy}
    (wf : DotDims.WF ⟨2, ![R, K]⟩ ⟨2, ![K, C]⟩ ⟨2, ![R, C]⟩ [1] [0] [0] [1] [] [])
    (prec : Option ContractPrecision) (x : FVec Ideal ⟨2, ![R, K]⟩ φ₁) (g : FVec Ideal ⟨2, ![K, C]⟩ φ₂) (r : Fin R) (c : Fin C) :
    matmul (mm R K C wf) prec x g (constant (F := Ideal) ⟨2, ![R, C]⟩ .f32 0x00000000#32) (ix2 r c)
      = ∑ k : Fin K, x (ix2 r k) * g (ix2 k c) := by
  refine (Ideal.matmul_constant_zero_apply (mm R K C wf) prec x g (ix2 r c)).trans ?_
  rw [← Equiv.sum_comp (contrEquiv1 (mm R K C wf) K rfl rfl).symm]
  refine Finset.sum_congr rfl fun k _ => ?_
  have hk := contrEquiv1_symm_val (mm R K C wf) K rfl rfl k
  have el : (mm R K C wf).lhsIdx (ix2 r c) ((contrEquiv1 (mm R K C wf) K rfl rfl).symm k) = ix2 r k :=
    funext fun a => Fin.ext (by
      match a with
      | ⟨0, _⟩ => exact lhs_0 wf _ _
      | ⟨1, _⟩ => exact (lhs_1 wf _ _).trans hk)
  have er : (mm R K C wf).rhsIdx (ix2 r c) ((contrEquiv1 (mm R K C wf) K rfl rfl).symm k) = ix2 k c :=
    funext fun a => Fin.ext (by
      match a with
      | ⟨0, _⟩ => exact (rhs_0 wf _ _).trans hk
      | ⟨1, _⟩ => exact rhs_1 wf _ _)
  rw [el, er]

/-- THE TWO-PASS PRODUCT ON REAL DATA: the pass over the operand plus the pass over the operand minus itself is the
    real product. (`X` the left operand's entries, `G` the right's; the narrowing to bf16 is the identity here.) -/
theorem split_matmul_apply {R K C : Nat}
    (wf : DotDims.WF ⟨2, ![R, K]⟩ ⟨2, ![K, C]⟩ ⟨2, ![R, C]⟩ [1] [0] [0] [1] [] [])
    (prec : Option ContractPrecision) (x : FVec Ideal ⟨2, ![R, K]⟩ .f32) (g : FVec Ideal ⟨2, ![K, C]⟩ .bf16)
    (hb : FTy.bf16.bits < FTy.f32.bits)
    (X : Fin R → Fin K → ℝ) (G : Fin K → Fin C → ℝ)
    (hx : ∀ r k, x (ix2 r k) = ((X r k : ℝ) : EReal)) (hg : ∀ k c, g (ix2 k c) = ((G k c : ℝ) : EReal)) (r : Fin R) (c : Fin C) :
    addf (matmul (mm R K C wf) prec (truncf .bf16 x hb) g (constant (F := Ideal) ⟨2, ![R, C]⟩ .f32 0x00000000#32))
         (matmul (mm R K C wf) prec (truncf .bf16 (subf x x) hb) g (constant (F := Ideal) ⟨2, ![R, C]⟩ .f32 0x00000000#32)) (ix2 r c)
      = ((∑ k : Fin K, X r k * G k c : ℝ) : EReal) := by
  rw [addf_apply, matmul_zero_apply wf prec (truncf .bf16 x hb) g r c,
    matmul_zero_apply wf prec (truncf .bf16 (subf x x) hb) g r c]
  have h1 : ∀ k : Fin K, (truncf .bf16 x hb : FVec Ideal ⟨2, ![R, K]⟩ .bf16) (ix2 r k) * g (ix2 k c)
      = ((X r k * G k c : ℝ) : EReal) := fun k => by
    rw [truncf_apply, hx, hg, ← EReal.coe_mul]
  have h2 : ∀ k : Fin K, (truncf .bf16 (subf x x) hb : FVec Ideal ⟨2, ![R, K]⟩ .bf16) (ix2 r k) * g (ix2 k c)
      = 0 := fun k => by
    rw [truncf_apply, subf_apply, hx, hg, ← EReal.coe_sub, sub_self, EReal.coe_zero, zero_mul]
  rw [Finset.sum_congr rfl (fun k _ => h1 k), Finset.sum_congr rfl (fun k _ => h2 k), Finset.sum_const_zero,
    add_zero, Cert.Gcn.coe_sum]

end Cert.Gcn.Dot

end
-- ==== Proof.KDag.lean ====
/-
  The kernel body's values, named.  The body is one expression over the ten vectors it loads; its shared
  sub-expressions are named here once, over variables, in the order the network computes them: the normalisation and
  its square, the first layer, the 32 channels of the second layer's mix and their stack, the second layer's scaled
  field in the two halves of its exact product, the third layer's mix, its messages, and the value stored.
-/
import proofs.«402176_j11295763988681_3_alg».proof.Proof.Gen.KernelIdeal.Frame

set_option maxRecDepth 16384

noncomputable section

namespace Cert.Gcn.KDag

open Cert.KernelIdeal Cert.KernelIdeal.Gen Idealize.ShloMosaic

variable {F : FTy → Type} [FloatOps F]

/-- The normalisation `dinv` of the block's 64 graphs. -/
abbrev dinvV (v1 : Vec F S64x1024 .f32) (v4 : Vec F S1024x128 .bf16) : FVec F S64x128 .f32 := k0_pay4 v1 v4
/-- Its square. -/
abbrev dinv2V (v1 : Vec F S64x1024 .f32) (v4 : Vec F S1024x128 .bf16) : FVec F S64x128 .f32 := k0_pay5 v1 v4
/-- The first layer's edge sums: the product of the messages with the destination matrix, -/
abbrev s1hi (v0 : Vec F S64x128 .f32) (v1 : Vec F S64x1024 .f32) (v2 : Vec F S128x1024 .bf16) (v4 : Vec F S1024x128 .bf16) : FVec F S64x128 .f32 :=
  k0_pay7 v0 v1 v2 v4
/-- and the product of the messages minus themselves. -/
abbrev s1lo (v0 : Vec F S64x128 .f32) (v1 : Vec F S64x1024 .f32) (v2 : Vec F S128x1024 .bf16) (v4 : Vec F S1024x128 .bf16) : FVec F S64x128 .f32 :=
  k0_pay8 v0 v1 v2 v4
/-- The first layer, rectified: (channel, graph, node). -/
abbrev x1V (v0 : Vec F S64x128 .f32) (v1 : Vec F S64x1024 .f32) (v2 : Vec F S128x1024 .bf16) (v4 : Vec F S1024x128 .bf16) (v44 v46 : Vec F S1x32 .f32) : FVec F S32x64x128 .f32 :=
  k0_pay9 v0 (dinvV v1 v4) (dinv2V v1 v4) (s1hi v0 v1 v2 v4) (s1lo v0 v1 v2 v4) v44 v46
/-- Output channel 0 of the second layer's channel mix. -/
abbrev ch0 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay15 v0 (dinvV v1 v4) (dinv2V v1 v4) (s1hi v0 v1 v2 v4) (s1lo v0 v1 v2 v4) v44 v46 v62
/-- Output channel 1 of the second layer's channel mix. -/
abbrev ch1 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay16 v0 (dinvV v1 v4) (dinv2V v1 v4) (s1hi v0 v1 v2 v4) (s1lo v0 v1 v2 v4) v44 v46 v62
/-- Output channel 2 of the second layer's channel mix. -/
abbrev ch2 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay17 v0 (dinvV v1 v4) (dinv2V v1 v4) (s1hi v0 v1 v2 v4) (s1lo v0 v1 v2 v4) v44 v46 v62
/-- Output channel 3 of the second layer's channel mix. -/
abbrev ch3 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay19 (x1V v0 v1 v2 v4 v44 v46) (k0_pay18 v62)
/-- Output channel 4 of the second layer's channel mix. -/
abbrev ch4 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay20 (x1V v0 v1 v2 v4 v44 v46) (k0_pay13 v62)
/-- Output channel 5 of the second layer's channel mix. -/
abbrev ch5 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay21 (x1V v0 v1 v2 v4 v44 v46) (k0_pay13 v62)
/-- Output channel 6 of the second layer's channel mix. -/
abbrev ch6 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay22 (x1V v0 v1 v2 v4 v44 v46) (k0_pay13 v62)
/-- Output channel 7 of the second layer's channel mix. -/
abbrev ch7 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay23 (x1V v0 v1 v2 v4 v44 v46) (k0_pay13 v62)
/-- Output channel 8 of the second layer's channel mix. -/
abbrev ch8 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay24 (x1V v0 v1 v2 v4 v44 v46) (k0_pay13 v62)
/-- Output channel 9 of the second layer's channel mix. -/
abbrev ch9 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay25 (x1V v0 v1 v2 v4 v44 v46) (k0_pay13 v62)
/-- Output channel 10 of the second layer's channel mix. -/
abbrev ch10 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay26 (x1V v0 v1 v2 v4 v44 v46) (k0_pay13 v62)
/-- Output channel 11 of the second layer's channel mix. -/
abbrev ch11 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay27 (x1V v0 v1 v2 v4 v44 v46) (k0_pay13 v62)
/-- Output channel 12 of the second layer's channel mix. -/
abbrev ch12 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay28 (x1V v0 v1 v2 v4 v44 v46) (k0_pay13 v62)
/-- Output channel 13 of the second layer's channel mix. -/
abbrev ch13 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay29 (x1V v0 v1 v2 v4 v44 v46) (k0_pay13 v62)
/-- Output channel 14 of the second layer's channel mix. -/
abbrev ch14 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay30 (x1V v0 v1 v2 v4 v44 v46) (k0_pay13 v62)
/-- Output channel 15 of the second layer's channel mix. -/
abbrev ch15 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay31 (x1V v0 v1 v2 v4 v44 v46) (k0_pay13 v62)
/-- Output channel 16 of the second layer's channel mix. -/
abbrev ch16 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay32 (x1V v0 v1 v2 v4 v44 v46) (k0_pay13 v62)
/-- Output channel 17 of the second layer's channel mix. -/
abbrev ch17 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay33 (x1V v0 v1 v2 v4 v44 v46) (k0_pay13 v62)
/-- Output channel 18 of the second layer's channel mix. -/
abbrev ch18 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay34 (x1V v0 v1 v2 v4 v44 v46) (k0_pay13 v62)
/-- Output channel 19 of the second layer's channel mix. -/
abbrev ch19 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay35 (x1V v0 v1 v2 v4 v44 v46) (k0_pay13 v62)
/-- Output channel 20 of the second layer's channel mix. -/
abbrev ch20 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay37 (x1V v0 v1 v2 v4 v44 v46) (k0_pay36 (k0_pay13 v62))
/-- Output channel 21 of the second layer's channel mix. -/
abbrev ch21 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay38 (x1V v0 v1 v2 v4 v44 v46) (k0_pay13 v62)
/-- Output channel 22 of the second layer's channel mix. -/
abbrev ch22 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay39 (x1V v0 v1 v2 v4 v44 v46) (k0_pay13 v62)
/-- Output channel 23 of the second layer's channel mix. -/
abbrev ch23 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay40 (x1V v0 v1 v2 v4 v44 v46) (k0_pay13 v62)
/-- Output channel 24 of the second layer's channel mix. -/
abbrev ch24 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay41 (x1V v0 v1 v2 v4 v44 v46) (k0_pay13 v62)
/-- Output channel 25 of the second layer's channel mix. -/
abbrev ch25 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay42 (x1V v0 v1 v2 v4 v44 v46) (k0_pay13 v62)
/-- Output channel 26 of the second layer's channel mix. -/
abbrev ch26 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay43 (x1V v0 v1 v2 v4 v44 v46) (k0_pay13 v62)
/-- Output channel 27 of the second layer's channel mix. -/
abbrev ch27 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay44 (x1V v0 v1 v2 v4 v44 v46) (k0_pay13 v62)
/-- Output channel 28 of the second layer's channel mix. -/
abbrev ch28 (v0 : Vec F S64x128 .f32) (v1 : Vec F S64x1024 .f32) (v2 : Vec F S128x1024 .bf16) (v4 : Vec F S1024x128 .bf16) (v44 v46 : Vec F S1x32 .f32) (v62 : Vec F S32x32 .f32) : FVec F S64x128 .f32 :=
  k0_pay45 (x1V v0 v1 v2 v4 v44 v46) (k0_pay13 v62)

/-- The second layer's channel mix, the 32 channels stacked: (channel, graph, node). -/
abbrev h2V (v0 : Vec F S64x128 .f32) (v1 : Vec F S64x1024 .f32) (v2 : Vec F S128x1024 .bf16) (v4 : Vec F S1024x128 .bf16) (v44 v46 : Vec F S1x32 .f32) (v62 : Vec F S32x32 .f32) : FVec F S32x64x128 .f32 :=
  k0_pay47 (x1V v0 v1 v2 v4 v44 v46) (k0_pay13 v62) (ch0 v0 v1 v2 v4 v44 v46 v62) (ch1 v0 v1 v2 v4 v44 v46 v62) (ch2 v0 v1 v2 v4 v44 v46 v62) (ch3 v0 v1 v2 v4 v44 v46 v62) (ch4 v0 v1 v2 v4 v44 v46 v62) (ch5 v0 v1 v2 v4 v44 v46 v62) (ch6 v0 v1 v2 v4 v44 v46 v62) (ch7 v0 v1 v2 v4 v44 v46 v62) (ch8 v0 v1 v2 v4 v44 v46 v62) (ch9 v0 v1 v2 v4 v44 v46 v62) (ch10 v0 v1 v2 v4 v44 v46 v62) (ch11 v0 v1 v2 v4 v44 v46 v62) (ch12 v0 v1 v2 v4 v44 v46 v62) (ch13 v0 v1 v2 v4 v44 v46 v62) (ch14 v0 v1 v2 v4 v44 v46 v62) (ch15 v0 v1 v2 v4 v44 v46 v62) (ch16 v0 v1 v2 v4 v44 v46 v62) (ch17 v0 v1 v2 v4 v44 v46 v62) (ch18 v0 v1 v2 v4 v44 v46 v62) (ch19 v0 v1 v2 v4 v44 v46 v62) (ch20 v0 v1 v2 v4 v44 v46 v62) (ch21 v0 v1 v2 v4 v44 v46 v62) (ch22 v0 v1 v2 v4 v44 v46 v62) (ch23 v0 v1 v2 v4 v44 v46 v62) (ch24 v0 v1 v2 v4 v44 v46 v62) (ch25 v0 v1 v2 v4 v44 v46 v62) (ch26 v0 v1 v2 v4 v44 v46 v62) (ch27 v0 v1 v2 v4 v44 v46 v62) (ch28 v0 v1 v2 v4 v44 v46 v62) (k0_pay46 (k0_pay13 v62))
/-- The mix scaled by the normalisation, as the left operand of the source product, -/
abbrev hs2hi (v0 : Vec F S64x128 .f32) (v1 : Vec F S64x1024 .f32) (v2 : Vec F S128x1024 .bf16) (v4 : Vec F S1024x128 .bf16) (v44 v46 : Vec F S1x32 .f32) (v62 : Vec F S32x32 .f32) : FVec F S2048x128 .bf16 :=
  k0_pay49 (x1V v0 v1 v2 v4 v44 v46) (k0_pay10 (dinvV v1 v4)) (k0_pay13 v62) (ch0 v0 v1 v2 v4 v44 v46 v62) (ch1 v0 v1 v2 v4 v44 v46 v62) (ch2 v0 v1 v2 v4 v44 v46 v62) (ch3 v0 v1 v2 v4 v44 v46 v62) (ch4 v0 v1 v2 v4 v44 v46 v62) (ch5 v0 v1 v2 v4 v44 v46 v62) (ch6 v0 v1 v2 v4 v44 v46 v62) (ch7 v0 v1 v2 v4 v44 v46 v62) (ch8 v0 v1 v2 v4 v44 v46 v62) (ch9 v0 v1 v2 v4 v44 v46 v62) (ch10 v0 v1 v2 v4 v44 v46 v62) (ch11 v0 v1 v2 v4 v44 v46 v62) (ch12 v0 v1 v2 v4 v44 v46 v62) (ch13 v0 v1 v2 v4 v44 v46 v62) (ch14 v0 v1 v2 v4 v44 v46 v62) (ch15 v0 v1 v2 v4 v44 v46 v62) (ch16 v0 v1 v2 v4 v44 v46 v62) (ch17 v0 v1 v2 v4 v44 v46 v62) (ch18 v0 v1 v2 v4 v44 v46 v62) (ch19 v0 v1 v2 v4 v44 v46 v62) (ch20 v0 v1 v2 v4 v44 v46 v62) (ch21 v0 v1 v2 v4 v44 v46 v62) (ch22 v0 v1 v2 v4 v44 v46 v62) (ch23 v0 v1 v2 v4 v44 v46 v62) (ch24 v0 v1 v2 v4 v44 v46 v62) (ch25 v0 v1 v2 v4 v44 v46 v62) (ch26 v0 v1 v2 v4 v44 v46 v62) (ch27 v0 v1 v2 v4 v44 v46 v62) (ch28 v0 v1 v2 v4 v44 v46 v62) (k0_pay46 (k0_pay13 v62))
/-- and that operand minus itself. -/
abbrev hs2lo (v0 : Vec F S64x128 .f32) (v1 : Vec F S64x1024 .f32) (v2 : Vec F S128x1024 .bf16) (v4 : Vec F S1024x128 .bf16) (v44 v46 : Vec F S1x32 .f32) (v62 : Vec F S32x32 .f32) : FVec F S2048x128 .bf16 :=
  k0_pay50 (x1V v0 v1 v2 v4 v44 v46) (k0_pay10 (dinvV v1 v4)) (k0_pay13 v62) (ch0 v0 v1 v2 v4 v44 v46 v62) (ch1 v0 v1 v2 v4 v44 v46 v62) (ch2 v0 v1 v2 v4 v44 v46 v62) (ch3 v0 v1 v2 v4 v44 v46 v62) (ch4 v0 v1 v2 v4 v44 v46 v62) (ch5 v0 v1 v2 v4 v44 v46 v62) (ch6 v0 v1 v2 v4 v44 v46 v62) (ch7 v0 v1 v2 v4 v44 v46 v62) (ch8 v0 v1 v2 v4 v44 v46 v62) (ch9 v0 v1 v2 v4 v44 v46 v62) (ch10 v0 v1 v2 v4 v44 v46 v62) (ch11 v0 v1 v2 v4 v44 v46 v62) (ch12 v0 v1 v2 v4 v44 v46 v62) (ch13 v0 v1 v2 v4 v44 v46 v62) (ch14 v0 v1 v2 v4 v44 v46 v62) (ch15 v0 v1 v2 v4 v44 v46 v62) (ch16 v0 v1 v2 v4 v44 v46 v62) (ch17 v0 v1 v2 v4 v44 v46 v62) (ch18 v0 v1 v2 v4 v44 v46 v62) (ch19 v0 v1 v2 v4 v44 v46 v62) (ch20 v0 v1 v2 v4 v44 v46 v62) (ch21 v0 v1 v2 v4 v44 v46 v62) (ch22 v0 v1 v2 v4 v44 v46 v62) (ch23 v0 v1 v2 v4 v44 v46 v62) (ch24 v0 v1 v2 v4 v44 v46 v62) (ch25 v0 v1 v2 v4 v44 v46 v62) (ch26 v0 v1 v2 v4 v44 v46 v62) (ch27 v0 v1 v2 v4 v44 v46 v62) (ch28 v0 v1 v2 v4 v44 v46 v62) (k0_pay46 (k0_pay13 v62))
/-- The third layer's channel mix (the second layer propagated, biased, rectified, then mixed): (1, graph, node). -/
abbrev h3V (v0 : Vec F S64x128 .f32) (v1 : Vec F S64x1024 .f32) (v2 : Vec F S128x1024 .bf16) (v4 : Vec F S1024x128 .bf16) (v44 v46 : Vec F S1x32 .f32) (v62 : Vec F S32x32 .f32) (v64 v324 : Vec F S1x32 .f32) : FVec F S1x64x128 .f32 :=
  k0_pay52 (k0_pay2 v2) (k0_pay3 v4) (k0_pay10 (dinvV v1 v4)) (k0_pay11 (dinv2V v1 v4)) (k0_pay12 v1) (k0_pay14 v64)
    (h2V v0 v1 v2 v4 v44 v46 v62) (hs2hi v0 v1 v2 v4 v44 v46 v62) (hs2lo v0 v1 v2 v4 v44 v46 v62) v324
/-- The third layer's messages: (graph, edge). -/
abbrev msg3V (v0 : Vec F S64x128 .f32) (v1 : Vec F S64x1024 .f32) (v2 : Vec F S128x1024 .bf16) (v4 : Vec F S1024x128 .bf16) (v44 v46 : Vec F S1x32 .f32) (v62 : Vec F S32x32 .f32) (v64 v324 : Vec F S1x32 .f32) : FVec F S64x1024 .f32 :=
  k0_pay53 (k0_pay2 v2) (k0_pay3 v4) (k0_pay10 (dinvV v1 v4)) (k0_pay11 (dinv2V v1 v4)) (k0_pay12 v1) (k0_pay14 v64)
    (h2V v0 v1 v2 v4 v44 v46 v62) (hs2hi v0 v1 v2 v4 v44 v46 v62) (hs2lo v0 v1 v2 v4 v44 v46 v62) v324
/-- The value the body stores: (graph, node). -/
abbrev bodyV (v0 : Vec F S64x128 .f32) (v1 : Vec F S64x1024 .f32) (v2 : Vec F S128x1024 .bf16) (v4 : Vec F S1024x128 .bf16) (v44 v46 : Vec F S1x32 .f32) (v62 : Vec F S32x32 .f32) (v64 v324 : Vec F S1x32 .f32) (v326 : Vec F S1x1 .f32) : FVec F S64x128 .f32 :=
  k0_pay1 (k0_pay3 v4) (k0_pay10 (dinvV v1 v4)) (k0_pay11 (dinv2V v1 v4)) (k0_pay51 v326)
    (h3V v0 v1 v2 v4 v44 v46 v62 v64 v324) (msg3V v0 v1 v2 v4 v44 v46 v62 v64 v324)

/-- The output window's buffer after the body is the one store of that value, over the staged blocks' loads. -/
theorem out0_9_eq (x0 : Vec F S64x1154 .f32) (x1 : Vec F S128x1024 .bf16) (x2 : Vec F S1024x128 .bf16) (x3 x4 : Vec F S1x32 .f32)
    (x5 : Vec F S32x32 .f32) (x6 x7 : Vec F S1x32 .f32) (x8 : Vec F S1x1 .f32) :
    out0_9 x0 x1 x2 x3 x4 x5 x6 x7 x8
      = View.canon [⟨r0_7, bodyV (View.ld x0 r0_0) (View.ld x0 r0_1) (View.ld x1 r0_2) (View.ld x2 r0_3) (View.ld x3 r0_4)
          (View.ld x4 r0_4) (View.ld x5 r0_5) (View.ld x6 r0_4) (View.ld x7 r0_4) (View.ld x8 r0_6)⟩] := rfl

end Cert.Gcn.KDag

end
-- ==== Proof.KBody1.lean ====
/-
  The first third of the kernel body on real data: the degree normalisation (the edge weights summed into their
  destinations by a product with the destination matrix, plus the self-loop's one; its guarded inverse square root),
  and the first layer (the scalar field propagated, then the rank-one weight and bias, rectified), as arrays over
  (graph, node) and (channel, graph, node).  Also the layout payloads that only re-lay a loaded vector.
-/
import proofs.«402176_j11295763988681_3_alg».proof.Proof.KDag
import proofs.«402176_j11295763988681_3_alg».proof.Proof.Spec
import proofs.«402176_j11295763988681_3_alg».proof.Proof.LibCoe
import proofs.«402176_j11295763988681_3_alg».proof.Proof.LibDot
import Idealize.ShloMosaic.Lib.Pipeline.Value
import Idealize.ShloMosaic.Lib.ValueLayout

noncomputable section

open scoped BigOperators

namespace Cert.Gcn.KBody1

open Cert.KernelIdeal Cert.KernelIdeal.Gen Cert.Gcn.KDag Idealize.ShloMosaic Idealize.ShloMosaic.ValueIdx

/-! ## Reading an array at an index -/

section Reads
variable {α : Type}

/-- A `[1, a, b]` array broadcast to `[m, a, b]` reads, at `(k, i, j)`, the operand at `(0, i, j)`. -/
private theorem broadcastTo_1ab_mab_apply {m a b : ℕ} (x : (⟨3, ![1, a, b]⟩ : Shape).Idx → α)
    (h : (⟨3, ![1, a, b]⟩ : Shape).Broadcasts ⟨3, ![m, a, b]⟩) (k : Fin m) (i : Fin a) (j : Fin b) :
    broadcastTo ⟨3, ![m, a, b]⟩ x h (ix3 k i j) = x (ix3 (0 : Fin 1) i j) := by
  refine broadcastTo_apply x h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `[m, 1, 1]` array broadcast to `[m, a, b]` reads, at `(k, i, j)`, the operand at `(k, 0, 0)`. -/
private theorem broadcastTo_m11_mab_apply {m a b : ℕ} (x : (⟨3, ![m, 1, 1]⟩ : Shape).Idx → α)
    (h : (⟨3, ![m, 1, 1]⟩ : Shape).Broadcasts ⟨3, ![m, a, b]⟩) (k : Fin m) (i : Fin a) (j : Fin b) :
    broadcastTo ⟨3, ![m, a, b]⟩ x h (ix3 k i j) = x (ix3 k (0 : Fin 1) (0 : Fin 1)) := by
  refine broadcastTo_apply x h (ix3 k i j) (ix3 k (0 : Fin 1) (0 : Fin 1)) fun ax => ?_
  match ax with
  | ⟨0, _⟩ =>
    show k.val = if m = 1 then 0 else k.val
    split
    · have := k.isLt; omega
    · rfl
  | ⟨1, _⟩ => rfl
  | ⟨2, _⟩ => rfl

/-- An `[m]` array cast to `[m, 1, 1]` reads, at `(k, u, u')`, the operand at `k`. -/
private theorem shapeCast_m_m11_apply {m : ℕ} (x : (⟨1, ![m]⟩ : Shape).Idx → α)
    (h : (⟨1, ![m]⟩ : Shape).ShapeCasts ⟨3, ![m, 1, 1]⟩) (k : Fin m) (u u' : Fin 1) :
    shapeCast ⟨3, ![m, 1, 1]⟩ x h (ix3 k u u') = x (ix1 k) :=
  shapeCast_apply x h _ _ (by
    have hu : u.val = 0 := by omega
    have hu' : u'.val = 0 := by omega
    rw [Shape.rowMajor_val_three, Shape.rowMajor_val_one]
    show k.val = (k.val * 1 + u.val) * 1 + u'.val
    rw [hu, hu']; omega)

end Reads

/-- A reciprocal square root at an index is the element's. -/
private theorem rsqrt_apply {s : Shape} {φ : FTy} (a : FVec Ideal s φ) (i : s.Idx) : rsqrt a i = Ideal.rsqrt (a i) := rfl

/-- A comparison of two extended reals is the linear order's. -/
private theorem cmpf_ideal {φ : FTy} (q : CmpFPredicate) (x y : Ideal φ) : FloatOps.cmpf q x y = Ideal.cmp q x y := rfl

/-- The maximum of two reals, taken in the extended reals. -/
private theorem coe_max (a b : ℝ) : ((max a b : ℝ) : EReal) = max (a : EReal) (b : EReal) :=
  EReal.coe_strictMono.monotone.map_max

/-! ## The two products on real data -/

/-- The dimension record of the product with the destination matrix is the plain matrix product's. -/
private theorem dotD_eq : dot_S64x1024_S1024x128_S64x128_1_0_0_1_n_n
    = Dot.mm 64 1024 128 dot_S64x1024_S1024x128_S64x128_1_0_0_1_n_n_wf := rfl

/-- The dimension record of the product with the source matrix is the plain matrix product's. -/
private theorem dotS_eq : dot_S64x128_S128x1024_S64x1024_1_0_0_1_n_n
    = Dot.mm 64 128 1024 dot_S64x128_S128x1024_S64x1024_1_0_0_1_n_n_wf := rfl

/-- The two-pass product of a real `64 × 1024` array with the destination matrix, at `(b, n)`: row `b` summed over
    the edges that end at `n`. -/
private theorem dst_sum_apply (v4 : Vec Ideal S1024x128 .bf16) (dst : Fin 1024 → Fin 128)
    (x : FVec Ideal S64x1024 .f32) (X : Fin 64 → Fin 1024 → ℝ)
    (hx : ∀ (b : Fin 64) (e : Fin 1024), x (ix2 b e) = ((X b e : ℝ) : EReal))
    (hv4 : ∀ (e : Fin 1024) (n : Fin 128), v4 (ix2 e n) = if dst e = n then ((1 : ℝ) : EReal) else ((0 : ℝ) : EReal))
    (b : Fin 64) (n : Fin 128) :
    matmul dot_S64x1024_S1024x128_S64x128_1_0_0_1_n_n none (truncf .bf16 x bitsLt_bf16_f32) (k0_pay3 (F := Ideal) v4)
        (constant (F := Ideal) S64x128 .f32 0x00000000#32) (ix2 b n)
      + matmul dot_S64x1024_S1024x128_S64x128_1_0_0_1_n_n none (truncf .bf16 (subf x x) bitsLt_bf16_f32) (k0_pay3 (F := Ideal) v4)
        (constant (F := Ideal) S64x128 .f32 0x00000000#32) (ix2 b n)
      = ((agg dst (X b) n : ℝ) : EReal) := by
  rw [dotD_eq]
  refine (addf_apply _ _ _).symm.trans ?_
  refine (Dot.split_matmul_apply (R := 64) (K := 1024) (C := 128) dot_S64x1024_S1024x128_S64x128_1_0_0_1_n_n_wf none x
    (k0_pay3 (F := Ideal) v4) bitsLt_bf16_f32 X (fun e n => if dst e = n then (1 : ℝ) else 0) hx (fun e n => ?_) b n).trans ?_
  · show shapeCast S1024x128 v4 shapeCasts_S1024x128_S1024x128 (ix2 e n) = _
    rw [shapeCast_self, hv4]
    split <;> rfl
  · unfold agg
    refine congrArg _ (Finset.sum_congr rfl fun e _ => ?_)
    simp only [mul_ite, mul_one, mul_zero]

/-- The two-pass product of a real `64 × 128` array with the source matrix, at `(b, e)`: row `b` at the source of
    edge `e`. -/
private theorem src_pick_apply (v2 : Vec Ideal S128x1024 .bf16) (src : Fin 1024 → Fin 128)
    (x : FVec Ideal S64x128 .f32) (X : Fin 64 → Fin 128 → ℝ)
    (hx : ∀ (b : Fin 64) (k : Fin 128), x (ix2 b k) = ((X b k : ℝ) : EReal))
    (hv2 : ∀ (n : Fin 128) (e : Fin 1024), v2 (ix2 n e) = if n = src e then ((1 : ℝ) : EReal) else ((0 : ℝ) : EReal))
    (b : Fin 64) (e : Fin 1024) :
    matmul dot_S64x128_S128x1024_S64x1024_1_0_0_1_n_n none (truncf .bf16 x bitsLt_bf16_f32) (k0_pay2 (F := Ideal) v2)
        (constant (F := Ideal) S64x1024 .f32 0x00000000#32) (ix2 b e)
      + matmul dot_S64x128_S128x1024_S64x1024_1_0_0_1_n_n none (truncf .bf16 (subf x x) bitsLt_bf16_f32) (k0_pay2 (F := Ideal) v2)
        (constant (F := Ideal) S64x1024 .f32 0x00000000#32) (ix2 b e)
      = ((X b (src e) : ℝ) : EReal) := by
  rw [dotS_eq]
  refine (addf_apply _ _ _).symm.trans ?_
  refine (Dot.split_matmul_apply (R := 64) (K := 128) (C := 1024) dot_S64x128_S128x1024_S64x1024_1_0_0_1_n_n_wf none x
    (k0_pay2 (F := Ideal) v2) bitsLt_bf16_f32 X (fun n e => if n = src e then (1 : ℝ) else 0) hx (fun n e => ?_) b e).trans ?_
  · show shapeCast S128x1024 v2 shapeCasts_S128x1024_S128x1024 (ix2 n e) = _
    rw [shapeCast_self, hv2]
    split <;> rfl
  · refine congrArg _ ?_
    simp only [mul_ite, mul_one, mul_zero, Finset.sum_ite_eq', Finset.mem_univ, if_true]

/-! ## The normalisation, the messages and the first layer -/

/-- The normalisation at `(b, n)`, over variables. -/
private theorem pay4_apply (v1 : Vec Ideal S64x1024 .f32) (v4 : Vec Ideal S1024x128 .bf16)
    (w : Fin 64 → Fin 1024 → ℝ) (dst : Fin 1024 → Fin 128)
    (hv1 : ∀ (b : Fin 64) (e : Fin 1024), v1 (ix2 b e) = ((w b e : ℝ) : EReal))
    (hv4 : ∀ (e : Fin 1024) (n : Fin 128), v4 (ix2 e n) = if dst e = n then ((1 : ℝ) : EReal) else ((0 : ℝ) : EReal))
    (b : Fin 64) (n : Fin 128) :
    k0_pay4 (F := Ideal) v1 v4 (ix2 b n) = ((dinv dst (w b) n : ℝ) : EReal) := by
  have hS := dst_sum_apply v4 dst v1 w hv1 hv4 b n
  unfold k0_pay4
  simp only [select_apply, cmpf_apply, broadcast_apply, addf_apply, rsqrt_apply, cmpf_ideal, Ideal.ofBits_def]
  rw [hS, ofBits_one_f32, ofBits_zero_f32', ← EReal.coe_add, cmp_ogt_coe, select_ofBool, select_ofBool]
  unfold dinv deg
  by_cases hd : 0 < 1 + agg dst (w b) n
  · rw [if_pos hd, if_pos hd, if_pos hd, rsqrt_coe_pos hd]
  · rw [if_neg hd, if_neg hd]

/-- The messages at `(b, e)`: the scaled field at the edge's source, times the edge's weight. -/
private theorem pay6_apply (v0 : Vec Ideal S64x128 .f32) (v1 : Vec Ideal S64x1024 .f32) (v2 : Vec Ideal S128x1024 .bf16)
    (v4 : Vec Ideal S1024x128 .bf16) (p : Fin 64 → Fin 128 → ℝ) (w : Fin 64 → Fin 1024 → ℝ) (src dst : Fin 1024 → Fin 128)
    (hv0 : ∀ (b : Fin 64) (k : Fin 128), v0 (ix2 b k) = ((p b k : ℝ) : EReal))
    (hv1 : ∀ (b : Fin 64) (e : Fin 1024), v1 (ix2 b e) = ((w b e : ℝ) : EReal))
    (hv2 : ∀ (n : Fin 128) (e : Fin 1024), v2 (ix2 n e) = if n = src e then ((1 : ℝ) : EReal) else ((0 : ℝ) : EReal))
    (hv4 : ∀ (e : Fin 1024) (n : Fin 128), v4 (ix2 e n) = if dst e = n then ((1 : ℝ) : EReal) else ((0 : ℝ) : EReal))
    (b : Fin 64) (e : Fin 1024) :
    k0_pay6 (F := Ideal) v0 v1 v2 v4 (ix2 b e) = ((p b (src e) * dinv dst (w b) (src e) * w b e : ℝ) : EReal) := by
  have hx : ∀ (b : Fin 64) (k : Fin 128),
      mulf v0 (k0_pay4 (F := Ideal) v1 v4) (ix2 b k) = ((p b k * dinv dst (w b) k : ℝ) : EReal) := by
    intro b k
    rw [mulf_apply, hv0, pay4_apply v1 v4 w dst hv1 hv4, ← EReal.coe_mul]
  have hS := src_pick_apply v2 src (mulf v0 (k0_pay4 (F := Ideal) v1 v4)) (fun b k => p b k * dinv dst (w b) k) hx hv2 b e
  unfold k0_pay6
  simp only [mulf_apply, addf_apply]
  rw [hS, hv1, ← EReal.coe_mul]

/-- The two passes of the messages' product with the destination matrix, together, at `(b, n)`. -/
private theorem pay78_apply (v0 : Vec Ideal S64x128 .f32) (v1 : Vec Ideal S64x1024 .f32) (v2 : Vec Ideal S128x1024 .bf16)
    (v4 : Vec Ideal S1024x128 .bf16) (p : Fin 64 → Fin 128 → ℝ) (w : Fin 64 → Fin 1024 → ℝ) (src dst : Fin 1024 → Fin 128)
    (hv0 : ∀ (b : Fin 64) (k : Fin 128), v0 (ix2 b k) = ((p b k : ℝ) : EReal))
    (hv1 : ∀ (b : Fin 64) (e : Fin 1024), v1 (ix2 b e) = ((w b e : ℝ) : EReal))
    (hv2 : ∀ (n : Fin 128) (e : Fin 1024), v2 (ix2 n e) = if n = src e then ((1 : ℝ) : EReal) else ((0 : ℝ) : EReal))
    (hv4 : ∀ (e : Fin 1024) (n : Fin 128), v4 (ix2 e n) = if dst e = n then ((1 : ℝ) : EReal) else ((0 : ℝ) : EReal))
    (b : Fin 64) (n : Fin 128) :
    k0_pay7 (F := Ideal) v0 v1 v2 v4 (ix2 b n) + k0_pay8 (F := Ideal) v0 v1 v2 v4 (ix2 b n)
      = ((agg dst (fun e => p b (src e) * dinv dst (w b) (src e) * w b e) n : ℝ) : EReal) :=
  dst_sum_apply v4 dst (k0_pay6 (F := Ideal) v0 v1 v2 v4) (fun b e => p b (src e) * dinv dst (w b) (src e) * w b e)
    (pay6_apply v0 v1 v2 v4 p w src dst hv0 hv1 hv2 hv4) hv4 b n

/-- The first layer's value at `(o, b, n)` from its seven operands at their indices. -/
private theorem pay9_apply (v0 : Vec Ideal S64x128 .f32) (v23 v24 v38 v39 : FVec Ideal S64x128 .f32)
    (v44 v46 : Vec Ideal S1x32 .f32) (o : Fin 32) (b : Fin 64) (n : Fin 128) :
    k0_pay9 (F := Ideal) v0 v23 v24 v38 v39 v44 v46 (ix3 o b n)
      = max (((v38 (ix2 b n) + v39 (ix2 b n)) * v23 (ix2 b n) + v0 (ix2 b n) * v24 (ix2 b n)) * v44 (ix2 (0 : Fin 1) o)
          + v46 (ix2 (0 : Fin 1) o)) (Ideal.ofBits .f32 0x00000000#32) := by
  unfold k0_pay9
  simp only [maximumf_apply, addf_apply, mulf_apply, broadcast_apply, Ideal.ofBits_def]
  rw [broadcastTo_1ab_mab_apply, broadcastTo_m11_mab_apply, broadcastTo_m11_mab_apply,
    shapeCast_ab_1ab_apply, shapeCast_m_m11_apply, shapeCast_m_m11_apply,
    shapeCast_1a_a_apply, shapeCast_1a_a_apply, shapeCast_self]
  rfl

variable (v0 : Vec Ideal S64x128 .f32) (v1 : Vec Ideal S64x1024 .f32) (v2 : Vec Ideal S128x1024 .bf16) (v4 : Vec Ideal S1024x128 .bf16)
  (v44 v46 : Vec Ideal S1x32 .f32)
  (p : Fin 64 → Fin 128 → ℝ) (w : Fin 64 → Fin 1024 → ℝ) (src dst : Fin 1024 → Fin 128) (W1 b1 : Fin 32 → ℝ)

/-- The normalisation at graph `b`, node `n`. -/
theorem dinvV_apply
    (hv1 : ∀ (b : Fin 64) (e : Fin 1024), v1 (ix2 b e) = ((w b e : ℝ) : EReal))
    (hv4 : ∀ (e : Fin 1024) (n : Fin 128), v4 (ix2 e n) = if dst e = n then ((1 : ℝ) : EReal) else ((0 : ℝ) : EReal))
    (b : Fin 64) (n : Fin 128) :
    dinvV (F := Ideal) v1 v4 (ix2 b n) = ((dinv dst (w b) n : ℝ) : EReal) := by
  exact pay4_apply v1 v4 w dst hv1 hv4 b n

/-- Its square. -/
theorem dinv2V_apply
    (hv1 : ∀ (b : Fin 64) (e : Fin 1024), v1 (ix2 b e) = ((w b e : ℝ) : EReal))
    (hv4 : ∀ (e : Fin 1024) (n : Fin 128), v4 (ix2 e n) = if dst e = n then ((1 : ℝ) : EReal) else ((0 : ℝ) : EReal))
    (b : Fin 64) (n : Fin 128) :
    dinv2V (F := Ideal) v1 v4 (ix2 b n) = ((dinv dst (w b) n * dinv dst (w b) n : ℝ) : EReal) := by
  show k0_pay4 (F := Ideal) v1 v4 (ix2 b n) * k0_pay4 (F := Ideal) v1 v4 (ix2 b n) = _
  rw [pay4_apply v1 v4 w dst hv1 hv4 b n, ← EReal.coe_mul]

/-- The first layer at channel `o`, graph `b`, node `n`. -/
theorem x1V_apply
    (hv0 : ∀ (b : Fin 64) (k : Fin 128), v0 (ix2 b k) = ((p b k : ℝ) : EReal))
    (hv1 : ∀ (b : Fin 64) (e : Fin 1024), v1 (ix2 b e) = ((w b e : ℝ) : EReal))
    (hv2 : ∀ (n : Fin 128) (e : Fin 1024), v2 (ix2 n e) = if n = src e then ((1 : ℝ) : EReal) else ((0 : ℝ) : EReal))
    (hv4 : ∀ (e : Fin 1024) (n : Fin 128), v4 (ix2 e n) = if dst e = n then ((1 : ℝ) : EReal) else ((0 : ℝ) : EReal))
    (hv44 : ∀ o : Fin 32, v44 (ix2 (0 : Fin 1) o) = ((W1 o : ℝ) : EReal))
    (hv46 : ∀ o : Fin 32, v46 (ix2 (0 : Fin 1) o) = ((b1 o : ℝ) : EReal))
    (o : Fin 32) (b : Fin 64) (n : Fin 128) :
    x1V (F := Ideal) v0 v1 v2 v4 v44 v46 (ix3 o b n) = ((x1 src dst (w b) (p b) W1 b1 o n : ℝ) : EReal) := by
  show k0_pay9 (F := Ideal) v0 (k0_pay4 v1 v4) (k0_pay5 v1 v4) (k0_pay7 v0 v1 v2 v4) (k0_pay8 v0 v1 v2 v4) v44 v46 (ix3 o b n) = _
  have h5 : k0_pay5 (F := Ideal) v1 v4 (ix2 b n) = ((dinv dst (w b) n * dinv dst (w b) n : ℝ) : EReal) :=
    dinv2V_apply v1 v4 w dst hv1 hv4 b n
  rw [pay9_apply, pay78_apply v0 v1 v2 v4 p w src dst hv0 hv1 hv2 hv4 b n, pay4_apply v1 v4 w dst hv1 hv4 b n,
    h5, hv0, hv44, hv46, ofBits_zero_f32']
  unfold x1 prop
  rw [← EReal.coe_mul, ← EReal.coe_mul, ← EReal.coe_add, ← EReal.coe_mul, ← EReal.coe_add, ← coe_max]

/-! ## Payloads that only re-lay a vector -/

theorem pay2_eq (y : Vec Ideal S128x1024 .bf16) : k0_pay2 (F := Ideal) y = y := by
  exact shapeCast_self y shapeCasts_S128x1024_S128x1024

theorem pay3_eq (y : Vec Ideal S1024x128 .bf16) : k0_pay3 (F := Ideal) y = y := by
  exact shapeCast_self y shapeCasts_S1024x128_S1024x128

theorem pay13_eq (y : Vec Ideal S32x32 .f32) : k0_pay13 (F := Ideal) y = y := by
  exact shapeCast_self y shapeCasts_S32x32_S32x32

theorem pay10_apply (y : FVec Ideal S64x128 .f32) (b : Fin 64) (n : Fin 128) :
    k0_pay10 (F := Ideal) y (ix3 (0 : Fin 1) b n) = y (ix2 b n) := by
  exact shapeCast_ab_1ab_apply y shapeCasts_S64x128_S1x64x128 (0 : Fin 1) b n

theorem pay11_apply (y : FVec Ideal S64x128 .f32) (b : Fin 64) (n : Fin 128) :
    k0_pay11 (F := Ideal) y (ix3 (0 : Fin 1) b n) = y (ix2 b n) := by
  exact shapeCast_ab_1ab_apply y shapeCasts_S64x128_S1x64x128 (0 : Fin 1) b n

theorem pay12_apply (y : Vec Ideal S64x1024 .f32) (b : Fin 64) (e : Fin 1024) :
    k0_pay12 (F := Ideal) y (ix3 (0 : Fin 1) b e) = y (ix2 b e) := by
  exact shapeCast_ab_1ab_apply y shapeCasts_S64x1024_S1x64x1024 (0 : Fin 1) b e

theorem pay14_apply (y : Vec Ideal S1x32 .f32) (o : Fin 32) :
    k0_pay14 (F := Ideal) y (ix1 o) = y (ix2 (0 : Fin 1) o) := by
  show shapeCast S32 (shapeCast S1x32 y shapeCasts_S1x32_S1x32) shapeCasts_S1x32_S32 (ix1 o) = _
  rw [shapeCast_1a_a_apply, shapeCast_self]

theorem pay51_apply (y : Vec Ideal S1x1 .f32) :
    k0_pay51 (F := Ideal) y (ix1 (0 : Fin 1)) = y (ix2 (0 : Fin 1) (0 : Fin 1)) := by
  show shapeCast S1 (shapeCast S1x1 y shapeCasts_S1x1_S1x1) shapeCasts_S1x1_S1 (ix1 (0 : Fin 1)) = _
  rw [shapeCast_1a_a_apply, shapeCast_self]

end Cert.Gcn.KBody1

end
-- ==== Proof.KBody2.lean ====
/-
  The second layer's channel mix: output channel `o` is the sum over the input channels `i` of the first layer's
  channel `i` times the transposed weight's entry `(o, i)` — a row of the weight broadcast over (graph, node) and
  summed along the leading axis, once per output channel; the 32 results stacked along a new leading axis.
-/
import proofs.«402176_j11295763988681_3_alg».proof.Proof.KDag
import proofs.«402176_j11295763988681_3_alg».proof.Proof.Spec
import proofs.«402176_j11295763988681_3_alg».proof.Proof.LibCoe
import Idealize.ShloMosaic.Lib.Pipeline.Value
import Idealize.ShloMosaic.Lib.ValueLayout
import Idealize.ShloMosaic.PureOps.Ideal.Laws

noncomputable section

open scoped BigOperators

namespace Cert.Gcn.KBody2

open Cert.KernelIdeal Cert.KernelIdeal.Gen Cert.Gcn.KDag Idealize.ShloMosaic Idealize.ShloMosaic.ValueIdx

/-- One output channel: row `o` of the weight, broadcast over (graph, node), times the field, summed over the
    leading axis, is the contraction of the field's channels with that row. -/
private theorem chan_apply (W : FVec Ideal S32x32 .f32) (X58 : FVec Ideal S32x64x128 .f32) (off : Fin S32x32.rank → Nat)
    (h : S32x32.Slices off S1x32) (o : Fin 32) (h0 : off 0 = o.val) (h1 : off 1 = 0) (b : Fin 64) (n : Fin 128) :
    multiReduction (F := Ideal) .add [0] S64x128
        (mulf X58 (broadcastTo S32x64x128 (shapeCast S32x1x1 (shapeCast S32 (extractStridedSlice S1x32 off W h)
          shapeCasts_S1x32_S32) shapeCasts_S32_S32x1x1) broadcasts_S32x1x1_S32x64x128))
        0x00000000#32 reduces_S32x64x128_S64x128 (.inl rfl) rfl (ix2 b n)
      = ∑ i : Fin 32, X58 (ix3 i b n) * W (ix2 o i) := by
  refine (Ideal.multiReduction_add_single _ _ _ _ _ _).trans ?_
  show ∑ i : Fin 32, _ = _
  refine Finset.sum_congr rfl fun i _ => ?_
  rw [mulf_apply]
  have e1 : reduces_S32x64x128_S64x128.lift (ix2 b n) i = ix3 i b n := by
    funext c; match c with | ⟨0, _⟩ => rfl | ⟨1, _⟩ => rfl | ⟨2, _⟩ => rfl
  rw [e1]
  congr 1
  refine (broadcastTo_apply _ _ _ (ix3 i (0 : Fin 1) (0 : Fin 1)) ?_).trans ?_
  · intro a; match a with
    | ⟨0, _⟩ => rfl
    | ⟨1, _⟩ => rfl
    | ⟨2, _⟩ => rfl
  refine (shapeCast_apply _ _ _ (ix1 i) ?_).trans ?_
  · rw [Shape.rowMajor_val_one, Shape.rowMajor_val_three]; simp
  refine (shapeCast_apply _ _ _ (ix2 (0 : Fin 1) i) ?_).trans ?_
  · rw [Shape.rowMajor_val_one, Shape.rowMajor_val_two]; simp
  refine extractStridedSlice_apply off W h _ (ix2 o i) ?_
  intro a; match a with
    | ⟨0, _⟩ => simpa using h0.symm
    | ⟨1, _⟩ => show i.val = off 1 + i.val; omega

/-- The stack: 32 fields of (graph, node), each recast with a unit leading axis and laid along that axis, read at
    (channel, graph, node) is the channel's field at (graph, node). -/
private theorem stack_apply {α : Type} (c : Fin 32 → (S64x128.Idx → α))
    (h : Shape.Concatenates (([
      ⟨S1x64x128, shapeCast S1x64x128 (c 0) shapeCasts_S64x128_S1x64x128⟩,
      ⟨S1x64x128, shapeCast S1x64x128 (c 1) shapeCasts_S64x128_S1x64x128⟩,
      ⟨S1x64x128, shapeCast S1x64x128 (c 2) shapeCasts_S64x128_S1x64x128⟩,
      ⟨S1x64x128, shapeCast S1x64x128 (c 3) shapeCasts_S64x128_S1x64x128⟩,
      ⟨S1x64x128, shapeCast S1x64x128 (c 4) shapeCasts_S64x128_S1x64x128⟩,
      ⟨S1x64x128, shapeCast S1x64x128 (c 5) shapeCasts_S64x128_S1x64x128⟩,
      ⟨S1x64x128, shapeCast S1x64x128 (c 6) shapeCasts_S64x128_S1x64x128⟩,
      ⟨S1x64x128, shapeCast S1x64x128 (c 7) shapeCasts_S64x128_S1x64x128⟩,
      ⟨S1x64x128, shapeCast S1x64x128 (c 8) shapeCasts_S64x128_S1x64x128⟩,
      ⟨S1x64x128, shapeCast S1x64x128 (c 9) shapeCasts_S64x128_S1x64x128⟩,
      ⟨S1x64x128, shapeCast S1x64x128 (c 10) shapeCasts_S64x128_S1x64x128⟩,
      ⟨S1x64x128, shapeCast S1x64x128 (c 11) shapeCasts_S64x128_S1x64x128⟩,
      ⟨S1x64x128, shapeCast S1x64x128 (c 12) shapeCasts_S64x128_S1x64x128⟩,
      ⟨S1x64x128, shapeCast S1x64x128 (c 13) shapeCasts_S64x128_S1x64x128⟩,
      ⟨S1x64x128, shapeCast S1x64x128 (c 14) shapeCasts_S64x128_S1x64x128⟩,
      ⟨S1x64x128, shapeCast S1x64x128 (c 15) shapeCasts_S64x128_S1x64x128⟩,
      ⟨S1x64x128, shapeCast S1x64x128 (c 16) shapeCasts_S64x128_S1x64x128⟩,
      ⟨S1x64x128, shapeCast S1x64x128 (c 17) shapeCasts_S64x128_S1x64x128⟩,
      ⟨S1x64x128, shapeCast S1x64x128 (c 18) shapeCasts_S64x128_S1x64x128⟩,
      ⟨S1x64x128, shapeCast S1x64x128 (c 19) shapeCasts_S64x128_S1x64x128⟩,
      ⟨S1x64x128, shapeCast S1x64x128 (c 20) shapeCasts_S64x128_S1x64x128⟩,
      ⟨S1x64x128, shapeCast S1x64x128 (c 21) shapeCasts_S64x128_S1x64x128⟩,
      ⟨S1x64x128, shapeCast S1x64x128 (c 22) shapeCasts_S64x128_S1x64x128⟩,
      ⟨S1x64x128, shapeCast S1x64x128 (c 23) shapeCasts_S64x128_S1x64x128⟩,
      ⟨S1x64x128, shapeCast S1x64x128 (c 24) shapeCasts_S64x128_S1x64x128⟩,
      ⟨S1x64x128, shapeCast S1x64x128 (c 25) shapeCasts_S64x128_S1x64x128⟩,
      ⟨S1x64x128, shapeCast S1x64x128 (c 26) shapeCasts_S64x128_S1x64x128⟩,
      ⟨S1x64x128, shapeCast S1x64x128 (c 27) shapeCasts_S64x128_S1x64x128⟩,
      ⟨S1x64x128, shapeCast S1x64x128 (c 28) shapeCasts_S64x128_S1x64x128⟩,
      ⟨S1x64x128, shapeCast S1x64x128 (c 29) shapeCasts_S64x128_S1x64x128⟩,
      ⟨S1x64x128, shapeCast S1x64x128 (c 30) shapeCasts_S64x128_S1x64x128⟩,
      ⟨S1x64x128, shapeCast S1x64x128 (c 31) shapeCasts_S64x128_S1x64x128⟩] : List ((s : Shape) × (s.Idx → α))).map (·.1)) S32x64x128 0)
    (o : Fin 32) (b : Fin 64) (n : Fin 128) :
    concatenate S32x64x128 0 [
      ⟨S1x64x128, shapeCast S1x64x128 (c 0) shapeCasts_S64x128_S1x64x128⟩,
      ⟨S1x64x128, shapeCast S1x64x128 (c 1) shapeCasts_S64x128_S1x64x128⟩,
      ⟨S1x64x128, shapeCast S1x64x128 (c 2) shapeCasts_S64x128_S1x64x128⟩,
      ⟨S1x64x128, shapeCast S1x64x128 (c 3) shapeCasts_S64x128_S1x64x128⟩,
      ⟨S1x64x128, shapeCast S1x64x128 (c 4) shapeCasts_S64x128_S1x64x128⟩,
      ⟨S1x64x128, shapeCast S1x64x128 (c 5) shapeCasts_S64x128_S1x64x128⟩,
      ⟨S1x64x128, shapeCast S1x64x128 (c 6) shapeCasts_S64x128_S1x64x128⟩,
      ⟨S1x64x128, shapeCast S1x64x128 (c 7) shapeCasts_S64x128_S1x64x128⟩,
      ⟨S1x64x128, shapeCast S1x64x128 (c 8) shapeCasts_S64x128_S1x64x128⟩,
      ⟨S1x64x128, shapeCast S1x64x128 (c 9) shapeCasts_S64x128_S1x64x128⟩,
      ⟨S1x64x128, shapeCast S1x64x128 (c 10) shapeCasts_S64x128_S1x64x128⟩,
      ⟨S1x64x128, shapeCast S1x64x128 (c 11) shapeCasts_S64x128_S1x64x128⟩,
      ⟨S1x64x128, shapeCast S1x64x128 (c 12) shapeCasts_S64x128_S1x64x128⟩,
      ⟨S1x64x128, shapeCast S1x64x128 (c 13) shapeCasts_S64x128_S1x64x128⟩,
      ⟨S1x64x128, shapeCast S1x64x128 (c 14) shapeCasts_S64x128_S1x64x128⟩,
      ⟨S1x64x128, shapeCast S1x64x128 (c 15) shapeCasts_S64x128_S1x64x128⟩,
      ⟨S1x64x128, shapeCast S1x64x128 (c 16) shapeCasts_S64x128_S1x64x128⟩,
      ⟨S1x64x128, shapeCast S1x64x128 (c 17) shapeCasts_S64x128_S1x64x128⟩,
      ⟨S1x64x128, shapeCast S1x64x128 (c 18) shapeCasts_S64x128_S1x64x128⟩,
      ⟨S1x64x128, shapeCast S1x64x128 (c 19) shapeCasts_S64x128_S1x64x128⟩,
      ⟨S1x64x128, shapeCast S1x64x128 (c 20) shapeCasts_S64x128_S1x64x128⟩,
      ⟨S1x64x128, shapeCast S1x64x128 (c 21) shapeCasts_S64x128_S1x64x128⟩,
      ⟨S1x64x128, shapeCast S1x64x128 (c 22) shapeCasts_S64x128_S1x64x128⟩,
      ⟨S1x64x128, shapeCast S1x64x128 (c 23) shapeCasts_S64x128_S1x64x128⟩,
      ⟨S1x64x128, shapeCast S1x64x128 (c 24) shapeCasts_S64x128_S1x64x128⟩,
      ⟨S1x64x128, shapeCast S1x64x128 (c 25) shapeCasts_S64x128_S1x64x128⟩,
      ⟨S1x64x128, shapeCast S1x64x128 (c 26) shapeCasts_S64x128_S1x64x128⟩,
      ⟨S1x64x128, shapeCast S1x64x128 (c 27) shapeCasts_S64x128_S1x64x128⟩,
      ⟨S1x64x128, shapeCast S1x64x128 (c 28) shapeCasts_S64x128_S1x64x128⟩,
      ⟨S1x64x128, shapeCast S1x64x128 (c 29) shapeCasts_S64x128_S1x64x128⟩,
      ⟨S1x64x128, shapeCast S1x64x128 (c 30) shapeCasts_S64x128_S1x64x128⟩,
      ⟨S1x64x128, shapeCast S1x64x128 (c 31) shapeCasts_S64x128_S1x64x128⟩] h (ix3 o b n) = c o (ix2 b n) := by
  have key : ∀ (xs : List ((s : Shape) × (s.Idx → α))),
      xs = List.ofFn (fun k : Fin 32 => (⟨S1x64x128, shapeCast S1x64x128 (c k) shapeCasts_S64x128_S1x64x128⟩ : (s : Shape) × (s.Idx → α))) →
      ∀ h : Shape.Concatenates (xs.map (·.1)) S32x64x128 0, concatenate S32x64x128 0 xs h (ix3 o b n) = c o (ix2 b n) := by
    intro xs e; subst e; intro h
    refine (concatenate_ofFn_unit_apply (t := S32x64x128) (s₁ := S1x64x128) 0 (fun k : Fin 32 => shapeCast S1x64x128 (c k) shapeCasts_S64x128_S1x64x128)
      h rfl rfl (ix3 o b n) o rfl (ix3 (0 : Fin 1) b n) ?_).trans ?_
    · intro a ha
      match a, ha with
      | ⟨0, _⟩, ha => exact absurd rfl ha
      | ⟨1, _⟩, _ => rfl
      | ⟨2, _⟩, _ => rfl
    · refine shapeCast_apply _ _ _ (ix2 b n) ?_
      rw [Shape.rowMajor_val_two, Shape.rowMajor_val_three]; simp
  exact key _ rfl h

/-- A 1 × 32 window at row `o`, column 0, lies inside the 32 × 32 weight. -/
private theorem slices_row (o : Fin 32) : S32x32.Slices ![o.val, 0] S1x32 :=
  ⟨rfl, fun a => by
    match a with
    | ⟨0, _⟩ => show o.val + 1 ≤ 32; omega
    | ⟨1, _⟩ => show 0 + 32 ≤ 32; omega⟩

/-- Output channel `o` of the mix as one expression in the field and the weight. -/
private abbrev chanE (X58 : FVec Ideal S32x64x128 .f32) (W : FVec Ideal S32x32 .f32) (o : Fin 32) : FVec Ideal S64x128 .f32 :=
  multiReduction (F := Ideal) .add [0] S64x128
    (mulf X58 (broadcastTo S32x64x128 (shapeCast S32x1x1 (shapeCast S32 (extractStridedSlice S1x32 ![o.val, 0] W (slices_row o))
      shapeCasts_S1x32_S32) shapeCasts_S32_S32x1x1) broadcasts_S32x1x1_S32x64x128))
    0x00000000#32 reduces_S32x64x128_S64x128 (.inl rfl) rfl

/-- THE MIX at output channel `o`, graph `b`, node `n`: `X` the first layer's entries, `WT` the transposed weight's. -/
theorem h2V_apply
    (v0 : Vec Ideal S64x128 .f32) (v1 : Vec Ideal S64x1024 .f32) (v2 : Vec Ideal S128x1024 .bf16) (v4 : Vec Ideal S1024x128 .bf16)
    (v44 v46 : Vec Ideal S1x32 .f32) (v62 : Vec Ideal S32x32 .f32)
    (X : Fin 32 → Fin 64 → Fin 128 → ℝ) (WT : Fin 32 → Fin 32 → ℝ)
    (hX : ∀ (i : Fin 32) (b : Fin 64) (n : Fin 128), x1V (F := Ideal) v0 v1 v2 v4 v44 v46 (ix3 i b n) = ((X i b n : ℝ) : EReal))
    (hW : ∀ o i : Fin 32, v62 (ix2 o i) = ((WT o i : ℝ) : EReal))
    (o : Fin 32) (b : Fin 64) (n : Fin 128) :
    h2V (F := Ideal) v0 v1 v2 v4 v44 v46 v62 (ix3 o b n) = ((∑ i : Fin 32, X i b n * WT o i : ℝ) : EReal) := by
  -- the weight as the body reads it: a recast to its own shape
  have hW' : ∀ o i : Fin 32, k0_pay13 (F := Ideal) v62 (ix2 o i) = ((WT o i : ℝ) : EReal) := fun o i => by
    unfold k0_pay13; rw [shapeCast_self]; exact hW o i
  -- the stack of the 32 channels, each the one expression at its own row
  have hstack : h2V (F := Ideal) v0 v1 v2 v4 v44 v46 v62 (ix3 o b n)
      = chanE (x1V (F := Ideal) v0 v1 v2 v4 v44 v46) (k0_pay13 v62) o (ix2 b n) :=
    stack_apply (chanE (x1V (F := Ideal) v0 v1 v2 v4 v44 v46) (k0_pay13 v62))
      concatenates_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S1x64x128_S32x64x128_d0 o b n
  rw [hstack]
  refine (chan_apply (k0_pay13 v62) (x1V (F := Ideal) v0 v1 v2 v4 v44 v46) ![o.val, 0] (slices_row o) o rfl rfl b n).trans ?_
  simp only [hX, hW', ← EReal.coe_mul]
  exact Cert.Gcn.coe_sum _ _

end Cert.Gcn.KBody2

end
-- ==== Proof.KBlock.lean ====
/-
  What one grid point of the kernel writes: for the 64 graphs of a block, the three-layer network of Spec.lean.
  The kernel forms the edge sums as products with one-hot matrices (`[n = src e]`, `[dst e = n]`), each product
  taken twice — of the operand and of the operand minus itself, which is zero on real operands — and mixes channels by
  sums over the leading axis of a (channel, graph, node) array.
-/
import proofs.«402176_j11295763988681_3_alg».proof.Proof.Gen.KernelIdeal.Frame
import proofs.«402176_j11295763988681_3_alg».proof.Proof.Spec
import proofs.«402176_j11295763988681_3_alg».proof.Proof.LibCoe
import proofs.«402176_j11295763988681_3_alg».proof.Proof.LibDot
import proofs.«402176_j11295763988681_3_alg».proof.Proof.KDag
import proofs.«402176_j11295763988681_3_alg».proof.Proof.KBody1
import proofs.«402176_j11295763988681_3_alg».proof.Proof.KBody2
import Idealize.ShloMosaic.Lib.Pipeline.Value
import Idealize.ShloMosaic.Lib.ValueLayout

noncomputable section

open scoped BigOperators

namespace Cert.Gcn.KBlock

open Cert.KernelIdeal Cert.KernelIdeal.Gen Cert.Gcn.KDag Idealize.ShloMosaic Idealize.ShloMosaic.ValueIdx

/-! ## Rows of the (channel · graph) matrices

A (32, 64, C) array is viewed as a (2048, C) matrix whose row 64 o + b is channel o of graph b. -/

/-- Row 64 o + b. -/
private abbrev row (o : Fin 32) (b : Fin 64) : Fin 2048 := ⟨64 * o.val + b.val, by have := o.isLt; have := b.isLt; omega⟩
/-- The channel of a row. -/
private abbrev rowO (r : Fin 2048) : Fin 32 := ⟨r.val / 64, by have := r.isLt; omega⟩
/-- The graph of a row. -/
private abbrev rowB (r : Fin 2048) : Fin 64 := ⟨r.val % 64, by omega⟩

private theorem row_rowO_rowB (r : Fin 2048) : row (rowO r) (rowB r) = r := Fin.ext (by show 64 * (r.val / 64) + r.val % 64 = r.val; omega)
private theorem rowO_row (o : Fin 32) (b : Fin 64) : rowO (row o b) = o :=
  Fin.ext (by have := b.isLt; show (64 * o.val + b.val) / 64 = o.val; omega)
private theorem rowB_row (o : Fin 32) (b : Fin 64) : rowB (row o b) = b :=
  Fin.ext (by have := b.isLt; show (64 * o.val + b.val) % 64 = b.val; omega)

/-! ## Layout operations read at an index, at this kernel's shapes -/

section Layout
variable {α : Type}

/-- (2048, 1024) viewed (32, 64, 1024). -/
private theorem cast_rows_1024 (y : S2048x1024.Idx → α) (h : S2048x1024.ShapeCasts S32x64x1024) (o : Fin 32) (b : Fin 64) (c : Fin 1024) :
    shapeCast S32x64x1024 y h (ix3 o b c) = y (ix2 (row o b) c) := by
  refine shapeCast_apply y h _ _ ?_
  rw [Shape.rowMajor_val_two, Shape.rowMajor_val_three]
  show (64 * o.val + b.val) * 1024 + c.val = (o.val * 64 + b.val) * 1024 + c.val
  omega

/-- (2048, 128) viewed (32, 64, 128). -/
private theorem cast_rows_128 (y : S2048x128.Idx → α) (h : S2048x128.ShapeCasts S32x64x128) (o : Fin 32) (b : Fin 64) (c : Fin 128) :
    shapeCast S32x64x128 y h (ix3 o b c) = y (ix2 (row o b) c) := by
  refine shapeCast_apply y h _ _ ?_
  rw [Shape.rowMajor_val_two, Shape.rowMajor_val_three]
  show (64 * o.val + b.val) * 128 + c.val = (o.val * 64 + b.val) * 128 + c.val
  omega

/-- (32, 64, 1024) viewed (2048, 1024). -/
private theorem cast_flat_1024 (y : S32x64x1024.Idx → α) (h : S32x64x1024.ShapeCasts S2048x1024) (r : Fin 2048) (c : Fin 1024) :
    shapeCast S2048x1024 y h (ix2 r c) = y (ix3 (rowO r) (rowB r) c) := by
  refine shapeCast_apply y h _ _ ?_
  rw [Shape.rowMajor_val_two, Shape.rowMajor_val_three]
  show (r.val / 64 * 64 + r.val % 64) * 1024 + c.val = r.val * 1024 + c.val
  omega

/-- (32, 64, 128) viewed (2048, 128). -/
private theorem cast_flat_128 (y : S32x64x128.Idx → α) (h : S32x64x128.ShapeCasts S2048x128) (r : Fin 2048) (c : Fin 128) :
    shapeCast S2048x128 y h (ix2 r c) = y (ix3 (rowO r) (rowB r) c) := by
  refine shapeCast_apply y h _ _ ?_
  rw [Shape.rowMajor_val_two, Shape.rowMajor_val_three]
  show (r.val / 64 * 64 + r.val % 64) * 128 + c.val = r.val * 128 + c.val
  omega

/-- (64, 128) with a leading unit axis added, -/
private theorem cast_add_128 (y : S64x128.Idx → α) (h : S64x128.ShapeCasts S1x64x128) (b : Fin 64) (c : Fin 128) :
    shapeCast S1x64x128 y h (ix3 (0 : Fin 1) b c) = y (ix2 b c) := by
  refine shapeCast_apply y h _ _ ?_
  rw [Shape.rowMajor_val_two, Shape.rowMajor_val_three]
  show b.val * 128 + c.val = (0 * 64 + b.val) * 128 + c.val
  omega

/-- and dropped. -/
private theorem cast_drop_128 (y : S1x64x128.Idx → α) (h : S1x64x128.ShapeCasts S64x128) (b : Fin 64) (c : Fin 128) :
    shapeCast S64x128 y h (ix2 b c) = y (ix3 (0 : Fin 1) b c) := by
  refine shapeCast_apply y h _ _ ?_
  rw [Shape.rowMajor_val_two, Shape.rowMajor_val_three]
  show (0 * 64 + b.val) * 128 + c.val = b.val * 128 + c.val
  omega

/-- (64, 1024) with a leading unit axis added, -/
private theorem cast_add_1024 (y : S64x1024.Idx → α) (h : S64x1024.ShapeCasts S1x64x1024) (b : Fin 64) (c : Fin 1024) :
    shapeCast S1x64x1024 y h (ix3 (0 : Fin 1) b c) = y (ix2 b c) := by
  refine shapeCast_apply y h _ _ ?_
  rw [Shape.rowMajor_val_two, Shape.rowMajor_val_three]
  show b.val * 1024 + c.val = (0 * 64 + b.val) * 1024 + c.val
  omega

/-- and dropped. -/
private theorem cast_drop_1024 (y : S1x64x1024.Idx → α) (h : S1x64x1024.ShapeCasts S64x1024) (b : Fin 64) (c : Fin 1024) :
    shapeCast S64x1024 y h (ix2 b c) = y (ix3 (0 : Fin 1) b c) := by
  refine shapeCast_apply y h _ _ ?_
  rw [Shape.rowMajor_val_two, Shape.rowMajor_val_three]
  show (0 * 64 + b.val) * 1024 + c.val = b.val * 1024 + c.val
  omega

/-- A vector of 32 as a (32, 1, 1) array. -/
private theorem cast_chan (y : S32.Idx → α) (h : S32.ShapeCasts S32x1x1) (o : Fin 32) :
    shapeCast S32x1x1 y h (ix3 o (0 : Fin 1) (0 : Fin 1)) = y (ix1 o) := by
  refine shapeCast_apply y h _ _ ?_
  rw [Shape.rowMajor_val_one, Shape.rowMajor_val_three]
  show o.val = (o.val * 1 + 0) * 1 + 0
  omega

/-- A (1, 32) row as a vector of 32. -/
private theorem cast_row32 (y : S1x32.Idx → α) (h : S1x32.ShapeCasts S32) (o : Fin 32) :
    shapeCast S32 y h (ix1 o) = y (ix2 (0 : Fin 1) o) := by
  refine shapeCast_apply y h _ _ ?_
  rw [Shape.rowMajor_val_one, Shape.rowMajor_val_two]
  show 0 * 32 + o.val = o.val
  omega

/-- A vector of one as a (1, 1, 1) array. -/
private theorem cast_one (y : S1.Idx → α) (h : S1.ShapeCasts S1x1x1) :
    shapeCast S1x1x1 y h (ix3 (0 : Fin 1) (0 : Fin 1) (0 : Fin 1)) = y (ix1 (0 : Fin 1)) := by
  refine shapeCast_apply y h _ _ ?_
  rw [Shape.rowMajor_val_one, Shape.rowMajor_val_three]
  show 0 = (0 * 1 + 0) * 1 + 0
  omega

/-- A (1, 64, 128) array broadcast over the 32 channels. -/
private theorem bcast_graph_128 (v : S1x64x128.Idx → α) (h : S1x64x128.Broadcasts S32x64x128) (o : Fin 32) (b : Fin 64) (c : Fin 128) :
    broadcastTo S32x64x128 v h (ix3 o b c) = v (ix3 (0 : Fin 1) b c) :=
  broadcastTo_apply v h _ _ fun a => match a with
    | ⟨0, _⟩ => rfl
    | ⟨1, _⟩ => rfl
    | ⟨2, _⟩ => rfl

/-- A (1, 64, 1024) array broadcast over the 32 channels. -/
private theorem bcast_graph_1024 (v : S1x64x1024.Idx → α) (h : S1x64x1024.Broadcasts S32x64x1024) (o : Fin 32) (b : Fin 64) (c : Fin 1024) :
    broadcastTo S32x64x1024 v h (ix3 o b c) = v (ix3 (0 : Fin 1) b c) :=
  broadcastTo_apply v h _ _ fun a => match a with
    | ⟨0, _⟩ => rfl
    | ⟨1, _⟩ => rfl
    | ⟨2, _⟩ => rfl

/-- A (32, 1, 1) array broadcast over (graph, node). -/
private theorem bcast_chan (v : S32x1x1.Idx → α) (h : S32x1x1.Broadcasts S32x64x128) (o : Fin 32) (b : Fin 64) (c : Fin 128) :
    broadcastTo S32x64x128 v h (ix3 o b c) = v (ix3 o (0 : Fin 1) (0 : Fin 1)) :=
  broadcastTo_apply v h _ _ fun a => match a with
    | ⟨0, _⟩ => rfl
    | ⟨1, _⟩ => rfl
    | ⟨2, _⟩ => rfl

/-- A (1, 1, 1) array broadcast over (graph, node). -/
private theorem bcast_one (v : S1x1x1.Idx → α) (h : S1x1x1.Broadcasts S1x64x128) (b : Fin 64) (c : Fin 128) :
    broadcastTo S1x64x128 v h (ix3 (0 : Fin 1) b c) = v (ix3 (0 : Fin 1) (0 : Fin 1) (0 : Fin 1)) :=
  broadcastTo_apply v h _ _ fun a => match a with
    | ⟨0, _⟩ => rfl
    | ⟨1, _⟩ => rfl
    | ⟨2, _⟩ => rfl

end Layout

/-- The sum over the channel axis of a (32, 64, 128) array. -/
private theorem reduce_chan (v : FVec Ideal S32x64x128 .f32) (h : S32x64x128.Reduces [0] S64x128) (hφ : FKind.Formats .f32)
    (hacc : (0x00000000#32 : BitVec FTy.f32.bits) = FKind.add.neutral .f32 hφ) (b : Fin 64) (n : Fin 128) :
    multiReduction .add [0] S64x128 v 0x00000000#32 h hφ hacc (ix2 b n) = ∑ o : Fin 32, v (ix3 o b n) := by
  rw [Ideal.multiReduction_add_single]
  show ∑ o : Fin 32, v (h.lift (ix2 b n) o) = ∑ o : Fin 32, v (ix3 o b n)
  refine Finset.sum_congr rfl fun o _ => congrArg v (funext fun a => ?_)
  match a with
  | ⟨0, _⟩ => exact Fin.ext rfl
  | ⟨1, _⟩ => exact Fin.ext rfl
  | ⟨2, _⟩ => exact Fin.ext rfl

/-! ## The second layer's mix scaled by the normalisation, as a (2048, 128) matrix -/

/-- Row r of the scaled mix: channel r / 64 of graph r % 64, times that graph's normalisation. -/
private theorem pay48_apply (v58 : FVec Ideal S32x64x128 .f32) (v59 : FVec Ideal S1x64x128 .f32) (v63 : FVec Ideal S32x32 .f32)
    (v72 v78 v84 v90 v96 v102 v108 v114 v120 v126 v132 v138 v144 v150 v156 v162 v168 v174 v180 v186 v192 v198 v204 v210 v216 v222 v228 v234 v240 : FVec Ideal S64x128 .f32) (v241 : FVec Ideal S1x32 .f32) (r : Fin 2048) (k : Fin 128) :
    k0_pay48 (F := Ideal) v58 v59 v63 v72 v78 v84 v90 v96 v102 v108 v114 v120 v126 v132 v138 v144 v150 v156 v162 v168 v174 v180 v186 v192 v198 v204 v210 v216 v222 v228 v234 v240 v241 (ix2 r k)
      = k0_pay47 (F := Ideal) v58 v63 v72 v78 v84 v90 v96 v102 v108 v114 v120 v126 v132 v138 v144 v150 v156 v162 v168 v174 v180 v186 v192 v198 v204 v210 v216 v222 v228 v234 v240 v241 (ix3 (rowO r) (rowB r) k) * v59 (ix3 (0 : Fin 1) (rowB r) k) := by
  unfold k0_pay48
  rw [cast_flat_128, mulf_apply, bcast_graph_128]

/-! ## The exact products, and the reals they compute -/

/-- The kernel's dimension numbers are the plain matrix product's. -/
private theorem dotA_eq : dot_S2048x128_S128x1024_S2048x1024_1_0_0_1_n_n
    = Dot.mm 2048 128 1024 Facts₀.dot_S2048x128_S128x1024_S2048x1024_1_0_0_1_n_n_wf := rfl
private theorem dotB_eq : dot_S2048x1024_S1024x128_S2048x128_1_0_0_1_n_n
    = Dot.mm 2048 1024 128 Facts₀.dot_S2048x1024_S1024x128_S2048x128_1_0_0_1_n_n_wf := rfl
private theorem dotC_eq : dot_S64x128_S128x1024_S64x1024_1_0_0_1_n_n
    = Dot.mm 64 128 1024 Facts₀.dot_S64x128_S128x1024_S64x1024_1_0_0_1_n_n_wf := rfl
private theorem dotD_eq : dot_S64x1024_S1024x128_S64x128_1_0_0_1_n_n
    = Dot.mm 64 1024 128 Facts₀.dot_S64x1024_S1024x128_S64x128_1_0_0_1_n_n_wf := rfl

/-- The two passes of an exact product, each read at an entry, add up to the real product. -/
private theorem split_apply {R K C : Nat}
    (wf : DotDims.WF ⟨2, ![R, K]⟩ ⟨2, ![K, C]⟩ ⟨2, ![R, C]⟩ [1] [0] [0] [1] [] [])
    (prec : Option ContractPrecision) (x : FVec Ideal ⟨2, ![R, K]⟩ .f32) (g : FVec Ideal ⟨2, ![K, C]⟩ .bf16)
    (hb : FTy.bf16.bits < FTy.f32.bits)
    (X : Fin R → Fin K → ℝ) (G : Fin K → Fin C → ℝ)
    (hx : ∀ r k, x (ix2 r k) = ((X r k : ℝ) : EReal)) (hg : ∀ k c, g (ix2 k c) = ((G k c : ℝ) : EReal)) (r : Fin R) (c : Fin C) :
    matmul (Dot.mm R K C wf) prec (truncf .bf16 x hb) g (constant (F := Ideal) ⟨2, ![R, C]⟩ .f32 0x00000000#32) (ix2 r c)
      + matmul (Dot.mm R K C wf) prec (truncf .bf16 (subf x x) hb) g (constant (F := Ideal) ⟨2, ![R, C]⟩ .f32 0x00000000#32) (ix2 r c)
      = ((∑ k : Fin K, X r k * G k c : ℝ) : EReal) :=
  Dot.split_matmul_apply wf prec x g hb X G hx hg r c

/-- The source matrix as reals: entry (k, e) is one when edge e starts at node k. -/
private def GS (src : Fin 1024 → Fin 128) (k : Fin 128) (e : Fin 1024) : ℝ := if k = src e then 1 else 0
/-- The destination matrix as reals: entry (e, n) is one when edge e ends at node n. -/
private def GD (dst : Fin 1024 → Fin 128) (e : Fin 1024) (n : Fin 128) : ℝ := if dst e = n then 1 else 0

private theorem coe_GS (src : Fin 1024 → Fin 128) (k : Fin 128) (e : Fin 1024) :
    ((GS src k e : ℝ) : EReal) = if k = src e then ((1 : ℝ) : EReal) else ((0 : ℝ) : EReal) := by
  unfold GS; by_cases h : k = src e
  · rw [if_pos h, if_pos h]
  · rw [if_neg h, if_neg h]
private theorem coe_GD (dst : Fin 1024 → Fin 128) (e : Fin 1024) (n : Fin 128) :
    ((GD dst e n : ℝ) : EReal) = if dst e = n then ((1 : ℝ) : EReal) else ((0 : ℝ) : EReal) := by
  unfold GD; by_cases h : dst e = n
  · rw [if_pos h, if_pos h]
  · rw [if_neg h, if_neg h]

/-- A product with the source matrix picks the field at the edge's source. -/
private theorem sum_GS (src : Fin 1024 → Fin 128) (f : Fin 128 → ℝ) (e : Fin 1024) : ∑ k : Fin 128, f k * GS src k e = f (src e) := by
  simp only [GS, mul_ite, mul_one, mul_zero, Finset.sum_ite_eq', Finset.mem_univ, if_true]
/-- A product with the destination matrix sums the edge field over the edges into the node. -/
private theorem sum_GD (dst : Fin 1024 → Fin 128) (f : Fin 1024 → ℝ) (n : Fin 128) : ∑ e : Fin 1024, f e * GD dst e n = agg dst f n := by
  unfold agg; simp only [GD, mul_ite, mul_one, mul_zero]

private theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-! ## The second layer's propagation and the third layer's mix

With H the second layer's mix as reals and x its scaling by the normalisation as a (2048, 128) matrix: the source product
picks H o (src e) · dinv (src e), the weights scale it, the destination product sums into the nodes, the
normalisation at the destination and the self-loop complete the propagation; bias, rectification, and the sum over
the channels against the third layer's weights follow. -/

private theorem pay52_apply
    (v3 : FVec Ideal S128x1024 .bf16) (v5 : FVec Ideal S1024x128 .bf16) (v59 v60 : FVec Ideal S1x64x128 .f32)
    (v61 : FVec Ideal S1x64x1024 .f32) (v66 : FVec Ideal S32 .f32) (v291 : FVec Ideal S32x64x128 .f32)
    (x : FVec Ideal S2048x128 .f32) (v324 : Vec Ideal S1x32 .f32)
    (src dst : Fin 1024 → Fin 128) (w : Fin 64 → Fin 1024 → ℝ) (H : Fin 32 → Fin 64 → Fin 128 → ℝ) (B2 W3 : Fin 32 → ℝ)
    (h3 : ∀ (n : Fin 128) (e : Fin 1024), v3 (ix2 n e) = if n = src e then ((1 : ℝ) : EReal) else ((0 : ℝ) : EReal))
    (h5 : ∀ (e : Fin 1024) (n : Fin 128), v5 (ix2 e n) = if dst e = n then ((1 : ℝ) : EReal) else ((0 : ℝ) : EReal))
    (h59 : ∀ (b : Fin 64) (n : Fin 128), v59 (ix3 (0 : Fin 1) b n) = ((dinv dst (w b) n : ℝ) : EReal))
    (h60 : ∀ (b : Fin 64) (n : Fin 128), v60 (ix3 (0 : Fin 1) b n) = ((dinv dst (w b) n * dinv dst (w b) n : ℝ) : EReal))
    (h61 : ∀ (b : Fin 64) (e : Fin 1024), v61 (ix3 (0 : Fin 1) b e) = ((w b e : ℝ) : EReal))
    (h66 : ∀ o : Fin 32, v66 (ix1 o) = ((B2 o : ℝ) : EReal))
    (h291 : ∀ (o : Fin 32) (b : Fin 64) (n : Fin 128), v291 (ix3 o b n) = ((H o b n : ℝ) : EReal))
    (hx : ∀ (r : Fin 2048) (k : Fin 128), x (ix2 r k) = ((H (rowO r) (rowB r) k * dinv dst (w (rowB r)) k : ℝ) : EReal))
    (h324 : ∀ i : Fin 32, v324 (ix2 (0 : Fin 1) i) = ((W3 i : ℝ) : EReal))
    (b : Fin 64) (n : Fin 128) :
    k0_pay52 (F := Ideal) v3 v5 v59 v60 v61 v66 v291 (truncf .bf16 x Facts₀.bitsLt_bf16_f32) (truncf .bf16 (subf x x) Facts₀.bitsLt_bf16_f32) v324 (ix3 (0 : Fin 1) b n)
      = ((∑ o : Fin 32, max (prop src dst (w b) (H o b) n + B2 o) 0 * W3 o : ℝ) : EReal) := by
  unfold k0_pay52
  refine (cast_add_128 _ _ b n).trans ?_
  refine (reduce_chan _ _ _ _ b n).trans ?_
  rw [← coe_sum]
  refine Finset.sum_congr rfl fun o _ => ?_
  simp only [mulf_apply, maximumf_apply, addf_apply, broadcast_apply, bcast_graph_128, bcast_chan, cast_chan, cast_row32,
    shapeCast_self, cast_rows_128, h59, h60, h66, h291, h324, dotB_eq]
  rw [split_apply _ none _ _ Facts₀.bitsLt_bf16_f32
    (fun r e => H (rowO r) (rowB r) (src e) * dinv dst (w (rowB r)) (src e) * w (rowB r) e) (GD dst) ?_
    (fun e n => (h5 e n).trans (coe_GD dst e n).symm)]
  · simp only [rowO_row, rowB_row]
    rw [sum_GD]
    simp only [Ideal.ofBits_def, ofBits_zero_f32', ← EReal.coe_mul, ← EReal.coe_add, ← coe_max]
    rfl
  · intro r e
    rw [cast_flat_1024, mulf_apply, cast_rows_1024, bcast_graph_1024, h61, row_rowO_rowB, addf_apply, dotA_eq,
      split_apply _ none x v3 Facts₀.bitsLt_bf16_f32 (fun r k => H (rowO r) (rowB r) k * dinv dst (w (rowB r)) k) (GS src) hx
        (fun k e => (h3 k e).trans (coe_GS src k e).symm),
      sum_GS, ← EReal.coe_mul]

/-- The third layer's messages: the mix scaled by the normalisation, picked at the edge's source, times the edge's weight. -/
private theorem pay53_apply
    (v3 : FVec Ideal S128x1024 .bf16) (v5 : FVec Ideal S1024x128 .bf16) (v59 v60 : FVec Ideal S1x64x128 .f32)
    (v61 : FVec Ideal S1x64x1024 .f32) (v66 : FVec Ideal S32 .f32) (v291 : FVec Ideal S32x64x128 .f32)
    (x : FVec Ideal S2048x128 .f32) (v324 : Vec Ideal S1x32 .f32)
    (src dst : Fin 1024 → Fin 128) (w : Fin 64 → Fin 1024 → ℝ) (H : Fin 32 → Fin 64 → Fin 128 → ℝ) (B2 W3 : Fin 32 → ℝ)
    (h3 : ∀ (n : Fin 128) (e : Fin 1024), v3 (ix2 n e) = if n = src e then ((1 : ℝ) : EReal) else ((0 : ℝ) : EReal))
    (h5 : ∀ (e : Fin 1024) (n : Fin 128), v5 (ix2 e n) = if dst e = n then ((1 : ℝ) : EReal) else ((0 : ℝ) : EReal))
    (h59 : ∀ (b : Fin 64) (n : Fin 128), v59 (ix3 (0 : Fin 1) b n) = ((dinv dst (w b) n : ℝ) : EReal))
    (h60 : ∀ (b : Fin 64) (n : Fin 128), v60 (ix3 (0 : Fin 1) b n) = ((dinv dst (w b) n * dinv dst (w b) n : ℝ) : EReal))
    (h61 : ∀ (b : Fin 64) (e : Fin 1024), v61 (ix3 (0 : Fin 1) b e) = ((w b e : ℝ) : EReal))
    (h66 : ∀ o : Fin 32, v66 (ix1 o) = ((B2 o : ℝ) : EReal))
    (h291 : ∀ (o : Fin 32) (b : Fin 64) (n : Fin 128), v291 (ix3 o b n) = ((H o b n : ℝ) : EReal))
    (hx : ∀ (r : Fin 2048) (k : Fin 128), x (ix2 r k) = ((H (rowO r) (rowB r) k * dinv dst (w (rowB r)) k : ℝ) : EReal))
    (h324 : ∀ i : Fin 32, v324 (ix2 (0 : Fin 1) i) = ((W3 i : ℝ) : EReal))
    (b : Fin 64) (e : Fin 1024) :
    k0_pay53 (F := Ideal) v3 v5 v59 v60 v61 v66 v291 (truncf .bf16 x Facts₀.bitsLt_bf16_f32) (truncf .bf16 (subf x x) Facts₀.bitsLt_bf16_f32) v324 (ix2 b e)
      = (((∑ o : Fin 32, max (prop src dst (w b) (H o b) (src e) + B2 o) 0 * W3 o) * dinv dst (w b) (src e) * w b e : ℝ) : EReal) := by
  unfold k0_pay53
  rw [cast_drop_1024, mulf_apply, cast_add_1024, h61, addf_apply, dotC_eq,
    split_apply _ none _ v3 Facts₀.bitsLt_bf16_f32
      (fun b k => (∑ o : Fin 32, max (prop src dst (w b) (H o b) k + B2 o) 0 * W3 o) * dinv dst (w b) k) (GS src) ?_
      (fun k e => (h3 k e).trans (coe_GS src k e).symm),
    sum_GS, ← EReal.coe_mul]
  intro b k
  rw [cast_drop_128, mulf_apply,
    pay52_apply v3 v5 v59 v60 v61 v66 v291 x v324 src dst w H B2 W3 h3 h5 h59 h60 h61 h66 h291 hx h324 b k, h59, ← EReal.coe_mul]

/-- The value stored: the messages summed into the nodes by the destination product, the normalisation at the
    destination, the self-loop, and the bias. -/
private theorem pay1_apply
    (v5 : FVec Ideal S1024x128 .bf16) (v59 v60 : FVec Ideal S1x64x128 .f32) (v328 : FVec Ideal S1 .f32)
    (v334 : FVec Ideal S1x64x128 .f32) (v346 : FVec Ideal S64x1024 .f32)
    (dst : Fin 1024 → Fin 128) (w : Fin 64 → Fin 1024 → ℝ) (H3 : Fin 64 → Fin 128 → ℝ) (M : Fin 64 → Fin 1024 → ℝ) (b3 : ℝ)
    (h5 : ∀ (e : Fin 1024) (n : Fin 128), v5 (ix2 e n) = if dst e = n then ((1 : ℝ) : EReal) else ((0 : ℝ) : EReal))
    (h59 : ∀ (b : Fin 64) (n : Fin 128), v59 (ix3 (0 : Fin 1) b n) = ((dinv dst (w b) n : ℝ) : EReal))
    (h60 : ∀ (b : Fin 64) (n : Fin 128), v60 (ix3 (0 : Fin 1) b n) = ((dinv dst (w b) n * dinv dst (w b) n : ℝ) : EReal))
    (h328 : v328 (ix1 (0 : Fin 1)) = ((b3 : ℝ) : EReal))
    (h334 : ∀ (b : Fin 64) (n : Fin 128), v334 (ix3 (0 : Fin 1) b n) = ((H3 b n : ℝ) : EReal))
    (h346 : ∀ (b : Fin 64) (e : Fin 1024), v346 (ix2 b e) = ((M b e : ℝ) : EReal))
    (b : Fin 64) (n : Fin 128) :
    k0_pay1 (F := Ideal) v5 v59 v60 v328 v334 v346 (ix2 b n)
      = ((agg dst (M b) n * dinv dst (w b) n + H3 b n * (dinv dst (w b) n * dinv dst (w b) n) + b3 : ℝ) : EReal) := by
  unfold k0_pay1
  rw [cast_drop_128]
  simp only [addf_apply, mulf_apply, cast_add_128, bcast_one, cast_one, h59, h60, h328, h334, dotD_eq]
  rw [split_apply _ none v346 v5 Facts₀.bitsLt_bf16_f32 M (GD dst) h346 (fun e n => (h5 e n).trans (coe_GD dst e n).symm), sum_GD]
  simp only [← EReal.coe_mul, ← EReal.coe_add]

/-! ## The body on real data -/

/-- The second layer's mix scaled by the normalisation, before its narrowing: the operand of the source product. -/
private abbrev hs2 (v0 : Vec Ideal S64x128 .f32) (v1 : Vec Ideal S64x1024 .f32) (v2 : Vec Ideal S128x1024 .bf16) (v4 : Vec Ideal S1024x128 .bf16)
    (v44 v46 : Vec Ideal S1x32 .f32) (v62 : Vec Ideal S32x32 .f32) : FVec Ideal S2048x128 .f32 :=
  k0_pay48 (x1V v0 v1 v2 v4 v44 v46) (k0_pay10 (dinvV v1 v4)) (k0_pay13 v62) (ch0 v0 v1 v2 v4 v44 v46 v62) (ch1 v0 v1 v2 v4 v44 v46 v62) (ch2 v0 v1 v2 v4 v44 v46 v62) (ch3 v0 v1 v2 v4 v44 v46 v62) (ch4 v0 v1 v2 v4 v44 v46 v62) (ch5 v0 v1 v2 v4 v44 v46 v62) (ch6 v0 v1 v2 v4 v44 v46 v62) (ch7 v0 v1 v2 v4 v44 v46 v62) (ch8 v0 v1 v2 v4 v44 v46 v62) (ch9 v0 v1 v2 v4 v44 v46 v62) (ch10 v0 v1 v2 v4 v44 v46 v62) (ch11 v0 v1 v2 v4 v44 v46 v62) (ch12 v0 v1 v2 v4 v44 v46 v62) (ch13 v0 v1 v2 v4 v44 v46 v62) (ch14 v0 v1 v2 v4 v44 v46 v62) (ch15 v0 v1 v2 v4 v44 v46 v62) (ch16 v0 v1 v2 v4 v44 v46 v62) (ch17 v0 v1 v2 v4 v44 v46 v62) (ch18 v0 v1 v2 v4 v44 v46 v62) (ch19 v0 v1 v2 v4 v44 v46 v62) (ch20 v0 v1 v2 v4 v44 v46 v62) (ch21 v0 v1 v2 v4 v44 v46 v62) (ch22 v0 v1 v2 v4 v44 v46 v62) (ch23 v0 v1 v2 v4 v44 v46 v62) (ch24 v0 v1 v2 v4 v44 v46 v62) (ch25 v0 v1 v2 v4 v44 v46 v62) (ch26 v0 v1 v2 v4 v44 v46 v62) (ch27 v0 v1 v2 v4 v44 v46 v62) (ch28 v0 v1 v2 v4 v44 v46 v62) (k0_pay46 (k0_pay13 v62))

/-- THE BODY'S VALUE at graph b, node n: the network's output. -/
private theorem bodyV_apply
    (v0 : Vec Ideal S64x128 .f32) (v1 : Vec Ideal S64x1024 .f32) (v2 : Vec Ideal S128x1024 .bf16) (v4 : Vec Ideal S1024x128 .bf16)
    (v44 v46 : Vec Ideal S1x32 .f32) (v62 : Vec Ideal S32x32 .f32) (v64 v324 : Vec Ideal S1x32 .f32) (v326 : Vec Ideal S1x1 .f32)
    (p : Fin 64 → Fin 128 → ℝ) (w : Fin 64 → Fin 1024 → ℝ) (src dst : Fin 1024 → Fin 128) (W1 b1 : Fin 32 → ℝ)
    (W2 : Fin 32 → Fin 32 → ℝ) (b2 W3 : Fin 32 → ℝ) (b3 : ℝ)
    (hv0 : ∀ (b : Fin 64) (k : Fin 128), v0 (ix2 b k) = ((p b k : ℝ) : EReal))
    (hv1 : ∀ (b : Fin 64) (e : Fin 1024), v1 (ix2 b e) = ((w b e : ℝ) : EReal))
    (hv2 : ∀ (n : Fin 128) (e : Fin 1024), v2 (ix2 n e) = if n = src e then ((1 : ℝ) : EReal) else ((0 : ℝ) : EReal))
    (hv4 : ∀ (e : Fin 1024) (n : Fin 128), v4 (ix2 e n) = if dst e = n then ((1 : ℝ) : EReal) else ((0 : ℝ) : EReal))
    (hv44 : ∀ o : Fin 32, v44 (ix2 (0 : Fin 1) o) = ((W1 o : ℝ) : EReal))
    (hv46 : ∀ o : Fin 32, v46 (ix2 (0 : Fin 1) o) = ((b1 o : ℝ) : EReal))
    (hv62 : ∀ o i : Fin 32, v62 (ix2 o i) = ((W2 i o : ℝ) : EReal))
    (hv64 : ∀ o : Fin 32, v64 (ix2 (0 : Fin 1) o) = ((b2 o : ℝ) : EReal))
    (hv324 : ∀ i : Fin 32, v324 (ix2 (0 : Fin 1) i) = ((W3 i : ℝ) : EReal))
    (hv326 : v326 (ix2 (0 : Fin 1) (0 : Fin 1)) = ((b3 : ℝ) : EReal))
    (b : Fin 64) (n : Fin 128) :
    bodyV (F := Ideal) v0 v1 v2 v4 v44 v46 v62 v64 v324 v326 (ix2 b n)
      = ((out src dst (w b) (p b) W1 b1 W2 b2 W3 b3 n : ℝ) : EReal) := by
  -- the loaded matrices and vectors, re-laid
  have g3 : ∀ (k : Fin 128) (e : Fin 1024), k0_pay2 (F := Ideal) v2 (ix2 k e) = if k = src e then ((1 : ℝ) : EReal) else ((0 : ℝ) : EReal) :=
    fun k e => by rw [KBody1.pay2_eq]; exact hv2 k e
  have g5 : ∀ (e : Fin 1024) (k : Fin 128), k0_pay3 (F := Ideal) v4 (ix2 e k) = if dst e = k then ((1 : ℝ) : EReal) else ((0 : ℝ) : EReal) :=
    fun e k => by rw [KBody1.pay3_eq]; exact hv4 e k
  have g59 : ∀ (b : Fin 64) (k : Fin 128), k0_pay10 (F := Ideal) (dinvV v1 v4) (ix3 (0 : Fin 1) b k) = ((dinv dst (w b) k : ℝ) : EReal) :=
    fun b k => (KBody1.pay10_apply _ b k).trans (KBody1.dinvV_apply (v1 := v1) (v4 := v4) (w := w) (dst := dst) hv1 hv4 b k)
  have g60 : ∀ (b : Fin 64) (k : Fin 128),
      k0_pay11 (F := Ideal) (dinv2V v1 v4) (ix3 (0 : Fin 1) b k) = ((dinv dst (w b) k * dinv dst (w b) k : ℝ) : EReal) :=
    fun b k => (KBody1.pay11_apply _ b k).trans (KBody1.dinv2V_apply (v1 := v1) (v4 := v4) (w := w) (dst := dst) hv1 hv4 b k)
  have g61 : ∀ (b : Fin 64) (e : Fin 1024), k0_pay12 (F := Ideal) v1 (ix3 (0 : Fin 1) b e) = ((w b e : ℝ) : EReal) :=
    fun b e => (KBody1.pay12_apply _ b e).trans (hv1 b e)
  have g66 : ∀ o : Fin 32, k0_pay14 (F := Ideal) v64 (ix1 o) = ((b2 o : ℝ) : EReal) :=
    fun o => (KBody1.pay14_apply _ o).trans (hv64 o)
  have g328 : k0_pay51 (F := Ideal) v326 (ix1 (0 : Fin 1)) = ((b3 : ℝ) : EReal) := (KBody1.pay51_apply _).trans hv326
  -- the second layer's mix
  have gW : ∀ o i : Fin 32, k0_pay13 (F := Ideal) v62 (ix2 o i) = ((W2 i o : ℝ) : EReal) :=
    fun o i => by rw [KBody1.pay13_eq]; exact hv62 o i
  have gH : ∀ (o : Fin 32) (b : Fin 64) (k : Fin 128),
      h2V (F := Ideal) v0 v1 v2 v4 v44 v46 v62 (ix3 o b k) = ((h2 src dst (w b) (p b) W1 b1 W2 o k : ℝ) : EReal) :=
    fun o b k => KBody2.h2V_apply v0 v1 v2 v4 v44 v46 v62 (fun i b k => x1 src dst (w b) (p b) W1 b1 i k) (fun o i => W2 i o)
      (fun i b k => KBody1.x1V_apply (v0 := v0) (v1 := v1) (v2 := v2) (v4 := v4) (v44 := v44) (v46 := v46) (p := p) (w := w)
        (src := src) (dst := dst) (W1 := W1) (b1 := b1) hv0 hv1 hv2 hv4 hv44 hv46 i b k) hv62 o b k
  -- its scaling by the normalisation, as rows
  have gx : ∀ (r : Fin 2048) (k : Fin 128), hs2 v0 v1 v2 v4 v44 v46 v62 (ix2 r k)
      = ((h2 src dst (w (rowB r)) (p (rowB r)) W1 b1 W2 (rowO r) k * dinv dst (w (rowB r)) k : ℝ) : EReal) := by
    intro r k
    have h48 : hs2 v0 v1 v2 v4 v44 v46 v62 (ix2 r k)
        = h2V (F := Ideal) v0 v1 v2 v4 v44 v46 v62 (ix3 (rowO r) (rowB r) k) * k0_pay10 (F := Ideal) (dinvV v1 v4) (ix3 (0 : Fin 1) (rowB r) k) :=
      pay48_apply _ _ _ _ _ _ _ _ _ _ _ _ _ _ _ _ _ _ _ _ _ _ _ _ _ _ _ _ _ _ _ _ _ r k
    rw [h48, gH, g59, ← EReal.coe_mul]
  -- the third layer's mix and messages
  have g334 : ∀ (b : Fin 64) (k : Fin 128), h3V (F := Ideal) v0 v1 v2 v4 v44 v46 v62 v64 v324 (ix3 (0 : Fin 1) b k)
      = ((h3 src dst (w b) (p b) W1 b1 W2 b2 W3 k : ℝ) : EReal) :=
    fun b k => pay52_apply (k0_pay2 v2) (k0_pay3 v4) (k0_pay10 (dinvV v1 v4)) (k0_pay11 (dinv2V v1 v4)) (k0_pay12 v1) (k0_pay14 v64)
      (h2V v0 v1 v2 v4 v44 v46 v62) (hs2 v0 v1 v2 v4 v44 v46 v62) v324 src dst w
      (fun o b k => h2 src dst (w b) (p b) W1 b1 W2 o k) b2 W3 g3 g5 g59 g60 g61 g66 gH gx hv324 b k
  have g346 : ∀ (b : Fin 64) (e : Fin 1024), msg3V (F := Ideal) v0 v1 v2 v4 v44 v46 v62 v64 v324 (ix2 b e)
      = ((h3 src dst (w b) (p b) W1 b1 W2 b2 W3 (src e) * dinv dst (w b) (src e) * w b e : ℝ) : EReal) :=
    fun b e => pay53_apply (k0_pay2 v2) (k0_pay3 v4) (k0_pay10 (dinvV v1 v4)) (k0_pay11 (dinv2V v1 v4)) (k0_pay12 v1) (k0_pay14 v64)
      (h2V v0 v1 v2 v4 v44 v46 v62) (hs2 v0 v1 v2 v4 v44 v46 v62) v324 src dst w
      (fun o b k => h2 src dst (w b) (p b) W1 b1 W2 o k) b2 W3 g3 g5 g59 g60 g61 g66 gH gx hv324 b e
  -- the value stored
  exact pay1_apply (k0_pay3 v4) (k0_pay10 (dinvV v1 v4)) (k0_pay11 (dinv2V v1 v4)) (k0_pay51 v326)
    (h3V v0 v1 v2 v4 v44 v46 v62 v64 v324) (msg3V v0 v1 v2 v4 v44 v46 v62 v64 v324) dst w
    (fun b k => h3 src dst (w b) (p b) W1 b1 W2 b2 W3 k)
    (fun b e => h3 src dst (w b) (p b) W1 b1 W2 b2 W3 (src e) * dinv dst (w b) (src e) * w b e) b3
    g5 g59 g60 g328 g334 g346 b n

/-! ## The loads of the staged blocks -/

private theorem hz2 : (![0, 0] : Fin 2 → ℕ) = fun _ => 0 := funext fun a => match a with
  | ⟨0, _⟩ => rfl
  | ⟨1, _⟩ => rfl

/-- The first 128 columns of the input rows: the node signals. -/
private theorem ld_p (x0 : Vec Ideal S64x1154 .f32) (b : Fin 64) (k : Fin 128) :
    View.ld x0 r0_0 (ix2 b k) = x0 (ix2 b (pcol k)) := by
  refine congrArg x0 (funext fun a => ?_)
  match a with
  | ⟨0, _⟩ => exact Fin.ext (show 0 + 1 * b.val = b.val by omega)
  | ⟨1, _⟩ => exact Fin.ext (show 0 + 1 * k.val = k.val by omega)

/-- The next 1024 columns: the edge weights. -/
private theorem ld_w (x0 : Vec Ideal S64x1154 .f32) (b : Fin 64) (e : Fin 1024) :
    View.ld x0 r0_1 (ix2 b e) = x0 (ix2 b (wcol e)) := by
  refine congrArg x0 (funext fun a => ?_)
  match a with
  | ⟨0, _⟩ => exact Fin.ext (show 0 + 1 * b.val = b.val by omega)
  | ⟨1, _⟩ => exact Fin.ext (show 128 + 1 * e.val = 128 + e.val by omega)

/-- THE BLOCK: what the body leaves in the output window's buffer, at graph `b` of the block and node `n`, when the
    staged blocks hold real data — `x0` the 64 input rows, `x1` / `x2` the one-hot source and destination matrices,
    `x3 … x8` the weights (the second and third layers' transposed). -/
theorem block_apply
    (x0 : Vec Ideal S64x1154 .f32) (x1 : Vec Ideal S128x1024 .bf16) (x2 : Vec Ideal S1024x128 .bf16)
    (x3 x4 : Vec Ideal S1x32 .f32) (x5 : Vec Ideal S32x32 .f32) (x6 x7 : Vec Ideal S1x32 .f32) (x8 : Vec Ideal S1x1 .f32)
    (hx : Fin 64 → Fin 1154 → ℝ) (src dst : Fin 1024 → Fin 128) (W1 b1 : Fin 32 → ℝ) (W2 : Fin 32 → Fin 32 → ℝ)
    (b2 : Fin 32 → ℝ) (W3 : Fin 32 → ℝ) (b3 : ℝ)
    (h0 : ∀ (b : Fin 64) (j : Fin 1154), x0 (ix2 b j) = ((hx b j : ℝ) : EReal))
    (h1 : ∀ (n : Fin 128) (e : Fin 1024), x1 (ix2 n e) = if n = src e then ((1 : ℝ) : EReal) else ((0 : ℝ) : EReal))
    (h2 : ∀ (e : Fin 1024) (n : Fin 128), x2 (ix2 e n) = if dst e = n then ((1 : ℝ) : EReal) else ((0 : ℝ) : EReal))
    (h3 : ∀ o : Fin 32, x3 (ix2 (0 : Fin 1) o) = ((W1 o : ℝ) : EReal))
    (h4 : ∀ o : Fin 32, x4 (ix2 (0 : Fin 1) o) = ((b1 o : ℝ) : EReal))
    (h5 : ∀ o i : Fin 32, x5 (ix2 o i) = ((W2 i o : ℝ) : EReal))
    (h6 : ∀ o : Fin 32, x6 (ix2 (0 : Fin 1) o) = ((b2 o : ℝ) : EReal))
    (h7 : ∀ i : Fin 32, x7 (ix2 (0 : Fin 1) i) = ((W3 i : ℝ) : EReal))
    (h8 : x8 (ix2 (0 : Fin 1) (0 : Fin 1)) = ((b3 : ℝ) : EReal))
    (b : Fin 64) (n : Fin 128) :
    out0_9 (F := Ideal) x0 x1 x2 x3 x4 x5 x6 x7 x8 (ix2 b n)
      = ((Cert.Gcn.out src dst (fun e => hx b (wcol e)) (fun k => hx b (pcol k)) W1 b1 W2 b2 W3 b3 n : ℝ) : EReal) := by
  rw [KDag.out0_9_eq]
  refine (congrFun (View.canon_unit_zero (S := S64x128) hz2 Facts₀.inb_S64x128_S64x128_0_0 _) (ix2 b n)).trans ?_
  have e1 : View.ld x1 r0_2 = x1 := View.ld_unit_zero (S := S128x1024) hz2 Facts₀.inb_S128x1024_S128x1024_0_0 x1
  have e2 : View.ld x2 r0_3 = x2 := View.ld_unit_zero (S := S1024x128) hz2 Facts₀.inb_S1024x128_S1024x128_0_0 x2
  have e3 : View.ld x3 r0_4 = x3 := View.ld_unit_zero (S := S1x32) hz2 Facts₀.inb_S1x32_S1x32_0_0 x3
  have e4 : View.ld x4 r0_4 = x4 := View.ld_unit_zero (S := S1x32) hz2 Facts₀.inb_S1x32_S1x32_0_0 x4
  have e5 : View.ld x5 r0_5 = x5 := View.ld_unit_zero (S := S32x32) hz2 Facts₀.inb_S32x32_S32x32_0_0 x5
  have e6 : View.ld x6 r0_4 = x6 := View.ld_unit_zero (S := S1x32) hz2 Facts₀.inb_S1x32_S1x32_0_0 x6
  have e7 : View.ld x7 r0_4 = x7 := View.ld_unit_zero (S := S1x32) hz2 Facts₀.inb_S1x32_S1x32_0_0 x7
  have e8 : View.ld x8 r0_6 = x8 := View.ld_unit_zero (S := S1x1) hz2 Facts₀.inb_S1x1_S1x1_0_0 x8
  exact bodyV_apply (View.ld x0 r0_0) (View.ld x0 r0_1) (View.ld x1 r0_2) (View.ld x2 r0_3) (View.ld x3 r0_4) (View.ld x4 r0_4)
    (View.ld x5 r0_5) (View.ld x6 r0_4) (View.ld x7 r0_4) (View.ld x8 r0_6)
    (fun b k => hx b (pcol k)) (fun b e => hx b (wcol e)) src dst W1 b1 W2 b2 W3 b3
    (fun b k => (ld_p x0 b k).trans (h0 b (pcol k)))
    (fun b e => (ld_w x0 b e).trans (h0 b (wcol e)))
    (fun k e => (congrFun e1 _).trans (h1 k e))
    (fun e k => (congrFun e2 _).trans (h2 e k))
    (fun o => (congrFun e3 _).trans (h3 o))
    (fun o => (congrFun e4 _).trans (h4 o))
    (fun o i => (congrFun e5 _).trans (h5 o i))
    (fun o => (congrFun e6 _).trans (h6 o))
    (fun i => (congrFun e7 _).trans (h7 i))
    ((congrFun e8 _).trans h8) b n

end Cert.Gcn.KBlock

end
-- ==== Proof.KArray.lean ====
/-
  The kernel's result array on real data.  Each of the 32 grid points stages 64 rows of the input, the two one-hot
  matrices built from `edge_index` on the host (`[n = src e]`, `[dst e = n]`, exact in every float format) and the
  weights, and writes 64 rows of the output; point `t` covers graphs `64 t … 64 t + 63`, so the rows written tile the
  array and row `B` is what point `B / 64` computed for its graph `B % 64` (KBlock.lean).
-/
import proofs.«402176_j11295763988681_3_alg».proof.Proof.Gen.KernelIdeal.Value
import proofs.«402176_j11295763988681_3_alg».proof.Proof.Spec
import proofs.«402176_j11295763988681_3_alg».proof.Proof.LibCoe
import proofs.«402176_j11295763988681_3_alg».proof.Proof.KBlock
import Idealize.ShloMosaic.Lib.Pipeline.Value
import Idealize.ShloMosaic.Lib.StableHlo.Run
import Idealize.ShloMosaic.Lib.StableHlo.Predicate

set_option maxRecDepth 16384

noncomputable section

namespace Cert.Gcn.KArray

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ)

/-! ## The staged host values: the one-hot matrices and the re-laid weights -/

/-- Two naturals below 2³² have equal 32-bit words only when equal. -/
theorem word_inj {a b : Nat} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-- The decided equality of two words, converted to a float: one when equal, zero otherwise. -/
theorem uitofp_cmpi_eq (φ : FTy) (x y : BitVec 32) :
    (FloatOps.uitofp (F := Ideal) φ (IntOp.cmpi .eq x y) : EReal) = if x = y then ((1 : ℝ) : EReal) else ((0 : ℝ) : EReal) := by
  by_cases h : x = y
  · rw [if_pos h, StableHlo.Predicate.cmpi_eq_iff.mpr h]
    show (((1#1 : BitVec 1).toNat : ℝ) : EReal) = _
    norm_num
  · rw [if_neg h, eq_zero_of_ne_one (fun h1 => h (StableHlo.Predicate.cmpi_eq_iff.mp h1))]
    show (((0#1 : BitVec 1).toNat : ℝ) : EReal) = _
    norm_num

/-- Row `r` of the edge list, flattened, reads at `e` the word of `EI r e`. -/
theorem row_host (c : Dev nD) (EI : Fin 2 → Fin 1024 → Fin 128)
    (hei : ∀ (r : Fin 2) (e : Fin 1024), (m ((c : Thread nD τ).loc main_arg1) : S2x1024.Idx → BitVec 32) (ix2 r e) = BitVec.ofNat 32 (EI r e).val)
    (r : Fin 2) (h : S2x1024.Slices ![r.val, 0] S1x1024) (e : Fin 1024) :
    shapeCast S1024 (extractStridedSlice S1x1024 ![r.val, 0] (m ((c : Thread nD τ).loc main_arg1) : S2x1024.Idx → BitVec 32) h)
        shapeCasts_S1x1024_S1024 (Shape.Idx.ofFin e) = BitVec.ofNat 32 (EI r e).val := by
  refine (shapeCast_apply _ shapeCasts_S1x1024_S1024 _ (ix2 (0 : Fin 1) e) ?_).trans ?_
  · rw [Shape.rowMajor_val_two, Shape.rowMajor_val_one]
    show (0 : Fin 1).val * 1024 + e.val = e.val
    simp
  refine (extractStridedSlice_apply _ _ h _ (ix2 r e) fun a => ?_).trans (hei r e)
  match a with
  | ⟨0, _⟩ => show r.val = r.val + (0 : Fin 1).val; simp
  | ⟨1, _⟩ => show e.val = 0 + e.val; omega

/-- The staged source matrix is the one-hot `[n = src e]`. -/
theorem src_host (c : Dev nD) (EI : Fin 2 → Fin 1024 → Fin 128)
    (hei : ∀ (r : Fin 2) (e : Fin 1024), (m ((c : Thread nD τ).loc main_arg1) : S2x1024.Idx → BitVec 32) (ix2 r e) = BitVec.ofNat 32 (EI r e).val)
    (n : Fin 128) (e : Fin 1024) :
    (V m c main_v10 : S128x1024.Idx → EReal) (ix2 n e) = if n = EI 0 e then ((1 : ℝ) : EReal) else ((0 : ℝ) : EReal) := by
  have e10 : (V m c main_v10 : S128x1024.Idx → EReal) = uitofp (F := Ideal) .bf16
      (cmpi .eq
        (broadcastInDim S128x1024 ![0, 1] bcast_S128x1_S128x1024_0_1
          (broadcastInDim S128x1 ![0] bcast_S128_S128x1_0 (iotaInDim S128 32 0)))
        (broadcastInDim S128x1024 ![0, 1] bcast_S1x1024_S128x1024_0_1
          (broadcastInDim S1x1024 ![1] bcast_S1024_S1x1024_1
            (shapeCast S1024
                (extractStridedSlice S1x1024 ![0, 0] (m ((c : Thread nD τ).loc main_arg1) : S2x1024.Idx → BitVec 32) slices_S2x1024_S1x1024_0_0)
                shapeCasts_S1x1024_S1024)))) := by
    dsimp only [Gen.V, Gen.hostOps0]; after_results; rfl
  rw [e10]
  show FloatOps.uitofp (F := Ideal) .bf16 (IntOp.cmpi .eq _ _) = _
  rw [uitofp_cmpi_eq]
  have eA : broadcastInDim S128x1024 ![0, 1] bcast_S128x1_S128x1024_0_1
          (broadcastInDim S128x1 ![0] bcast_S128_S128x1_0 (iotaInDim S128 32 0)) (ix2 n e) = BitVec.ofNat 32 n.val :=
    (StableHlo.Predicate.bcast_rows bcast_S128_S128x1_0 bcast_S128x1_S128x1024_0_1 (iotaInDim S128 32 0) n e).trans
      (StableHlo.Predicate.iota_apply n)
  have eB : broadcastInDim S128x1024 ![0, 1] bcast_S1x1024_S128x1024_0_1
          (broadcastInDim S1x1024 ![1] bcast_S1024_S1x1024_1
            (shapeCast S1024
                (extractStridedSlice S1x1024 ![0, 0] (m ((c : Thread nD τ).loc main_arg1) : S2x1024.Idx → BitVec 32) slices_S2x1024_S1x1024_0_0)
                shapeCasts_S1x1024_S1024)) (ix2 n e) = BitVec.ofNat 32 (EI 0 e).val :=
    (StableHlo.Predicate.bcast_cols bcast_S1024_S1x1024_1 bcast_S1x1024_S128x1024_0_1 _ n e).trans
      (row_host m c EI hei 0 slices_S2x1024_S1x1024_0_0 e)
  rw [eA, eB]
  have hn := n.isLt
  have he := (EI 0 e).isLt
  by_cases h : n = EI 0 e
  · rw [if_pos h, if_pos (by rw [h])]
  · rw [if_neg h, if_neg fun hw => h (Fin.ext (word_inj (by omega) (by omega) hw))]

/-- The staged destination matrix is the one-hot `[dst e = n]`. -/
theorem dst_host (c : Dev nD) (EI : Fin 2 → Fin 1024 → Fin 128)
    (hei : ∀ (r : Fin 2) (e : Fin 1024), (m ((c : Thread nD τ).loc main_arg1) : S2x1024.Idx → BitVec 32) (ix2 r e) = BitVec.ofNat 32 (EI r e).val)
    (e : Fin 1024) (n : Fin 128) :
    (V m c main_v16 : S1024x128.Idx → EReal) (ix2 e n) = if EI 1 e = n then ((1 : ℝ) : EReal) else ((0 : ℝ) : EReal) := by
  have e16 : (V m c main_v16 : S1024x128.Idx → EReal) = uitofp (F := Ideal) .bf16
      (cmpi .eq
        (broadcastInDim S1024x128 ![0, 1] bcast_S1024x1_S1024x128_0_1
          (broadcastInDim S1024x1 ![0] bcast_S1024_S1024x1_0
            (shapeCast S1024
                (extractStridedSlice S1x1024 ![1, 0] (m ((c : Thread nD τ).loc main_arg1) : S2x1024.Idx → BitVec 32) slices_S2x1024_S1x1024_1_0)
                shapeCasts_S1x1024_S1024)))
        (broadcastInDim S1024x128 ![0, 1] bcast_S1x128_S1024x128_0_1
          (broadcastInDim S1x128 ![1] bcast_S128_S1x128_1 (iotaInDim S128 32 0)))) := by
    dsimp only [Gen.V, Gen.hostOps0]; after_results; rfl
  rw [e16]
  show FloatOps.uitofp (F := Ideal) .bf16 (IntOp.cmpi .eq _ _) = _
  rw [uitofp_cmpi_eq]
  have eA : broadcastInDim S1024x128 ![0, 1] bcast_S1024x1_S1024x128_0_1
          (broadcastInDim S1024x1 ![0] bcast_S1024_S1024x1_0
            (shapeCast S1024
                (extractStridedSlice S1x1024 ![1, 0] (m ((c : Thread nD τ).loc main_arg1) : S2x1024.Idx → BitVec 32) slices_S2x1024_S1x1024_1_0)
                shapeCasts_S1x1024_S1024)) (ix2 e n) = BitVec.ofNat 32 (EI 1 e).val :=
    (StableHlo.Predicate.bcast_rows bcast_S1024_S1024x1_0 bcast_S1024x1_S1024x128_0_1 _ e n).trans
      (row_host m c EI hei 1 slices_S2x1024_S1x1024_1_0 e)
  have eB : broadcastInDim S1024x128 ![0, 1] bcast_S1x128_S1024x128_0_1
          (broadcastInDim S1x128 ![1] bcast_S128_S1x128_1 (iotaInDim S128 32 0)) (ix2 e n) = BitVec.ofNat 32 n.val :=
    (StableHlo.Predicate.bcast_cols bcast_S128_S1x128_1 bcast_S1x128_S1024x128_0_1 (iotaInDim S128 32 0) e n).trans
      (StableHlo.Predicate.iota_apply n)
  rw [eA, eB]
  have hn := n.isLt
  have he := (EI 1 e).isLt
  by_cases h : EI 1 e = n
  · rw [if_pos h, if_pos (by rw [h])]
  · rw [if_neg h, if_neg fun hw => h (Fin.ext (word_inj (by omega) (by omega) hw))]

/-- The staged second-layer weight is `W2` transposed. -/
theorem w2_host (c : Dev nD) (o i : Fin 32) :
    (V m c main_v17 : S32x32.Idx → EReal) (ix2 o i) = (m ((c : Thread nD τ).loc main_arg4) : S32x32.Idx → EReal) (ix2 i o) := by
  have e17 : (V m c main_v17 : S32x32.Idx → EReal)
      = transpose S32x32 [1, 0] (m ((c : Thread nD τ).loc main_arg4) : S32x32.Idx → EReal) transposes_S32x32_S32x32_1_0 := by
    dsimp only [Gen.V, Gen.hostOps0]; after_results
  rw [e17]
  refine transpose_apply [1, 0] _ transposes_S32x32_S32x32_1_0 (ix2 o i) (ix2 i o) fun b => ?_
  match b with
  | ⟨0, _⟩ => rfl
  | ⟨1, _⟩ => rfl

/-- The staged third-layer weight is `W3` as a row. -/
theorem w3_host (c : Dev nD) (i : Fin 32) :
    (V m c main_v18 : S1x32.Idx → EReal) (ix2 (0 : Fin 1) i) = (m ((c : Thread nD τ).loc main_arg6) : S32x1.Idx → EReal) (ix2 i (0 : Fin 1)) := by
  have e18 : (V m c main_v18 : S1x32.Idx → EReal)
      = transpose S1x32 [1, 0] (m ((c : Thread nD τ).loc main_arg6) : S32x1.Idx → EReal) transposes_S32x1_S1x32_1_0 := by
    dsimp only [Gen.V, Gen.hostOps0]; after_results
  rw [e18]
  refine transpose_apply [1, 0] _ transposes_S32x1_S1x32_1_0 (ix2 (0 : Fin 1) i) (ix2 i (0 : Fin 1)) fun b => ?_
  match b with
  | ⟨0, _⟩ => rfl
  | ⟨1, _⟩ => rfl

/-- A bias vector as a row reads, at `(0, o)`, the vector at `o`. -/
theorem row_cast (x : S32.Idx → EReal) (o : Fin 32) : shapeCast S1x32 x shapeCasts_S32_S1x32 (ix2 (0 : Fin 1) o) = x (ix1 o) := by
  refine shapeCast_apply _ shapeCasts_S32_S1x32 _ (ix1 o) ?_
  rw [Shape.rowMajor_val_two, Shape.rowMajor_val_one]
  show o.val = (0 : Fin 1).val * 32 + o.val
  simp

theorem b1_host (c : Dev nD) (o : Fin 32) :
    (V m c main_v19 : S1x32.Idx → EReal) (ix2 (0 : Fin 1) o) = (m ((c : Thread nD τ).loc main_arg3) : S32.Idx → EReal) (ix1 o) := by
  have e19 : (V m c main_v19 : S1x32.Idx → EReal)
      = shapeCast S1x32 (m ((c : Thread nD τ).loc main_arg3) : S32.Idx → EReal) shapeCasts_S32_S1x32 := by
    dsimp only [Gen.V, Gen.hostOps0]; after_results; rfl
  rw [e19]; exact row_cast _ o

theorem b2_host (c : Dev nD) (o : Fin 32) :
    (V m c main_v20 : S1x32.Idx → EReal) (ix2 (0 : Fin 1) o) = (m ((c : Thread nD τ).loc main_arg5) : S32.Idx → EReal) (ix1 o) := by
  have e20 : (V m c main_v20 : S1x32.Idx → EReal)
      = shapeCast S1x32 (m ((c : Thread nD τ).loc main_arg5) : S32.Idx → EReal) shapeCasts_S32_S1x32 := by
    dsimp only [Gen.V, Gen.hostOps0]; after_results; rfl
  rw [e20]; exact row_cast _ o

theorem b3_host (c : Dev nD) :
    (V m c main_v21 : S1x1.Idx → EReal) (ix2 (0 : Fin 1) (0 : Fin 1)) = (m ((c : Thread nD τ).loc main_arg7) : S1.Idx → EReal) (ix1 (0 : Fin 1)) := by
  have e21 : (V m c main_v21 : S1x1.Idx → EReal)
      = shapeCast S1x1 (m ((c : Thread nD τ).loc main_arg7) : S1.Idx → EReal) shapeCasts_S1_S1x1 := by
    dsimp only [Gen.V, Gen.hostOps0]; after_results; rfl
  rw [e21]
  refine shapeCast_apply _ shapeCasts_S1_S1x1 _ (ix1 (0 : Fin 1)) ?_
  rw [Shape.rowMajor_val_two, Shape.rowMajor_val_one]
  rfl

/-! ## The index maps, decided over the 32 grid points -/

/-- The output's block at point `t` is block `(t, 0)`. -/
theorem idx_9 : ∀ t : Fin cfg0.N, win0_9.index t (0 : Fin 2) = t.val ∧ win0_9.index t (1 : Fin 2) = 0 :=
  (by decide +kernel : ∀ t : Fin grid0.N, _)
/-- So is the input rows' block. -/
theorem idx_0 : ∀ t : Fin cfg0.N, win0_0.index t (0 : Fin 2) = t.val ∧ win0_0.index t (1 : Fin 2) = 0 :=
  (by decide +kernel : ∀ t : Fin grid0.N, _)
/-- Every other window stages its whole array at every point. -/
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)

/-! ## Each window's block, read off its array -/

/-- The input window's block at point `t` is rows `64 t … 64 t + 63` of the argument. -/
theorem iblk0_apply (c : Dev nD) (t : Fin cfg0.N) (x : S64x1154.Idx) (k : S2048x1154.Idx)
    (hk0 : (k 0).val = 64 * t.val + (x 0).val) (hk1 : (k 1).val = (x 1).val) :
    (iblk m c 0 t : Vec Ideal S64x1154 .f32) x = (m ((c : Thread nD τ).loc main_arg0) : S2048x1154.Idx → EReal) k := by
  obtain ⟨e0, e1⟩ := idx_0 t
  unfold iblk
  rw [View.read_apply]
  show V m c main_arg0 _ = m (c.tc.loc main_arg0) _
  rw [V_main_arg0]
  congr 1
  funext a
  apply Fin.ext
  match a with
  | ⟨0, _⟩ => show win0_0.index t 0 * 64 + 1 * (x 0).val = (k 0).val; rw [e0, hk0]; omega
  | ⟨1, _⟩ => show win0_0.index t 1 * 1154 + 1 * (x 1).val = (k 1).val; rw [e1, hk1]; omega

theorem iblk1_apply (c : Dev nD) (t : Fin cfg0.N) (x : S128x1024.Idx) :
    (iblk m c 1 t : Vec Ideal S128x1024 .bf16) x = (V m c main_v10 : S128x1024.Idx → EReal) x := by
  obtain ⟨e0, e1⟩ := idx_1 t
  unfold iblk
  rw [View.read_apply]
  show V m c main_v10 _ = V m c main_v10 _
  congr 1
  funext a
  apply Fin.ext
  match a with
  | ⟨0, _⟩ => show win0_1.index t 0 * 128 + 1 * (x 0).val = (x 0).val; rw [e0]; omega
  | ⟨1, _⟩ => show win0_1.index t 1 * 1024 + 1 * (x 1).val = (x 1).val; rw [e1]; omega

theorem iblk2_apply (c : Dev nD) (t : Fin cfg0.N) (x : S1024x128.Idx) :
    (iblk m c 2 t : Vec Ideal S1024x128 .bf16) x = (V m c main_v16 : S1024x128.Idx → EReal) x := by
  obtain ⟨e0, e1⟩ := idx_2 t
  unfold iblk
  rw [View.read_apply]
  show V m c main_v16 _ = V m c main_v16 _
  congr 1
  funext a
  apply Fin.ext
  match a with
  | ⟨0, _⟩ => show win0_2.index t 0 * 1024 + 1 * (x 0).val = (x 0).val; rw [e0]; omega
  | ⟨1, _⟩ => show win0_2.index t 1 * 128 + 1 * (x 1).val = (x 1).val; rw [e1]; omega

theorem iblk3_apply (c : Dev nD) (t : Fin cfg0.N) (x : S1x32.Idx) :
    (iblk m c 3 t : Vec Ideal S1x32 .f32) x = (V m c main_arg2 : S1x32.Idx → EReal) x := by
  obtain ⟨e0, e1⟩ := idx_3 t
  unfold iblk
  rw [View.read_apply]
  show V m c main_arg2 _ = V m c main_arg2 _
  congr 1
  funext a
  apply Fin.ext
  match a with
  | ⟨0, _⟩ => show win0_3.index t 0 * 1 + 1 * (x 0).val = (x 0).val; rw [e0]; omega
  | ⟨1, _⟩ => show win0_3.index t 1 * 32 + 1 * (x 1).val = (x 1).val; rw [e1]; omega

theorem iblk4_apply (c : Dev nD) (t : Fin cfg0.N) (x : S1x32.Idx) :
    (iblk m c 4 t : Vec Ideal S1x32 .f32) x = (V m c main_v19 : S1x32.Idx → EReal) x := by
  obtain ⟨e0, e1⟩ := idx_4 t
  unfold iblk
  rw [View.read_apply]
  show V m c main_v19 _ = V m c main_v19 _
  congr 1
  funext a
  apply Fin.ext
  match a with
  | ⟨0, _⟩ => show win0_4.index t 0 * 1 + 1 * (x 0).val = (x 0).val; rw [e0]; omega
  | ⟨1, _⟩ => show win0_4.index t 1 * 32 + 1 * (x 1).val = (x 1).val; rw [e1]; omega

theorem iblk5_apply (c : Dev nD) (t : Fin cfg0.N) (x : S32x32.Idx) :
    (iblk m c 5 t : Vec Ideal S32x32 .f32) x = (V m c main_v17 : S32x32.Idx → EReal) x := by
  obtain ⟨e0, e1⟩ := idx_5 t
  unfold iblk
  rw [View.read_apply]
  show V m c main_v17 _ = V m c main_v17 _
  congr 1
  funext a
  apply Fin.ext
  match a with
  | ⟨0, _⟩ => show win0_5.index t 0 * 32 + 1 * (x 0).val = (x 0).val; rw [e0]; omega
  | ⟨1, _⟩ => show win0_5.index t 1 * 32 + 1 * (x 1).val = (x 1).val; rw [e1]; omega

theorem iblk6_apply (c : Dev nD) (t : Fin cfg0.N) (x : S1x32.Idx) :
    (iblk m c 6 t : Vec Ideal S1x32 .f32) x = (V m c main_v20 : S1x32.Idx → EReal) x := by
  obtain ⟨e0, e1⟩ := idx_6 t
  unfold iblk
  rw [View.read_apply]
  show V m c main_v20 _ = V m c main_v20 _
  congr 1
  funext a
  apply Fin.ext
  match a with
  | ⟨0, _⟩ => show win0_6.index t 0 * 1 + 1 * (x 0).val = (x 0).val; rw [e0]; omega
  | ⟨1, _⟩ => show win0_6.index t 1 * 32 + 1 * (x 1).val = (x 1).val; rw [e1]; omega

theorem iblk7_apply (c : Dev nD) (t : Fin cfg0.N) (x : S1x32.Idx) :
    (iblk m c 7 t : Vec Ideal S1x32 .f32) x = (V m c main_v18 : S1x32.Idx → EReal) x := by
  obtain ⟨e0, e1⟩ := idx_7 t
  unfold iblk
  rw [View.read_apply]
  show V m c main_v18 _ = V m c main_v18 _
  congr 1
  funext a
  apply Fin.ext
  match a with
  | ⟨0, _⟩ => show win0_7.index t 0 * 1 + 1 * (x 0).val = (x 0).val; rw [e0]; omega
  | ⟨1, _⟩ => show win0_7.index t 1 * 32 + 1 * (x 1).val = (x 1).val; rw [e1]; omega

theorem iblk8_apply (c : Dev nD) (t : Fin cfg0.N) (x : S1x1.Idx) :
    (iblk m c 8 t : Vec Ideal S1x1 .f32) x = (V m c main_v21 : S1x1.Idx → EReal) x := by
  obtain ⟨e0, e1⟩ := idx_8 t
  unfold iblk
  rw [View.read_apply]
  show V m c main_v21 _ = V m c main_v21 _
  congr 1
  funext a
  apply Fin.ext
  match a with
  | ⟨0, _⟩ => show win0_8.index t 0 * 1 + 1 * (x 0).val = (x 0).val; rw [e0]; omega
  | ⟨1, _⟩ => show win0_8.index t 1 * 1 + 1 * (x 1).val = (x 1).val; rw [e1]; omega

/-! ## From the blocks to the array -/

/-- What the result array ends holding: row `B`, node `n` is the network's output for graph `B` at node `n`. -/
abbrev G (HX : Fin 2048 → Fin 1154 → ℝ) (EI : Fin 2 → Fin 1024 → Fin 128) (W1 b1 : Fin 32 → ℝ) (W2 : Fin 32 → Fin 32 → ℝ)
    (b2 : Fin 32 → ℝ) (W3 : Fin 32 → ℝ) (b3 : ℝ) : S2048x128.Idx → EReal :=
  fun i => ((result HX EI W1 b1 W2 b2 W3 b3 (i 0) (i 1) : ℝ) : EReal)

/-- WHAT POINT `t` WRITES BACK is block `t` of `G`: graph `b` of the point's block is graph `64 t + b` of the batch. -/
theorem flushed_eq (c : Dev nD)
    (HX : Fin 2048 → Fin 1154 → ℝ) (EI : Fin 2 → Fin 1024 → Fin 128) (W1 b1 : Fin 32 → ℝ) (W2 : Fin 32 → Fin 32 → ℝ)
    (b2 : Fin 32 → ℝ) (W3 : Fin 32 → ℝ) (b3 : ℝ)
    (hI : Inputs (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) HX EI W1 b1 W2 b2 W3 b3)
    (t : Fin cfg0.N) :
    (dats m 0 c).flushed 9 t = ((cfg0.win 9).blk t).view.read (Elt Ideal) (G HX EI W1 b1 W2 b2 W3 b3) := by
  rw [Cert.KernelIdeal.Value.flushed9]
  obtain ⟨e0, e1⟩ := idx_9 t
  have ht : t.val < 32 := lt_of_lt_of_eq t.isLt N_0
  funext j
  have hj0 : (j 0).val < 64 := (j 0).isLt
  have hj1 : (j 1).val < 128 := (j 1).isLt
  -- the block's rows as real data: row `b` of the block is row `64 t + b` of the input
  let hx : Fin 64 → Fin 1154 → ℝ := fun b k => HX ⟨64 * t.val + b.val, by have := b.isLt; omega⟩ k
  have hjx : (cfg0.win 9).xinj (grid0.coords t) j = ix2 (⟨(j 0).val, hj0⟩ : Fin 64) (⟨(j 1).val, hj1⟩ : Fin 128) := by
    funext a
    match a with
    | ⟨0, _⟩ => rfl
    | ⟨1, _⟩ => rfl
  show out0_9 (F := Ideal) (iblk m c 0 t) (iblk m c 1 t) (iblk m c 2 t) (iblk m c 3 t) (iblk m c 4 t) (iblk m c 5 t)
      (iblk m c 6 t) (iblk m c 7 t) (iblk m c 8 t) ((cfg0.win 9).xinj (grid0.coords t) j)
    = G HX EI W1 b1 W2 b2 W3 b3 (((cfg0.win 9).blk t).view.emb j)
  rw [hjx]
  refine (Cert.Gcn.KBlock.block_apply (iblk m c 0 t) (iblk m c 1 t) (iblk m c 2 t) (iblk m c 3 t) (iblk m c 4 t)
    (iblk m c 5 t) (iblk m c 6 t) (iblk m c 7 t) (iblk m c 8 t) hx (EI 0) (EI 1) W1 b1 W2 b2 W3 b3
    (fun b k => (iblk0_apply m c t (ix2 b k) (ix2 (⟨64 * t.val + b.val, by have := b.isLt; omega⟩ : Fin 2048) k) rfl rfl).trans (hI.hx _ k))
    (fun n e => (iblk1_apply m c t _).trans (src_host m c EI hI.ei n e))
    (fun e n => (iblk2_apply m c t _).trans (dst_host m c EI hI.ei e n))
    (fun o => (iblk3_apply m c t _).trans ((congrFun (V_main_arg2 m c) _).trans (hI.w1 o)))
    (fun o => (iblk4_apply m c t _).trans ((b1_host m c o).trans (hI.b1 o)))
    (fun o i => (iblk5_apply m c t _).trans ((w2_host m c o i).trans (hI.w2 i o)))
    (fun o => (iblk6_apply m c t _).trans ((b2_host m c o).trans (hI.b2 o)))
    (fun i => (iblk7_apply m c t _).trans ((w3_host m c i).trans (hI.w3 i)))
    ((iblk8_apply m c t _).trans ((b3_host m c).trans hI.b3))
    ⟨(j 0).val, hj0⟩ ⟨(j 1).val, hj1⟩).trans ?_
  have hB : ((cfg0.win 9).blk t).view.emb j 0 = (⟨64 * t.val + (j 0).val, by omega⟩ : Fin 2048) :=
    Fin.ext (by show win0_9.index t 0 * 64 + 1 * (j 0).val = 64 * t.val + (j 0).val; rw [e0]; omega)
  have hN : ((cfg0.win 9).blk t).view.emb j 1 = (⟨(j 1).val, hj1⟩ : Fin 128) :=
    Fin.ext (by show win0_9.index t 1 * 128 + 1 * (j 1).val = (j 1).val; rw [e1]; omega)
  show _ = ((result HX EI W1 b1 W2 b2 W3 b3 (((cfg0.win 9).blk t).view.emb j 0) (((cfg0.win 9).blk t).view.emb j 1) : ℝ) : EReal)
  rw [hB, hN]
  rfl

/-- THE COVER: row `B` of the array lies in the block of point `B / 64`. -/
theorem cover (i : S2048x128.Idx) : ∃ t : Fin cfg0.N, (cfg0.win 9).flush t = true ∧ i ∈ ((cfg0.win 9).blk t).view.set := by
  have h0 : (i 0).val < 2048 := (i 0).isLt
  have h1 : (i 1).val < 128 := (i 1).isLt
  have hlt : (i 0).val / 64 < grid0.N := by rw [N_0]; omega
  obtain ⟨t, ht⟩ : ∃ t : Fin cfg0.N, t.val = (i 0).val / 64 := ⟨⟨_, hlt⟩, rfl⟩
  obtain ⟨e0, e1⟩ := idx_9 t
  refine ⟨t, flush0_9 t, ?_⟩
  show i ∈ ((View.whole main_v22).slice (win0_9.rect t)).set
  rw [View.set_slice_whole, Rect.mem_set_unit]
  intro a
  match a with
  | ⟨0, _⟩ =>
    show win0_9.index t 0 * 64 ≤ (i 0).val ∧ (i 0).val < win0_9.index t 0 * 64 + 64
    rw [e0, ht]; omega
  | ⟨1, _⟩ =>
    show win0_9.index t 1 * 128 ≤ (i 1).val ∧ (i 1).val < win0_9.index t 1 * 128 + 128
    rw [e1]; omega

/-- THE KERNEL'S RESULT ARRAY at `(B, n)` on real data. -/
theorem final (c : Dev nD)
    (HX : Fin 2048 → Fin 1154 → ℝ) (EI : Fin 2 → Fin 1024 → Fin 128) (W1 b1 : Fin 32 → ℝ) (W2 : Fin 32 → Fin 32 → ℝ)
    (b2 : Fin 32 → ℝ) (W3 : Fin 32 → ℝ) (b3 : ℝ)
    (hI : Inputs (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) HX EI W1 b1 W2 b2 W3 b3)
    (B : Fin 2048) (n : Fin 128) :
    (dats m 0 c).arrAt 9 cfg0.N (ix2 B n) = ((result HX EI W1 b1 W2 b2 W3 b3 B n : ℝ) : EReal) :=
  congrFun ((dats m 0 c).arrAt_eq_of_cover 9 (G HX EI W1 b1 W2 b2 W3 b3)
    (fun t _ => flushed_eq m c HX EI W1 b1 W2 b2 W3 b3 hI t) cover) (ix2 B n)

end Cert.Gcn.KArray

end
-- ==== Proof.LibIndexOps.lean ====
/-
  `stablehlo.gather` and the accumulating `stablehlo.scatter` in the two forms `x[idx]` and `segment_sum` lower to,
  read at an index.  A table of `N` rows (of `C` entries, or flat) is indexed by a column `idx : [J, 1]` of 32-bit
  words: the gather's row `j` is the table's row `idx j` (read signed, clamped into `[0, N - 1]`); the scatter adds
  update row `j` into the table's row `idx j` (read signed; an update whose row is outside the table is dropped), so
  that row `n` of the result is row `n` of the operand plus the sum of the update rows `j` with `idx j = n`.
-/
import Idealize.ShloMosaic.PureOps.Ideal
import Idealize.ShloMosaic.Lib.ValueIdx
import Idealize.ShloMosaic.Lib.ValueIdxRank1

noncomputable section

open scoped BigOperators

namespace Cert.Gcn.IndexOps

open Idealize.ShloMosaic Idealize.ShloMosaic.ValueIdx

variable {α : Type}

/-- The dimension numbers of `x[idx]` over the rows of an `[N, C]` table. -/
abbrev rowsGather (N C J : Nat)
    (wf : GatherDims.WF ⟨2, ![N, C]⟩ ⟨2, ![J, 1]⟩ ⟨2, ![J, C]⟩ [1] [0] [] [0] [] 1 ![1, C]) :
    GatherDims ⟨2, ![N, C]⟩ ⟨2, ![J, 1]⟩ ⟨2, ![J, C]⟩ := ⟨[1], [0], [], [], [0], 1, ![1, C], wf⟩

/-- The dimension numbers of `x[idx]` over a flat table of `N` entries. -/
abbrev flatGather (N J : Nat)
    (wf : GatherDims.WF ⟨1, ![N]⟩ ⟨2, ![J, 1]⟩ ⟨1, ![J]⟩ [] [0] [] [0] [] 1 ![1]) :
    GatherDims ⟨1, ![N]⟩ ⟨2, ![J, 1]⟩ ⟨1, ![J]⟩ := ⟨[], [0], [], [], [0], 1, ![1], wf⟩

/-- The dimension numbers of `segment_sum` into the rows of an `[N, C]` table. -/
abbrev rowsScatter (N C J : Nat)
    (wf : ScatterDims.WF ⟨2, ![N, C]⟩ ⟨2, ![J, 1]⟩ ⟨2, ![J, C]⟩ [1] [0] [0] 1) :
    ScatterDims ⟨2, ![N, C]⟩ ⟨2, ![J, 1]⟩ ⟨2, ![J, C]⟩ := ⟨[1], [0], [0], 1, wf⟩

/-- The dimension numbers of `segment_sum` into a flat table of `N` entries. -/
abbrev flatScatter (N J : Nat)
    (wf : ScatterDims.WF ⟨1, ![N]⟩ ⟨2, ![J, 1]⟩ ⟨1, ![J]⟩ [] [0] [0] 1) :
    ScatterDims ⟨1, ![N]⟩ ⟨2, ![J, 1]⟩ ⟨1, ![J]⟩ := ⟨[], [0], [0], 1, wf⟩

/-! ## The scatter's result index, as equations on the axes -/

/-- An update index `j` lands at operand index `i` exactly when, on every axis, the start (read signed, not clamped)
    plus the window coordinate is `i`'s coordinate: inside the operand the landing index is that sum, and a sum
    outside the operand on some axis drops the update. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro e a
      have h1 : (d.start j idx a + (d.window j a : ℤ)).toNat = (i a).val := by
        rw [← e]
      have h2 := (h a).1
      omega
    · intro e
      funext a
      refine Fin.ext ?_
      show (d.start j idx a + (d.window j a : ℤ)).toNat = (i a).val
      rw [e a]
      exact Int.toNat_natCast _
  · rename_i h
    constructor
    · intro e
      cases e
    · intro e
      exfalso
      apply h
      intro a
      rw [e a]
      have := (i a).isLt
      omega

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- ROWS: update `(j, c')` lands at `(n, c)` exactly when the index of row `j`, read signed, is `n` and the columns
    agree. On the row axis (inserted, named by the map) the start is the index and the window coordinate `0`; on the
    column axis the start is `0` and the window coordinate the update's column. -/
theorem rowsScatter_resultIdx?_iff {N C J w : Nat}
    (wf : ScatterDims.WF ⟨2, ![N, C]⟩ ⟨2, ![J, 1]⟩ ⟨2, ![J, C]⟩ [1] [0] [0] 1)
    (idx : IVec ⟨2, ![J, 1]⟩ w) (j : Fin J) (c' : Fin C) (n : Fin N) (c : Fin C) :
    (rowsScatter N C J wf).resultIdx? (ix2 j c') idx = some (ix2 n c)
      ↔ (idx (ix2 j (0 : Fin 1))).toInt = (n.val : ℤ) ∧ c' = c := by
  rw [resultIdx?_eq_some_iff]
  have h10 : (1 : Fin 2) ∉ [(0 : Fin 2)] := fun h => Nat.one_ne_zero (congrArg Fin.val (List.mem_singleton.mp h))
  have hs0 : (rowsScatter N C J wf).start (ix2 j c') idx 0 = (idx (ix2 j (0 : Fin 1))).toInt := by
    unfold ScatterDims.start
    rw [dif_pos (show (0 : Fin 2) ∈ (rowsScatter N C J wf).scatterDimsToOperandDims from List.mem_singleton.mpr rfl)]
    have hsi : (rowsScatter N C J wf).siIdx (ix2 j c')
        ⟨List.idxOf (0 : Fin 2) (rowsScatter N C J wf).scatterDimsToOperandDims,
          List.idxOf_lt_length_iff.2 (List.mem_singleton.mpr rfl)⟩ = ix2 j (0 : Fin 1) := by
      funext b; refine Fin.ext ?_
      match b with
      | ⟨0, _⟩ => rfl
      | ⟨1, _⟩ => rfl
    rw [hsi]
  have hs1 : (rowsScatter N C J wf).start (ix2 j c') idx 1 = 0 := by
    unfold ScatterDims.start
    rw [dif_neg (show (1 : Fin 2) ∉ (rowsScatter N C J wf).scatterDimsToOperandDims from h10)]
  have hw0 : (rowsScatter N C J wf).window (ix2 j c') 0 = 0 := by
    unfold ScatterDims.window
    rw [dif_neg (show (0 : Fin 2) ∉ (rowsScatter N C J wf).sKept from
      fun h => (mem_kept _ _).mp h (List.mem_singleton.mpr rfl))]
  have hw1 : (rowsScatter N C J wf).window (ix2 j c') 1 = c'.val := by
    unfold ScatterDims.window
    rw [dif_pos (show (1 : Fin 2) ∈ (rowsScatter N C J wf).sKept from (mem_kept _ _).mpr h10)]
    rfl
  constructor
  · intro h
    have h0 : (idx (ix2 j (0 : Fin 1))).toInt + ((0 : ℕ) : ℤ) = (n.val : ℤ) := by
      have := h 0; rw [hs0, hw0] at this; exact this
    have h1 : (0 : ℤ) + ((c'.val : ℕ) : ℤ) = (c.val : ℤ) := by
      have := h 1; rw [hs1, hw1] at this; exact this
    exact ⟨by omega, Fin.ext (by omega)⟩
  · rintro ⟨h0, rfl⟩ a
    match a with
    | ⟨0, _⟩ =>
      show (rowsScatter N C J wf).start (ix2 j c') idx 0 + (((rowsScatter N C J wf).window (ix2 j c') 0 : ℕ) : ℤ)
        = (n.val : ℤ)
      rw [hs0, hw0]; omega
    | ⟨1, _⟩ =>
      show (rowsScatter N C J wf).start (ix2 j c') idx 1 + (((rowsScatter N C J wf).window (ix2 j c') 1 : ℕ) : ℤ)
        = (c'.val : ℤ)
      rw [hs1, hw1]; omega

/-- FLAT: update `j` lands at `n` exactly when the index of `j`, read signed, is `n` (the one axis is inserted and
    named by the map: the start is the index, the window coordinate `0`). -/
theorem flatScatter_resultIdx?_iff {N J w : Nat}
    (wf : ScatterDims.WF ⟨1, ![N]⟩ ⟨2, ![J, 1]⟩ ⟨1, ![J]⟩ [] [0] [0] 1)
    (idx : IVec ⟨2, ![J, 1]⟩ w) (j : Fin J) (n : Fin N) :
    (flatScatter N J wf).resultIdx? (ix1 j) idx = some (ix1 n)
      ↔ (idx (ix2 j (0 : Fin 1))).toInt = (n.val : ℤ) := by
  rw [resultIdx?_eq_some_iff]
  have hs0 : (flatScatter N J wf).start (ix1 j) idx 0 = (idx (ix2 j (0 : Fin 1))).toInt := by
    unfold ScatterDims.start
    rw [dif_pos (show (0 : Fin 1) ∈ (flatScatter N J wf).scatterDimsToOperandDims from List.mem_singleton.mpr rfl)]
    have hsi : (flatScatter N J wf).siIdx (ix1 j)
        ⟨List.idxOf (0 : Fin 1) (flatScatter N J wf).scatterDimsToOperandDims,
          List.idxOf_lt_length_iff.2 (List.mem_singleton.mpr rfl)⟩ = ix2 j (0 : Fin 1) := by
      funext b; refine Fin.ext ?_
      match b with
      | ⟨0, _⟩ => rfl
      | ⟨1, _⟩ => rfl
    rw [hsi]
  have hw0 : (flatScatter N J wf).window (ix1 j) 0 = 0 := by
    unfold ScatterDims.window
    rw [dif_neg (show (0 : Fin 1) ∉ (flatScatter N J wf).sKept from
      fun h => (mem_kept _ _).mp h (List.mem_singleton.mpr rfl))]
  constructor
  · intro h
    have h0 : (idx (ix2 j (0 : Fin 1))).toInt + ((0 : ℕ) : ℤ) = (n.val : ℤ) := by
      have := h 0; rw [hs0, hw0] at this; exact this
    omega
  · intro h0 a
    obtain rfl : a = 0 := Subsingleton.elim _ _
    show (flatScatter N J wf).start (ix1 j) idx 0 + (((flatScatter N J wf).window (ix1 j) 0 : ℕ) : ℤ) = (n.val : ℤ)
    rw [hs0, hw0]; omega

/-- ROW GATHER AT `(j, c)`: the table's row at the start index `idx j`, read signed and clamped, column `c`. -/
theorem rowsGather_apply {N C J w : Nat} (hN : 0 < N)
    (wf : GatherDims.WF ⟨2, ![N, C]⟩ ⟨2, ![J, 1]⟩ ⟨2, ![J, C]⟩ [1] [0] [] [0] [] 1 ![1, C])
    (x : (⟨2, ![N, C]⟩ : Shape).Idx → α) (idx : IVec ⟨2, ![J, 1]⟩ w) (j : Fin J) (c : Fin C) :
    Host.gather (rowsGather N C J wf) x idx (ix2 j c)
      = x (ix2 (⟨min (idx (ix2 j (0 : Fin 1))).toInt.toNat (N - 1), by omega⟩ : Fin N) c) := by
  unfold Host.gather
  congr 1
  funext a
  refine Fin.ext ?_
  match a with
  | ⟨0, _⟩ =>
    -- the row axis: collapsed, named by the start index map; no batching and no offset coordinate
    show (rowsGather N C J wf).start (ix2 j c) idx 0 + (rowsGather N C J wf).batchCoord (ix2 j c) 0
      + (rowsGather N C J wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N C J wf).startIndexMap from List.mem_singleton.mpr rfl)]
    have hsi : (rowsGather N C J wf).siIdx (ix2 j c) ⟨List.idxOf (0 : Fin 2) (rowsGather N C J wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  | ⟨1, _⟩ =>
    -- the column axis: the one offset axis; not named by the start index map, so its start is 0
    show (rowsGather N C J wf).start (ix2 j c) idx 1 + (rowsGather N C J wf).batchCoord (ix2 j c) 1
      + (rowsGather N C J wf).offCoord (ix2 j c) 1 = c.val
    rw [GatherDims.batchCoord_eq_zero _ _ _ List.not_mem_nil]
    have hst : (rowsGather N C J wf).start (ix2 j c) idx 1 = 0 := by
      unfold GatherDims.start
      rw [dif_neg (show (1 : Fin 2) ∉ (rowsGather N C J wf).startIndexMap from
        fun h => Nat.one_ne_zero (congrArg Fin.val (List.mem_singleton.mp h)))]
    have hoff : (rowsGather N C J wf).offCoord (ix2 j c) 1 = c.val := by
      unfold GatherDims.offCoord
      rw [dif_pos (show (1 : Fin 2) ∈ (rowsGather N C J wf).sKept from
        (GatherDims.mem_sKept _ _).mpr
          ⟨fun h => Nat.one_ne_zero (congrArg Fin.val (List.mem_singleton.mp h)), List.not_mem_nil⟩)]
      rfl
    rw [hst, hoff]
    omega

/-- FLAT GATHER AT `j`: the table's entry at the start index `idx j`, read signed and clamped. -/
theorem flatGather_apply {N J w : Nat} (hN : 0 < N)
    (wf : GatherDims.WF ⟨1, ![N]⟩ ⟨2, ![J, 1]⟩ ⟨1, ![J]⟩ [] [0] [] [0] [] 1 ![1])
    (x : (⟨1, ![N]⟩ : Shape).Idx → α) (idx : IVec ⟨2, ![J, 1]⟩ w) (j : Fin J) :
    Host.gather (flatGather N J wf) x idx (ix1 j)
      = x (ix1 (⟨min (idx (ix2 j (0 : Fin 1))).toInt.toNat (N - 1), by omega⟩ : Fin N)) := by
  unfold Host.gather
  congr 1
  funext a
  obtain rfl : a = 0 := Subsingleton.elim _ _
  refine Fin.ext ?_
  show (flatGather N J wf).start (ix1 j) idx 0 + (flatGather N J wf).batchCoord (ix1 j) 0
    + (flatGather N J wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N J wf).startIndexMap from List.mem_singleton.mpr rfl)]
  have hsi : (flatGather N J wf).siIdx (ix1 j) ⟨List.idxOf (0 : Fin 1) (flatGather N J wf).startIndexMap,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  rfl

/-- ROW SCATTER-ADD AT `(n, c)`: the operand's entry plus the sum of the update rows whose index is `n`, column `c`. -/
theorem rowsScatter_apply {N C J w : Nat}
    (wf : ScatterDims.WF ⟨2, ![N, C]⟩ ⟨2, ![J, 1]⟩ ⟨2, ![J, C]⟩ [1] [0] [0] 1)
    (x : (⟨2, ![N, C]⟩ : Shape).Idx → EReal) (idx : IVec ⟨2, ![J, 1]⟩ w)
    (upd : (⟨2, ![J, C]⟩ : Shape).Idx → EReal) (n : Fin N) (c : Fin C) :
    Ideal.hostScatterAdd (rowsScatter N C J wf) x idx upd (ix2 n c)
      = x (ix2 n c) + ∑ j : Fin J, if (idx (ix2 j (0 : Fin 1))).toInt = (n.val : ℤ) then upd (ix2 j c) else 0 := by
  unfold Ideal.hostScatterAdd
  congr 1
  -- the filtered sum over the updates' indices, as the double sum over rows and columns of an indicator
  rw [Finset.sum_filter, sum_idx2]
  refine Finset.sum_congr rfl fun j _ => ?_
  by_cases hj : (idx (ix2 j (0 : Fin 1))).toInt = (n.val : ℤ)
  · -- row `j` lands on row `n`: of its columns, column `c` alone lands on `(n, c)`
    rw [if_pos hj]
    refine (Finset.sum_congr rfl (g := fun c' => if c' = c then upd (ix2 j c') else 0) fun c' _ => ?_).trans ?_
    · by_cases hc : c' = c
      · rw [if_pos hc, if_pos ((rowsScatter_resultIdx?_iff wf idx j c' n c).mpr ⟨hj, hc⟩)]
      · rw [if_neg hc, if_neg fun h => hc ((rowsScatter_resultIdx?_iff wf idx j c' n c).mp h).2]
    · rw [Finset.sum_ite_eq', if_pos (Finset.mem_univ c)]
  · -- row `j` lands elsewhere (or outside the table): none of its columns contributes
    rw [if_neg hj]
    exact Finset.sum_eq_zero fun c' _ => if_neg fun h => hj ((rowsScatter_resultIdx?_iff wf idx j c' n c).mp h).1

/-- FLAT SCATTER-ADD AT `n`: the operand's entry plus the sum of the updates whose index is `n`. -/
theorem flatScatter_apply {N J w : Nat}
    (wf : ScatterDims.WF ⟨1, ![N]⟩ ⟨2, ![J, 1]⟩ ⟨1, ![J]⟩ [] [0] [0] 1)
    (x : (⟨1, ![N]⟩ : Shape).Idx → EReal) (idx : IVec ⟨2, ![J, 1]⟩ w)
    (upd : (⟨1, ![J]⟩ : Shape).Idx → EReal) (n : Fin N) :
    Ideal.hostScatterAdd (flatScatter N J wf) x idx upd (ix1 n)
      = x (ix1 n) + ∑ j : Fin J, if (idx (ix2 j (0 : Fin 1))).toInt = (n.val : ℤ) then upd (ix1 j) else 0 := by
  unfold Ideal.hostScatterAdd
  congr 1
  -- the filtered sum over the updates' indices, re-indexed by their one coordinate, as the sum of an indicator
  rw [Finset.sum_filter, ← Equiv.sum_comp (idxEquiv1 (n := J)).symm]
  refine Finset.sum_congr rfl fun j _ => ?_
  by_cases hj : (idx (ix2 j (0 : Fin 1))).toInt = (n.val : ℤ)
  · exact (if_pos ((flatScatter_resultIdx?_iff wf idx j n).mpr hj)).trans (if_pos hj).symm
  · exact (if_neg fun h => hj ((flatScatter_resultIdx?_iff wf idx j n).mp h)).trans (if_neg hj).symm

end Cert.Gcn.IndexOps

end
-- ==== Proof.RefSum.lean ====
/-
  The batched edge list has 2048 · 1024 edge rows (edge `e` of graph `B'` at row `1024 B' + e`, ending at batched node
  `128 B' + dst e`) followed by 262144 self-loop rows (the loop of node `N` at row `2097152 + N`, ending at `N`).
  Summing a row field over the rows that end at node `128 B + k` therefore takes the edges of graph `B` alone that end
  at `k`, and the one self-loop of that node.
-/
import proofs.«402176_j11295763988681_3_alg».proof.Proof.Spec

noncomputable section

open scoped BigOperators

namespace Cert.Gcn

/-- Which row of the batched list a position is: below `2097152` an edge row, by graph and edge; from there on a self-loop row. -/
def rowInv (j : Fin 2359296) : (Fin 2048 × Fin 1024) ⊕ Fin 262144 :=
  if h : j.val < 2097152 then
    Sum.inl (⟨j.val / 1024, by omega⟩, ⟨j.val % 1024, by omega⟩)
  else Sum.inr ⟨j.val - 2097152, by have := j.isLt; omega⟩

theorem rowInv_edge (B : Fin 2048) (e : Fin 1024) : rowInv (edgeJ B e) = Sum.inl (B, e) := by
  have hB := B.isLt
  have he := e.isLt
  have h : (edgeJ B e).val < 2097152 := by show B.val * 1024 + e.val < 2097152; omega
  rw [rowInv, dif_pos h]
  refine congrArg Sum.inl (Prod.ext (Fin.ext ?_) (Fin.ext ?_))
  · show (B.val * 1024 + e.val) / 1024 = B.val; omega
  · show (B.val * 1024 + e.val) % 1024 = e.val; omega

theorem rowInv_loop (N : Fin 262144) : rowInv (loopJ N) = Sum.inr N := by
  have hN := N.isLt
  have h : ¬ (loopJ N).val < 2097152 := by show ¬ (2097152 + N.val < 2097152); omega
  rw [rowInv, dif_neg h]
  refine congrArg Sum.inr (Fin.ext ?_)
  show 2097152 + N.val - 2097152 = N.val; omega

theorem row_of_rowInv (j : Fin 2359296) : Sum.elim (fun p : Fin 2048 × Fin 1024 => edgeJ p.1 p.2) loopJ (rowInv j) = j := by
  have hj := j.isLt
  by_cases h : j.val < 2097152
  · rw [rowInv, dif_pos h]
    apply Fin.ext
    show j.val / 1024 * 1024 + j.val % 1024 = j.val; omega
  · rw [rowInv, dif_neg h]
    apply Fin.ext
    show 2097152 + (j.val - 2097152) = j.val; omega

/-- The rows of the batched list: the edge rows by graph and edge, then the self-loop rows. -/
def rowEquiv : (Fin 2048 × Fin 1024) ⊕ Fin 262144 ≃ Fin 2359296 where
  toFun := Sum.elim (fun p => edgeJ p.1 p.2) loopJ
  invFun := rowInv
  left_inv := by
    rintro (⟨B, e⟩ | N)
    · exact rowInv_edge B e
    · exact rowInv_loop N
  right_inv := row_of_rowInv

/-- The sum over all rows whose destination word is node `(B, k)`: graph `B`'s edges into `k`, plus the node's self-loop. -/
theorem sum_rows_into (dst : Fin 1024 → Fin 128) (D : Fin 2359296 → ℤ) (U : Fin 2359296 → EReal)
    (hDe : ∀ (B' : Fin 2048) (e : Fin 1024), D (edgeJ B' e) = ((node B' (dst e)).val : ℤ))
    (hDl : ∀ N : Fin 262144, D (loopJ N) = (N.val : ℤ)) (B : Fin 2048) (k : Fin 128) :
    (∑ j : Fin 2359296, if D j = ((node B k).val : ℤ) then U j else 0)
      = (∑ e : Fin 1024, if dst e = k then U (edgeJ B e) else 0) + U (loopJ (node B k)) := by
  -- the edge rows: only graph `B`'s survive, and of those the edges into `k`
  have hE : (∑ B' : Fin 2048, ∑ e : Fin 1024, if D (edgeJ B' e) = ((node B k).val : ℤ) then U (edgeJ B' e) else 0)
      = ∑ e : Fin 1024, if dst e = k then U (edgeJ B e) else 0 := by
    rw [Finset.sum_eq_single B]
    · refine Finset.sum_congr rfl fun e _ => ?_
      rw [hDe]
      by_cases hk : dst e = k
      · rw [if_pos hk, if_pos (by rw [hk])]
      · rw [if_neg hk, if_neg]
        intro h
        apply hk
        apply Fin.ext
        have h1 := (dst e).isLt
        have h2 := k.isLt
        have h' : ((B.val * 128 + (dst e).val : ℕ) : ℤ) = ((B.val * 128 + k.val : ℕ) : ℤ) := h
        omega
    · intro B' _ hB'
      refine Finset.sum_eq_zero fun e _ => ?_
      rw [hDe, if_neg]
      intro h
      apply hB'
      apply Fin.ext
      have h1 := (dst e).isLt
      have h2 := k.isLt
      have h' : ((B'.val * 128 + (dst e).val : ℕ) : ℤ) = ((B.val * 128 + k.val : ℕ) : ℤ) := h
      omega
    · intro h; exact absurd (Finset.mem_univ _) h
  -- the self-loop rows: only the node's own survives
  have hL : (∑ N : Fin 262144, if D (loopJ N) = ((node B k).val : ℤ) then U (loopJ N) else 0)
      = U (loopJ (node B k)) := by
    rw [Finset.sum_eq_single (node B k)]
    · rw [hDl, if_pos rfl]
    · intro N _ hN
      rw [hDl, if_neg]
      intro h
      apply hN
      apply Fin.ext
      have h' : ((N.val : ℕ) : ℤ) = (((node B k).val : ℕ) : ℤ) := h
      exact_mod_cast h'
    · intro h; exact absurd (Finset.mem_univ _) h
  rw [← Equiv.sum_comp rowEquiv, Fintype.sum_sum_type, Fintype.sum_prod_type]
  exact congrArg₂ (fun x y : EReal => x + y) hE hL

end Cert.Gcn

end
-- ==== Proof.RefIdx.lean ====
/-
  The reference's batched edge list, row by row.  Its source and destination columns are the 2048 · 1024 edge rows
  (`edge_index` plus the graph's offset `128 B`) followed by the 262144 self-loop rows (`iota`); the weight column is
  the 2048 · 1024 edge weights followed by ones.  The index columns re-normalised for a gather (a negative index
  wrapped by the table's length) are the same words, every index being non-negative.
-/
import proofs.«402176_j11295763988681_3_alg».proof.Proof.Gen.ReferenceIdeal.Read
import proofs.«402176_j11295763988681_3_alg».proof.Proof.Spec
import proofs.«402176_j11295763988681_3_alg».proof.Proof.LibCoe

noncomputable section

namespace Cert.Gcn.RefIdx

open Cert.ReferenceIdeal Cert.ReferenceIdeal.Read Idealize.ShloMosaic Idealize.ShloMosaic.ValueIdx

variable (a0 : (⟨S2048x1154, .f32⟩ : BufTy).Contents (Elt Ideal)) (a1 : (⟨S2x1024, .i32⟩ : BufTy).Contents (Elt Ideal))
  (HX : Fin 2048 → Fin 1154 → ℝ) (EI : Fin 2 → Fin 1024 → Fin 128)

/-! ### A two-piece column read at a row -/

/-- An edge row lies in the first piece of the column. -/
theorem cat_edge {α : Type} (x₁ : S2097152.Idx → α) (x₂ : S262144.Idx → α)
    (h : Shape.Concatenates [S2097152, S262144] S2359296 0) (B : Fin 2048) (e : Fin 1024)
    (hlt : B.val * 1024 + e.val < 2097152) :
    concatenate S2359296 0 [⟨S2097152, x₁⟩, ⟨S262144, x₂⟩] h (ix1 (edgeJ B e))
      = x₁ (ix1 (⟨B.val * 1024 + e.val, hlt⟩ : Fin 2097152)) := by
  refine concatenate_pair_apply_left (0 : Fin S2359296.rank) x₁ x₂ h (ix1 (edgeJ B e)) rfl _ (fun b => ?_)
  obtain ⟨b, hb⟩ := b
  have hb0 : b = 0 := by have : b < 1 := hb; omega
  subst hb0
  rfl

/-- A self-loop row lies in the second piece of the column. -/
theorem cat_loop {α : Type} (x₁ : S2097152.Idx → α) (x₂ : S262144.Idx → α)
    (h : Shape.Concatenates [S2097152, S262144] S2359296 0) (N : Fin 262144) :
    concatenate S2359296 0 [⟨S2097152, x₁⟩, ⟨S262144, x₂⟩] h (ix1 (loopJ N)) = x₂ (ix1 N) := by
  refine concatenate_pair_apply_right (0 : Fin S2359296.rank) x₁ x₂ h (ix1 (loopJ N)) rfl rfl (ix1 N) (fun b hb => ?_) ?_
  · exfalso
    apply hb
    obtain ⟨b, hb'⟩ := b
    have hb0 : b = 0 := by have : b < 1 := hb'; omega
    subst hb0
    rfl
  · show N.val + 2097152 = 2097152 + N.val
    omega

theorem edge_lt (B : Fin 2048) (e : Fin 1024) : B.val * 1024 + e.val < 2097152 := by
  have := B.isLt; have := e.isLt; omega

/-! ### The words of the index columns -/

/-- The word of a node plus the word of its graph's offset is the word of the batched node (the words form a ring). -/
theorem word_node (B x : Nat) : BitVec.ofNat 32 x + BitVec.ofNat 32 B * 128#32 = BitVec.ofNat 32 (B * 128 + x) := by
  rw [BitVec.ofNat_add, BitVec.ofNat_mul, BitVec.add_comm]

/-- A word below `2^31` is not negative, so wrapping negative indices by the table's length leaves it alone. -/
theorem wrap_small (x : BitVec 32) (n : Nat) (hn : n < 2147483648) (hx : x = BitVec.ofNat 32 n) :
    Scalar.select (IntOp.cmpi .slt x 0#32) (IntOp.addi x 262144#32) x = x := by
  subst hx
  have hm : (BitVec.ofNat 32 n).msb = false := by
    rw [BitVec.msb_eq_false_iff_two_mul_lt, BitVec.toNat_ofNat]
    omega
  have h0 : IntOp.cmpi .slt (BitVec.ofNat 32 n) 0#32 = 0#1 := by
    show BitVec.ofBool ((BitVec.ofNat 32 n).slt 0#32) = 0#1
    rw [BitVec.slt_zero_eq_msb, hm]
    rfl
  rw [h0, select_zero]

/-- The source column before the self-loops, at row `1024 B + e`: the edge's source word plus the graph's offset. -/
theorem v14_at (B : Fin 2048) (e : Fin 1024) (hlt : B.val * 1024 + e.val < 2097152) :
    val_main_v14 (F := Ideal) a1 (ix1 (⟨B.val * 1024 + e.val, hlt⟩ : Fin 2097152))
      = (a1 (ix2 (0 : Fin 2) e) : BitVec 32) + BitVec.ofNat 32 B.val * 128#32 := by
  have hB := B.isLt
  have he := e.isLt
  rw [val_main_v14_apply, val_main_v13_apply, val_main_v11_apply, val_main_v9_apply, val_main_v8_apply, val_main_v7_apply,
    val_main_v12_apply, val_main_v10_apply, val_main_v6_apply, val_main_v4_apply, val_main_v5_apply, val_main_c_apply]
  have h1 : idx_main_v7 (idx_main_v8 (idx_main_v9 (idx_main_v11 (idx_main_v14 (ix1 (⟨B.val * 1024 + e.val, hlt⟩ : Fin 2097152))))))
      = ix2 (0 : Fin 2) e := by
    funext d
    match d with
    | ⟨0, _⟩ => rfl
    | ⟨1, _⟩ => exact Fin.ext (by show (B.val * 1024 + e.val) % 1024 % 1024 = e.val; omega)
  have h2 : (B.val * 1024 + e.val) / 1024 = B.val := by omega
  exact congrArg₂ (fun (x y : BitVec 32) => x + y) (congrArg a1 h1) (congrArg (fun n => BitVec.ofNat 32 n * 128#32) h2)

/-- The destination column before the self-loops, at row `1024 B + e`. -/
theorem v22_at (B : Fin 2048) (e : Fin 1024) (hlt : B.val * 1024 + e.val < 2097152) :
    val_main_v22 (F := Ideal) a1 (ix1 (⟨B.val * 1024 + e.val, hlt⟩ : Fin 2097152))
      = (a1 (ix2 (1 : Fin 2) e) : BitVec 32) + BitVec.ofNat 32 B.val * 128#32 := by
  have hB := B.isLt
  have he := e.isLt
  rw [val_main_v22_apply, val_main_v21_apply, val_main_v19_apply, val_main_v17_apply, val_main_v16_apply, val_main_v15_apply,
    val_main_v20_apply, val_main_v18_apply, val_main_v6_apply, val_main_v4_apply, val_main_v5_apply, val_main_c_apply]
  have h1 : idx_main_v15 (idx_main_v16 (idx_main_v17 (idx_main_v19 (idx_main_v22 (ix1 (⟨B.val * 1024 + e.val, hlt⟩ : Fin 2097152))))))
      = ix2 (1 : Fin 2) e := by
    funext d
    match d with
    | ⟨0, _⟩ => rfl
    | ⟨1, _⟩ => exact Fin.ext (by show (B.val * 1024 + e.val) % 1024 % 1024 = e.val; omega)
  have h2 : (B.val * 1024 + e.val) / 1024 = B.val := by omega
  exact congrArg₂ (fun (x y : BitVec 32) => x + y) (congrArg a1 h1) (congrArg (fun n => BitVec.ofNat 32 n * 128#32) h2)

/-- The source column at an edge row: the edge's source node in its graph. -/
theorem src2_edge (hei : ∀ (r : Fin 2) (e : Fin 1024), a1 (ix2 r e) = BitVec.ofNat 32 (EI r e).val) (B : Fin 2048) (e : Fin 1024) :
    val_main_v24 (F := Ideal) a1 (ix1 (edgeJ B e)) = BitVec.ofNat 32 (node B (EI 0 e)).val := by
  unfold val_main_v24
  rw [cat_edge _ _ _ B e (edge_lt B e), v14_at a1 B e (edge_lt B e), hei 0 e, word_node]

/-- The source column at a self-loop row: the node itself. -/
theorem src2_loop (N : Fin 262144) : val_main_v24 (F := Ideal) a1 (ix1 (loopJ N)) = BitVec.ofNat 32 N.val := by
  unfold val_main_v24
  rw [cat_loop, val_main_v23_apply]

/-- The destination column at an edge row. -/
theorem dst2_edge (hei : ∀ (r : Fin 2) (e : Fin 1024), a1 (ix2 r e) = BitVec.ofNat 32 (EI r e).val) (B : Fin 2048) (e : Fin 1024) :
    val_main_v25 (F := Ideal) a1 (ix1 (edgeJ B e)) = BitVec.ofNat 32 (node B (EI 1 e)).val := by
  unfold val_main_v25
  rw [cat_edge _ _ _ B e (edge_lt B e), v22_at a1 B e (edge_lt B e), hei 1 e, word_node]

/-- The destination column at a self-loop row. -/
theorem dst2_loop (N : Fin 262144) : val_main_v25 (F := Ideal) a1 (ix1 (loopJ N)) = BitVec.ofNat 32 N.val := by
  unfold val_main_v25
  rw [cat_loop, val_main_v23_apply]

/-- Every row is an edge row or a self-loop row. -/
theorem row_cases (j : Fin 2359296) : (∃ (B : Fin 2048) (e : Fin 1024), j = edgeJ B e) ∨ (∃ N : Fin 262144, j = loopJ N) := by
  have hj := j.isLt
  by_cases h : j.val < 2097152
  · left
    exact ⟨⟨j.val / 1024, by omega⟩, ⟨j.val % 1024, by omega⟩,
      Fin.ext (by show j.val = j.val / 1024 * 1024 + j.val % 1024; omega)⟩
  · right
    exact ⟨⟨j.val - 2097152, by omega⟩, Fin.ext (by show j.val = 2097152 + (j.val - 2097152); omega)⟩

/-- Every entry of the source column is the word of a number below `2^31`. -/
theorem v24_small (hei : ∀ (r : Fin 2) (e : Fin 1024), a1 (ix2 r e) = BitVec.ofNat 32 (EI r e).val) (j : S2359296.Idx) :
    ∃ n : Nat, n < 2147483648 ∧ val_main_v24 (F := Ideal) a1 j = BitVec.ofNat 32 n := by
  obtain ⟨j0, rfl⟩ : ∃ j0 : Fin 2359296, j = ix1 j0 := ⟨j 0, eq_ix1 j⟩
  rcases row_cases j0 with ⟨B, e, rfl⟩ | ⟨N, rfl⟩
  · exact ⟨(node B (EI 0 e)).val, by have := (node B (EI 0 e)).isLt; omega, src2_edge a1 EI hei B e⟩
  · exact ⟨N.val, by have := N.isLt; omega, src2_loop a1 N⟩

/-- Every entry of the destination column is the word of a number below `2^31`. -/
theorem v25_small (hei : ∀ (r : Fin 2) (e : Fin 1024), a1 (ix2 r e) = BitVec.ofNat 32 (EI r e).val) (j : S2359296.Idx) :
    ∃ n : Nat, n < 2147483648 ∧ val_main_v25 (F := Ideal) a1 j = BitVec.ofNat 32 n := by
  obtain ⟨j0, rfl⟩ : ∃ j0 : Fin 2359296, j = ix1 j0 := ⟨j 0, eq_ix1 j⟩
  rcases row_cases j0 with ⟨B, e, rfl⟩ | ⟨N, rfl⟩
  · exact ⟨(node B (EI 1 e)).val, by have := (node B (EI 1 e)).isLt; omega, dst2_edge a1 EI hei B e⟩
  · exact ⟨N.val, by have := N.isLt; omega, dst2_loop a1 N⟩

/-- The source column wrapped for the degree-normalisation gather is the source column (no index is negative). -/
theorem v42_eq (hei : ∀ (r : Fin 2) (e : Fin 1024), a1 (ix2 r e) = BitVec.ofNat 32 (EI r e).val) (j : S2359296.Idx) :
    val_main_v42 (F := Ideal) a1 j = val_main_v24 (F := Ideal) a1 j := by
  obtain ⟨n, hn, hx⟩ := v24_small a1 EI hei j
  rw [val_main_v42_apply, val_main_v39_apply, val_main_v41_apply, val_main_v38_apply, val_main_v40_apply, val_main_c_5_apply, val_main_c_6_apply]
  exact wrap_small _ n hn hx

/-- The destination column wrapped for the gather is the destination column. -/
theorem v50_eq (hei : ∀ (r : Fin 2) (e : Fin 1024), a1 (ix2 r e) = BitVec.ofNat 32 (EI r e).val) (j : S2359296.Idx) :
    val_main_v50 (F := Ideal) a1 j = val_main_v25 (F := Ideal) a1 j := by
  obtain ⟨n, hn, hx⟩ := v25_small a1 EI hei j
  rw [val_main_v50_apply, val_main_v47_apply, val_main_v49_apply, val_main_v46_apply, val_main_v48_apply, val_main_c_7_apply, val_main_c_8_apply]
  exact wrap_small _ n hn hx

/-- The source column wrapped for the first layer's gather. -/
theorem v59_eq (hei : ∀ (r : Fin 2) (e : Fin 1024), a1 (ix2 r e) = BitVec.ofNat 32 (EI r e).val) (j : S2359296.Idx) :
    val_main_v59 (F := Ideal) a1 j = val_main_v24 (F := Ideal) a1 j := by
  obtain ⟨n, hn, hx⟩ := v24_small a1 EI hei j
  rw [val_main_v59_apply, val_main_v56_apply, val_main_v58_apply, val_main_v55_apply, val_main_v57_apply, val_main_c_9_apply, val_main_c_10_apply]
  exact wrap_small _ n hn hx

/-- The source column wrapped for the second layer's gather. -/
theorem v77_eq (hei : ∀ (r : Fin 2) (e : Fin 1024), a1 (ix2 r e) = BitVec.ofNat 32 (EI r e).val) (j : S2359296.Idx) :
    val_main_v77 (F := Ideal) a1 j = val_main_v24 (F := Ideal) a1 j := by
  obtain ⟨n, hn, hx⟩ := v24_small a1 EI hei j
  rw [val_main_v77_apply, val_main_v74_apply, val_main_v76_apply, val_main_v73_apply, val_main_v75_apply, val_main_c_12_apply, val_main_c_13_apply]
  exact wrap_small _ n hn hx

/-- The source column wrapped for the third layer's gather. -/
theorem v95_eq (hei : ∀ (r : Fin 2) (e : Fin 1024), a1 (ix2 r e) = BitVec.ofNat 32 (EI r e).val) (j : S2359296.Idx) :
    val_main_v95 (F := Ideal) a1 j = val_main_v24 (F := Ideal) a1 j := by
  obtain ⟨n, hn, hx⟩ := v24_small a1 EI hei j
  rw [val_main_v95_apply, val_main_v92_apply, val_main_v94_apply, val_main_v91_apply, val_main_v93_apply, val_main_c_15_apply, val_main_c_16_apply]
  exact wrap_small _ n hn hx

/-- The weight column at an edge row: the edge's weight in its graph's input row. -/
theorem w2_edge (hhx : ∀ (B : Fin 2048) (j : Fin 1154), a0 (ix2 B j) = ((HX B j : ℝ) : EReal)) (B : Fin 2048) (e : Fin 1024) :
    val_main_v27 (F := Ideal) a0 (ix1 (edgeJ B e)) = ((HX B (wcol e) : ℝ) : EReal) := by
  unfold val_main_v27
  rw [cat_edge _ _ _ B e (edge_lt B e), val_main_v3_apply, val_main_v2_apply]
  have hB := B.isLt
  have he := e.isLt
  have h1 : idx_main_v2 (idx_main_v3 (ix1 (⟨B.val * 1024 + e.val, edge_lt B e⟩ : Fin 2097152))) = ix2 B (wcol e) := by
    funext d
    match d with
    | ⟨0, _⟩ => exact Fin.ext (by show (B.val * 1024 + e.val) / 1024 = B.val; omega)
    | ⟨1, _⟩ => exact Fin.ext (by show 128 + (B.val * 1024 + e.val) % 1024 = 128 + e.val; omega)
  exact (congrArg a0 h1).trans (hhx B (wcol e))

/-- The weight column at a self-loop row: one. -/
theorem w2_loop (N : Fin 262144) : val_main_v27 (F := Ideal) a0 (ix1 (loopJ N)) = ((1 : ℝ) : EReal) := by
  unfold val_main_v27
  rw [cat_loop, val_main_v26_apply, val_main_cst_apply]
  exact ofBits_one_f32

end Cert.Gcn.RefIdx

end
-- ==== Proof.RefNorm.lean ====
/-
  The reference's normalisation on real data: the degree (a segment sum of the weight column over the destination
  column: graph `B`'s weights into node `k`, plus the self-loop's one), its guarded inverse square root, and the
  per-row factor `dinv[src] · w · dinv[dst]` — at an edge row the edge's two endpoints in its own graph, at a self-loop
  row the node twice with weight one.
-/
import proofs.«402176_j11295763988681_3_alg».proof.Proof.Gen.ReferenceIdeal.Read
import proofs.«402176_j11295763988681_3_alg».proof.Proof.Spec
import proofs.«402176_j11295763988681_3_alg».proof.Proof.LibCoe
import proofs.«402176_j11295763988681_3_alg».proof.Proof.LibIndexOps
import proofs.«402176_j11295763988681_3_alg».proof.Proof.RefSum
import proofs.«402176_j11295763988681_3_alg».proof.Proof.RefIdx

noncomputable section

open scoped BigOperators

namespace Cert.Gcn.RefNorm

open Cert.ReferenceIdeal Cert.ReferenceIdeal.Read Idealize.ShloMosaic Idealize.ShloMosaic.ValueIdx

variable (a0 : (⟨S2048x1154, .f32⟩ : BufTy).Contents (Elt Ideal)) (a1 : (⟨S2x1024, .i32⟩ : BufTy).Contents (Elt Ideal))
  (HX : Fin 2048 → Fin 1154 → ℝ) (EI : Fin 2 → Fin 1024 → Fin 128)

/-- A node index, written as a 32-bit word, reads back (signed) as itself. -/
theorem toInt_ofNat_node (n : Nat) (h : n < 262144) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- The one coordinate of row `j` of an index column. -/
theorem idx29_row (j : Fin 2359296) : idx_main_v29 (ix2 j (0 : Fin 1)) = ix1 j := by
  funext d; match d with | ⟨0, _⟩ => rfl
theorem idx43_row (j : Fin 2359296) : idx_main_v43 (ix2 j (0 : Fin 1)) = ix1 j := by
  funext d; match d with | ⟨0, _⟩ => rfl
theorem idx51_row (j : Fin 2359296) : idx_main_v51 (ix2 j (0 : Fin 1)) = ix1 j := by
  funext d; match d with | ⟨0, _⟩ => rfl

/-- The gather from a table over the nodes, at a row whose index word is node `N`: the table's entry at `N`. -/
theorem gather_node {α : Type} (x : S262144.Idx → α) (idx : IVec S2359296x1 32) (j : Fin 2359296) (N : Fin 262144)
    (h : idx (ix2 j (0 : Fin 1)) = BitVec.ofNat 32 N.val) :
    Host.gather gather_S262144_S2359296x1_S2359296_n_0_n_n_0_1_1 x idx (ix1 j) = x (ix1 N) := by
  have hg : Host.gather gather_S262144_S2359296x1_S2359296_n_0_n_n_0_1_1 x idx (ix1 j)
      = Host.gather (IndexOps.flatGather 262144 2359296 Facts₀.gather_S262144_S2359296x1_S2359296_n_0_n_n_0_1_1_wf) x idx (ix1 j) := rfl
  rw [hg, IndexOps.flatGather_apply (by norm_num)]
  refine congrArg x (congrArg ix1 (Fin.ext ?_))
  show min (idx (ix2 j (0 : Fin 1))).toInt.toNat (262144 - 1) = N.val
  rw [h, toInt_ofNat_node N.val N.isLt, Int.toNat_natCast]
  have := N.isLt
  omega

/-- The accumulating scatter into a zero table over the nodes, read at node `k` of graph `B`, when the index column
    is the batched destination column and the updates are the batched weight column: the degree. -/
theorem scatter_deg
    (z : FVec Ideal ⟨1, ![262144]⟩ .f32) (didx : IVec ⟨2, ![2359296, 1]⟩ 32) (upd : FVec Ideal ⟨1, ![2359296]⟩ .f32)
    (wfS : ScatterDims.WF ⟨1, ![262144]⟩ ⟨2, ![2359296, 1]⟩ ⟨1, ![2359296]⟩ [] [0] [0] 1)
    (B : Fin 2048) (k : Fin 128)
    (hz : z (ix1 (node B k)) = ((0 : ℝ) : EReal))
    (hDe : ∀ (B' : Fin 2048) (e : Fin 1024), didx (ix2 (edgeJ B' e) (0 : Fin 1)) = BitVec.ofNat 32 (node B' (EI 1 e)).val)
    (hDl : ∀ N : Fin 262144, didx (ix2 (loopJ N) (0 : Fin 1)) = BitVec.ofNat 32 N.val)
    (hUe : ∀ e : Fin 1024, upd (ix1 (edgeJ B e)) = ((HX B (wcol e) : ℝ) : EReal))
    (hUl : upd (ix1 (loopJ (node B k))) = ((1 : ℝ) : EReal)) :
    Host.scatterAdd (IndexOps.flatScatter 262144 2359296 wfS) z didx upd (ix1 (node B k))
      = ((deg (EI 1) (fun e => HX B (wcol e)) k : ℝ) : EReal) := by
  show Ideal.hostScatterAdd (IndexOps.flatScatter 262144 2359296 wfS) z didx upd (ix1 (node B k)) = _
  rw [IndexOps.flatScatter_apply, hz]
  have hs : (∑ j : Fin 2359296, if (didx (ix2 j (0 : Fin 1))).toInt = ((node B k).val : ℤ) then upd (ix1 j) else 0)
      = (∑ e : Fin 1024, if EI 1 e = k then upd (ix1 (edgeJ B e)) else 0) + upd (ix1 (loopJ (node B k))) :=
    sum_rows_into (EI 1) (fun j => (didx (ix2 j (0 : Fin 1))).toInt) (fun j => upd (ix1 j))
      (fun B' e => by
        show (didx (ix2 (edgeJ B' e) (0 : Fin 1))).toInt = _
        rw [hDe]; exact toInt_ofNat_node _ (node B' (EI 1 e)).isLt)
      (fun N => by
        show (didx (ix2 (loopJ N) (0 : Fin 1))).toInt = _
        rw [hDl]; exact toInt_ofNat_node _ N.isLt)
      B k
  rw [hs, hUl]
  simp only [hUe]
  have hite : ∀ e : Fin 1024, (if EI 1 e = k then ((HX B (wcol e) : ℝ) : EReal) else 0)
      = (((if EI 1 e = k then HX B (wcol e) else 0 : ℝ)) : EReal) := by
    intro e; split_ifs <;> simp
  simp only [hite, coe_sum, ← EReal.coe_add]
  unfold deg agg
  rw [EReal.coe_eq_coe_iff]
  ring

/-- The degree at node `k` of graph `B`: the self-loop's one plus graph `B`'s weights into `k`. -/
theorem deg_apply
    (hhx : ∀ (B : Fin 2048) (j : Fin 1154), a0 (ix2 B j) = ((HX B j : ℝ) : EReal))
    (hei : ∀ (r : Fin 2) (e : Fin 1024), a1 (ix2 r e) = BitVec.ofNat 32 (EI r e).val) (B : Fin 2048) (k : Fin 128) :
    val_main_v30 (F := Ideal) a0 a1 (ix1 (node B k)) = ((deg (EI 1) (fun e => HX B (wcol e)) k : ℝ) : EReal) := by
  have hd : scatter_S262144_S2359296x1_S2359296_n_0_0_1
      = IndexOps.flatScatter 262144 2359296 Facts₀.scatter_S262144_S2359296x1_S2359296_n_0_0_1_wf := rfl
  unfold val_main_v30
  rw [hd]
  exact scatter_deg HX EI _ _ _ _ B k
    (by rw [val_main_v28_apply, val_main_cst_0_apply, Ideal.ofBits_def, ofBits_zero_f32'])
    (fun B' e => by rw [val_main_v29_apply, idx29_row, RefIdx.dst2_edge a1 EI hei])
    (fun N => by rw [val_main_v29_apply, idx29_row, RefIdx.dst2_loop a1])
    (fun e => RefIdx.w2_edge a0 HX hhx B e)
    (RefIdx.w2_loop a0 (node B k))

/-- The constants of the guarded inverse square root. -/
theorem v31_zero (i : S262144.Idx) : val_main_v31 (F := Ideal) i = ((0 : ℝ) : EReal) := by
  rw [val_main_v31_apply, val_main_cst_1_apply, Ideal.ofBits_def, ofBits_zero_f32']
theorem v35_zero (i : S262144.Idx) : val_main_v35 (F := Ideal) i = ((0 : ℝ) : EReal) := by
  rw [val_main_v35_apply, val_main_cst_3_apply, Ideal.ofBits_def, ofBits_zero_f32']
theorem call0_one (i : S262144.Idx) : val_main_call0_v1 (F := Ideal) i = ((1 : ℝ) : EReal) := by
  rw [val_main_call0_v1_apply, val_main_call0_v0_apply, val_main_cst_2_apply, Ideal.ofBits_def, ofBits_one_f32]
theorem call1_zero (i : S262144.Idx) : val_main_call1_v1 (F := Ideal) i = ((0 : ℝ) : EReal) := by
  rw [val_main_call1_v1_apply, val_main_call1_v0_apply, val_main_cst_4_apply, Ideal.ofBits_def, ofBits_zero_f32']

/-- The strict comparison of two reals, as the float operation. -/
theorem cmpf_ogt_coe (a b : ℝ) :
    FloatOps.cmpf (F := Ideal) (φ := .f32) .ogt ((a : ℝ) : EReal) ((b : ℝ) : EReal) = BitVec.ofBool (decide (b < a)) :=
  cmp_ogt_coe a b

/-- The normalisation at node `k` of graph `B`. -/
theorem dinv_apply
    (hhx : ∀ (B : Fin 2048) (j : Fin 1154), a0 (ix2 B j) = ((HX B j : ℝ) : EReal))
    (hei : ∀ (r : Fin 2) (e : Fin 1024), a1 (ix2 r e) = BitVec.ofNat 32 (EI r e).val) (B : Fin 2048) (k : Fin 128) :
    val_main_v37 (F := Ideal) a0 a1 (ix1 (node B k)) = ((dinv (EI 1) (fun e => HX B (wcol e)) k : ℝ) : EReal) := by
  rw [val_main_v37_apply, val_main_v36_apply, val_main_v34_apply, val_main_v33_apply, val_main_v32_apply,
    deg_apply a0 a1 HX EI hhx hei B k, v31_zero, v35_zero, call0_one, call1_zero, cmpf_ogt_coe,
    select_ofBool, select_ofBool, Ideal.hostUnary_rsqrt_def]
  unfold dinv
  generalize deg (EI 1) (fun e => HX B (wcol e)) k = d
  by_cases h : 0 < d
  · simp only [if_pos h]
    exact rsqrt_coe_pos h
  · simp only [if_neg h]

/-- The normalisation gathered at a row whose source word is node `n` of graph `B`. -/
theorem v44_at
    (hhx : ∀ (B : Fin 2048) (j : Fin 1154), a0 (ix2 B j) = ((HX B j : ℝ) : EReal))
    (hei : ∀ (r : Fin 2) (e : Fin 1024), a1 (ix2 r e) = BitVec.ofNat 32 (EI r e).val)
    (j : Fin 2359296) (B : Fin 2048) (n : Fin 128)
    (h : val_main_v24 (F := Ideal) a1 (ix1 j) = BitVec.ofNat 32 (node B n).val) :
    val_main_v44 (F := Ideal) a0 a1 (ix1 j) = ((dinv (EI 1) (fun e => HX B (wcol e)) n : ℝ) : EReal) := by
  have hidx : val_main_v43 (F := Ideal) a1 (ix2 j (0 : Fin 1)) = BitVec.ofNat 32 (node B n).val := by
    rw [val_main_v43_apply, idx43_row, RefIdx.v42_eq a1 EI hei, h]
  exact (gather_node (val_main_v37 (F := Ideal) a0 a1) (val_main_v43 (F := Ideal) a1) j (node B n) hidx).trans
    (dinv_apply a0 a1 HX EI hhx hei B n)

/-- The normalisation gathered at a row whose destination word is node `n` of graph `B`. -/
theorem v52_at
    (hhx : ∀ (B : Fin 2048) (j : Fin 1154), a0 (ix2 B j) = ((HX B j : ℝ) : EReal))
    (hei : ∀ (r : Fin 2) (e : Fin 1024), a1 (ix2 r e) = BitVec.ofNat 32 (EI r e).val)
    (j : Fin 2359296) (B : Fin 2048) (n : Fin 128)
    (h : val_main_v25 (F := Ideal) a1 (ix1 j) = BitVec.ofNat 32 (node B n).val) :
    val_main_v52 (F := Ideal) a0 a1 (ix1 j) = ((dinv (EI 1) (fun e => HX B (wcol e)) n : ℝ) : EReal) := by
  have hidx : val_main_v51 (F := Ideal) a1 (ix2 j (0 : Fin 1)) = BitVec.ofNat 32 (node B n).val := by
    rw [val_main_v51_apply, idx51_row, RefIdx.v50_eq a1 EI hei, h]
  exact (gather_node (val_main_v37 (F := Ideal) a0 a1) (val_main_v51 (F := Ideal) a1) j (node B n) hidx).trans
    (dinv_apply a0 a1 HX EI hhx hei B n)

/-- The per-row factor at an edge row. -/
theorem norm_edge
    (hhx : ∀ (B : Fin 2048) (j : Fin 1154), a0 (ix2 B j) = ((HX B j : ℝ) : EReal))
    (hei : ∀ (r : Fin 2) (e : Fin 1024), a1 (ix2 r e) = BitVec.ofNat 32 (EI r e).val) (B : Fin 2048) (e : Fin 1024) :
    val_main_v53 (F := Ideal) a0 a1 (ix1 (edgeJ B e))
      = ((dinv (EI 1) (fun e => HX B (wcol e)) (EI 0 e) * HX B (wcol e) * dinv (EI 1) (fun e => HX B (wcol e)) (EI 1 e) : ℝ) : EReal) := by
  rw [val_main_v53_apply, val_main_v45_apply,
    v44_at a0 a1 HX EI hhx hei (edgeJ B e) B (EI 0 e) (RefIdx.src2_edge a1 EI hei B e),
    v52_at a0 a1 HX EI hhx hei (edgeJ B e) B (EI 1 e) (RefIdx.dst2_edge a1 EI hei B e),
    RefIdx.w2_edge a0 HX hhx B e, Ideal.mulf_def, Ideal.mulf_def, ← EReal.coe_mul, ← EReal.coe_mul]

/-- The per-row factor at a self-loop row. -/
theorem norm_loop
    (hhx : ∀ (B : Fin 2048) (j : Fin 1154), a0 (ix2 B j) = ((HX B j : ℝ) : EReal))
    (hei : ∀ (r : Fin 2) (e : Fin 1024), a1 (ix2 r e) = BitVec.ofNat 32 (EI r e).val) (B : Fin 2048) (k : Fin 128) :
    val_main_v53 (F := Ideal) a0 a1 (ix1 (loopJ (node B k)))
      = ((dinv (EI 1) (fun e => HX B (wcol e)) k * 1 * dinv (EI 1) (fun e => HX B (wcol e)) k : ℝ) : EReal) := by
  rw [val_main_v53_apply, val_main_v45_apply,
    v44_at a0 a1 HX EI hhx hei (loopJ (node B k)) B k (RefIdx.src2_loop a1 (node B k)),
    v52_at a0 a1 HX EI hhx hei (loopJ (node B k)) B k (RefIdx.dst2_loop a1 (node B k)),
    RefIdx.w2_loop a0 (node B k), Ideal.mulf_def, Ideal.mulf_def, ← EReal.coe_mul, ← EReal.coe_mul]

end Cert.Gcn.RefNorm

end
-- ==== Proof.RefStages.lean ====
/-
  The reference, stage by stage, on real data: its result at graph `B` and node `n` is the network of Spec.lean in
  the reference's arrangement (`resultR`).  Each of the three propagations is one gather of a node table's rows at the
  source column, a scaling of every row by its normalisation factor, and a sum of the rows into the destination
  column's nodes (`layer`); between them stand the channel mixes, the biases and the rectifications.
-/
import proofs.«402176_j11295763988681_3_alg».proof.Proof.Gen.ReferenceIdeal.Read
import proofs.«402176_j11295763988681_3_alg».proof.Proof.Spec
import proofs.«402176_j11295763988681_3_alg».proof.Proof.LibCoe
import proofs.«402176_j11295763988681_3_alg».proof.Proof.LibIndexOps
import proofs.«402176_j11295763988681_3_alg».proof.Proof.RefSum
import proofs.«402176_j11295763988681_3_alg».proof.Proof.RefIdx
import proofs.«402176_j11295763988681_3_alg».proof.Proof.RefNorm

noncomputable section

open scoped BigOperators

namespace Cert.Gcn.Ref

open Cert.ReferenceIdeal Cert.ReferenceIdeal.Read Idealize.ShloMosaic Idealize.ShloMosaic.ValueIdx

/-- A node index as a 32-bit word reads back, signed, as itself. -/
theorem toInt_ofNat_node (N : Fin 262144) : (BitVec.ofNat 32 N.val).toInt = (N.val : ℤ) := by
  have h := N.isLt
  have h1 : N.val % 2 ^ 32 = N.val := Nat.mod_eq_of_lt (by omega)
  rw [BitVec.toInt_eq_toNat_cond, BitVec.toNat_ofNat, h1, if_pos (by omega)]

/-- A node index clamped into the table is itself. -/
theorem clamp_node (N : Fin 262144) : min ((BitVec.ofNat 32 N.val).toInt.toNat) (262144 - 1) = N.val := by
  rw [toInt_ofNat_node]
  have h := N.isLt
  simp only [Int.toNat_natCast]
  omega

/-- A row gather at a row whose index word names node `N` reads the table's row `N`. -/
theorem gather_node {C : Nat}
    (wfG : GatherDims.WF ⟨2, ![262144, C]⟩ ⟨2, ![2359296, 1]⟩ ⟨2, ![2359296, C]⟩ [1] [0] [] [0] [] 1 ![1, C])
    (h : (⟨2, ![262144, C]⟩ : Shape).Idx → EReal) (sidx : IVec ⟨2, ![2359296, 1]⟩ 32)
    (j : Fin 2359296) (N : Fin 262144) (c : Fin C) (hj : sidx (ix2 j (0 : Fin 1)) = BitVec.ofNat 32 N.val) :
    Host.gather (IndexOps.rowsGather 262144 C 2359296 wfG) h sidx (ix2 j c) = h (ix2 N c) := by
  rw [IndexOps.rowsGather_apply (by decide)]
  refine congrArg (fun r => h (ix2 r c)) (Fin.ext ?_)
  show min (sidx (ix2 j (0 : Fin 1))).toInt.toNat (262144 - 1) = N.val
  rw [hj]
  exact clamp_node N

/-- ONE PROPAGATION in the reference's arrangement: gather the table's rows at the source column, scale each row
    by its normalisation factor, and add the rows into the destination column's nodes, starting from zero. -/
theorem layer {C : Nat}
    (a0 : (⟨S2048x1154, .f32⟩ : BufTy).Contents (Elt Ideal)) (a1 : (⟨S2x1024, .i32⟩ : BufTy).Contents (Elt Ideal))
    (HX : Fin 2048 → Fin 1154 → ℝ) (EI : Fin 2 → Fin 1024 → Fin 128)
    (hhx : ∀ (B : Fin 2048) (j : Fin 1154), a0 (ix2 B j) = ((HX B j : ℝ) : EReal))
    (hei : ∀ (r : Fin 2) (e : Fin 1024), a1 (ix2 r e) = BitVec.ofNat 32 (EI r e).val)
    (wfG : GatherDims.WF ⟨2, ![262144, C]⟩ ⟨2, ![2359296, 1]⟩ ⟨2, ![2359296, C]⟩ [1] [0] [] [0] [] 1 ![1, C])
    (wfS : ScatterDims.WF ⟨2, ![262144, C]⟩ ⟨2, ![2359296, 1]⟩ ⟨2, ![2359296, C]⟩ [1] [0] [0] 1)
    (h z : FVec Ideal ⟨2, ![262144, C]⟩ .f32) (sidx didx : IVec ⟨2, ![2359296, 1]⟩ 32)
    (fac : FVec Ideal ⟨2, ![2359296, C]⟩ .f32)
    (H : Fin 2048 → Fin 128 → Fin C → ℝ)
    (hh : ∀ (B' : Fin 2048) (k' : Fin 128) (c : Fin C), h (ix2 (node B' k') c) = ((H B' k' c : ℝ) : EReal))
    (hs : ∀ j : Fin 2359296, sidx (ix2 j (0 : Fin 1)) = val_main_v24 (F := Ideal) a1 (ix1 j))
    (hd : ∀ j : Fin 2359296, didx (ix2 j (0 : Fin 1)) = val_main_v25 (F := Ideal) a1 (ix1 j))
    (hf : ∀ (j : Fin 2359296) (c : Fin C), fac (ix2 j c) = val_main_v53 (F := Ideal) a0 a1 (ix1 j))
    (hz : ∀ i, z i = ((0 : ℝ) : EReal))
    (B : Fin 2048) (k : Fin 128) (c : Fin C) :
    Host.scatterAdd (IndexOps.rowsScatter 262144 C 2359296 wfS) z didx
        (mulf (Host.gather (IndexOps.rowsGather 262144 C 2359296 wfG) h sidx) fac) (ix2 (node B k) c)
      = ((propR (EI 0) (EI 1) (fun e => HX B (wcol e)) (fun k' => H B k' c) k : ℝ) : EReal) := by
  show Ideal.hostScatterAdd (IndexOps.rowsScatter 262144 C 2359296 wfS) z didx
        (fun i => Host.gather (IndexOps.rowsGather 262144 C 2359296 wfG) h sidx i * fac i) (ix2 (node B k) c) = _
  rw [IndexOps.rowsScatter_apply, hz]
  simp only [hd]
  rw [sum_rows_into (EI 1) (fun j => (val_main_v25 (F := Ideal) a1 (ix1 j)).toInt)
    (fun j => Host.gather (IndexOps.rowsGather 262144 C 2359296 wfG) h sidx (ix2 j c) * fac (ix2 j c))
    (fun B' e => by rw [RefIdx.dst2_edge a1 EI hei, toInt_ofNat_node])
    (fun N => by rw [RefIdx.dst2_loop, toInt_ofNat_node]) B k]
  have hE : ∀ e : Fin 1024,
      Host.gather (IndexOps.rowsGather 262144 C 2359296 wfG) h sidx (ix2 (edgeJ B e) c) * fac (ix2 (edgeJ B e) c)
        = ((H B (EI 0 e) c * (dinv (EI 1) (fun e => HX B (wcol e)) (EI 0 e) * HX B (wcol e)
            * dinv (EI 1) (fun e => HX B (wcol e)) (EI 1 e)) : ℝ) : EReal) := by
    intro e
    rw [gather_node wfG h sidx (edgeJ B e) (node B (EI 0 e)) c ((hs _).trans (RefIdx.src2_edge a1 EI hei B e)),
      hh, hf, RefNorm.norm_edge a0 a1 HX EI hhx hei]
    exact (EReal.coe_mul _ _).symm
  have hL : Host.gather (IndexOps.rowsGather 262144 C 2359296 wfG) h sidx (ix2 (loopJ (node B k)) c) * fac (ix2 (loopJ (node B k)) c)
        = ((H B k c * (dinv (EI 1) (fun e => HX B (wcol e)) k * 1 * dinv (EI 1) (fun e => HX B (wcol e)) k) : ℝ) : EReal) := by
    rw [gather_node wfG h sidx (loopJ (node B k)) (node B k) c ((hs _).trans (RefIdx.src2_loop a1 (node B k))),
      hh, hf, RefNorm.norm_loop a0 a1 HX EI hhx hei]
    exact (EReal.coe_mul _ _).symm
  simp only [hE, hL]
  unfold propR agg
  have : ∀ e : Fin 1024, (if EI 1 e = k then ((H B (EI 0 e) c * (dinv (EI 1) (fun e => HX B (wcol e)) (EI 0 e) * HX B (wcol e)
            * dinv (EI 1) (fun e => HX B (wcol e)) (EI 1 e)) : ℝ) : EReal) else 0)
      = (((if EI 1 e = k then H B (EI 0 e) c * (dinv (EI 1) (fun e => HX B (wcol e)) (EI 0 e) * HX B (wcol e)
            * dinv (EI 1) (fun e => HX B (wcol e)) (EI 1 e)) else 0 : ℝ)) : EReal) := by
    intro e; by_cases he : EI 1 e = k
    · simp only [he, if_true]
    · simp only [he, if_false, EReal.coe_zero]
  simp only [this, coe_sum, ← EReal.coe_add, zero_add]

section stages

variable {a0 : (⟨S2048x1154, .f32⟩ : BufTy).Contents (Elt Ideal)} {a1 : (⟨S2x1024, .i32⟩ : BufTy).Contents (Elt Ideal)}
  {a2 : (⟨S1x32, .f32⟩ : BufTy).Contents (Elt Ideal)} {a3 : (⟨S32, .f32⟩ : BufTy).Contents (Elt Ideal)}
  {a4 : (⟨S32x32, .f32⟩ : BufTy).Contents (Elt Ideal)} {a5 : (⟨S32, .f32⟩ : BufTy).Contents (Elt Ideal)}
  {a6 : (⟨S32x1, .f32⟩ : BufTy).Contents (Elt Ideal)} {a7 : (⟨S1, .f32⟩ : BufTy).Contents (Elt Ideal)}
  {HX : Fin 2048 → Fin 1154 → ℝ} {EI : Fin 2 → Fin 1024 → Fin 128} {W1 b1 : Fin 32 → ℝ} {W2 : Fin 32 → Fin 32 → ℝ}
  {b2 : Fin 32 → ℝ} {W3 : Fin 32 → ℝ} {b3 : ℝ}
  (hI : Inputs a0 a1 a2 a3 a4 a5 a6 a7 HX EI W1 b1 W2 b2 W3 b3)
include hI

/-- The first layer's channel mix at node `k` of graph `B`: the node's signal times the rank-one weight. -/
theorem v54_node (B : Fin 2048) (k : Fin 128) (c : Fin 32) :
    val_main_v54 (F := Ideal) a0 a2 (ix2 (node B k) c) = ((HX B (pcol k) * W1 c : ℝ) : EReal) := by
  have e1 : idx_main_v0 (idx_main_v1 (lidx_main_v54 (ix2 (node B k) c) 0)) = ix2 B (pcol k) := by
    funext a
    match a with
    | ⟨0, _⟩ => exact Fin.ext (by show ((B.val * 128 + k.val) * 1 + 0) / 128 = B.val; have := k.isLt; omega)
    | ⟨1, _⟩ => exact Fin.ext (by show ((B.val * 128 + k.val) * 1 + 0) % 128 = k.val; have := k.isLt; omega)
  have e2 : ridx_main_v54 (ix2 (node B k) c) 0 = ix2 (0 : Fin 1) c := by
    funext a
    match a with
    | ⟨0, _⟩ => rfl
    | ⟨1, _⟩ => rfl
  rw [val_main_v54_apply, Fin.sum_univ_one, val_main_v1_apply, val_main_v0_apply, e1, e2, hI.hx, hI.w1, ← EReal.coe_mul]

/-- The gathers' index columns are the source column. -/
theorem v60_col (j : Fin 2359296) :
    val_main_v60 (F := Ideal) a1 (ix2 j (0 : Fin 1)) = val_main_v24 (F := Ideal) a1 (ix1 j) := by
  have e : idx_main_v60 (ix2 j (0 : Fin 1)) = ix1 j := funext fun a => match a with | ⟨0, _⟩ => rfl
  rw [val_main_v60_apply, RefIdx.v59_eq a1 EI hI.ei, e]

theorem v78_col (j : Fin 2359296) :
    val_main_v78 (F := Ideal) a1 (ix2 j (0 : Fin 1)) = val_main_v24 (F := Ideal) a1 (ix1 j) := by
  have e : idx_main_v78 (ix2 j (0 : Fin 1)) = ix1 j := funext fun a => match a with | ⟨0, _⟩ => rfl
  rw [val_main_v78_apply, RefIdx.v77_eq a1 EI hI.ei, e]

theorem v96_col (j : Fin 2359296) :
    val_main_v96 (F := Ideal) a1 (ix2 j (0 : Fin 1)) = val_main_v24 (F := Ideal) a1 (ix1 j) := by
  have e : idx_main_v96 (ix2 j (0 : Fin 1)) = ix1 j := funext fun a => match a with | ⟨0, _⟩ => rfl
  rw [val_main_v96_apply, RefIdx.v95_eq a1 EI hI.ei, e]

omit hI in
/-- The scatters' index columns are the destination column. -/
theorem v66_col (j : Fin 2359296) :
    val_main_v66 (F := Ideal) a1 (ix2 j (0 : Fin 1)) = val_main_v25 (F := Ideal) a1 (ix1 j) := by
  have e : idx_main_v66 (ix2 j (0 : Fin 1)) = ix1 j := funext fun a => match a with | ⟨0, _⟩ => rfl
  rw [val_main_v66_apply, e]

omit hI in
theorem v84_col (j : Fin 2359296) :
    val_main_v84 (F := Ideal) a1 (ix2 j (0 : Fin 1)) = val_main_v25 (F := Ideal) a1 (ix1 j) := by
  have e : idx_main_v84 (ix2 j (0 : Fin 1)) = ix1 j := funext fun a => match a with | ⟨0, _⟩ => rfl
  rw [val_main_v84_apply, e]

omit hI in
theorem v101_col (j : Fin 2359296) :
    val_main_v101 (F := Ideal) a1 (ix2 j (0 : Fin 1)) = val_main_v25 (F := Ideal) a1 (ix1 j) := by
  have e : idx_main_v101 (ix2 j (0 : Fin 1)) = ix1 j := funext fun a => match a with | ⟨0, _⟩ => rfl
  rw [val_main_v101_apply, e]

omit hI in
/-- The per-row factor broadcast along the channels. -/
theorem v63_fac (j : Fin 2359296) (c : Fin 32) :
    val_main_v63 (F := Ideal) a0 a1 (ix2 j c) = val_main_v53 (F := Ideal) a0 a1 (ix1 j) := by
  have e : idx_main_v62 (idx_main_v63 (ix2 j c)) = ix1 j := funext fun a => match a with | ⟨0, _⟩ => rfl
  rw [val_main_v63_apply, val_main_v62_apply, e]

omit hI in
theorem v81_fac (j : Fin 2359296) (c : Fin 32) :
    val_main_v81 (F := Ideal) a0 a1 (ix2 j c) = val_main_v53 (F := Ideal) a0 a1 (ix1 j) := by
  have e : idx_main_v80 (idx_main_v81 (ix2 j c)) = ix1 j := funext fun a => match a with | ⟨0, _⟩ => rfl
  rw [val_main_v81_apply, val_main_v80_apply, e]

omit hI in
theorem v98_fac (j : Fin 2359296) (c : Fin 1) :
    val_main_v98 (F := Ideal) a0 a1 (ix2 j c) = val_main_v53 (F := Ideal) a0 a1 (ix1 j) := by
  have e : idx_main_v98 (ix2 j c) = ix1 j := funext fun a => match a with | ⟨0, _⟩ => rfl
  rw [val_main_v98_apply, e]

omit hI in
/-- The scatters start from zero. -/
theorem v65_zero (i : S262144x32.Idx) : val_main_v65 (F := Ideal) i = ((0 : ℝ) : EReal) := by
  rw [val_main_v65_apply, val_main_cst_11_apply]; exact ofBits_zero_f32'

omit hI in
theorem v83_zero (i : S262144x32.Idx) : val_main_v83 (F := Ideal) i = ((0 : ℝ) : EReal) := by
  rw [val_main_v83_apply, val_main_cst_14_apply]; exact ofBits_zero_f32'

omit hI in
theorem v100_zero (i : S262144x1.Idx) : val_main_v100 (F := Ideal) i = ((0 : ℝ) : EReal) := by
  rw [val_main_v100_apply, val_main_cst_17_apply]; exact ofBits_zero_f32'

/-- The first propagation. -/
theorem v67_node (B : Fin 2048) (k : Fin 128) (c : Fin 32) :
    val_main_v67 (F := Ideal) a0 a1 a2 (ix2 (node B k) c)
      = ((propR (EI 0) (EI 1) (fun e => HX B (wcol e)) (fun k' => HX B (pcol k') * W1 c) k : ℝ) : EReal) := by
  have hg : gather_S262144x32_S2359296x1_S2359296x32_1_0_n_n_0_1_132
      = IndexOps.rowsGather 262144 32 2359296 gather_S262144x32_S2359296x1_S2359296x32_1_0_n_n_0_1_132.wf := rfl
  have hd : scatter_S262144x32_S2359296x1_S2359296x32_1_0_0_1
      = IndexOps.rowsScatter 262144 32 2359296 scatter_S262144x32_S2359296x1_S2359296x32_1_0_0_1.wf := rfl
  unfold val_main_v67 val_main_v64 val_main_v61
  rw [hg, hd]
  exact layer a0 a1 HX EI hI.hx hI.ei _ _
    (val_main_v54 (F := Ideal) a0 a2) (val_main_v65 (F := Ideal)) (val_main_v60 (F := Ideal) a1) (val_main_v66 (F := Ideal) a1)
    (val_main_v63 (F := Ideal) a0 a1) (fun B' k' c' => HX B' (pcol k') * W1 c')
    (fun B' k' c' => v54_node hI B' k' c') (v60_col hI) v66_col v63_fac v65_zero B k c

/-- The first layer's output: the bias added, rectified. -/
theorem v71_node (B : Fin 2048) (k : Fin 128) (c : Fin 32) :
    val_main_v71 (F := Ideal) a0 a1 a2 a3 (ix2 (node B k) c)
      = ((x1R (EI 0) (EI 1) (fun e => HX B (wcol e)) (fun k' => HX B (pcol k')) W1 b1 c k : ℝ) : EReal) := by
  have eb : idx_main_v68 (idx_main_v69 (ix2 (node B k) c)) = ix1 c := funext fun a => match a with | ⟨0, _⟩ => rfl
  rw [val_main_v71_apply, val_main_v70_apply, v67_node hI, val_main_v69_apply, val_main_v68_apply, eb, hI.b1,
    val_main_call2_v0_apply, val_main_call2_cst_apply, Ideal.maximumf_def, Ideal.addf_def, Ideal.ofBits_def, ofBits_zero_f32',
    ← EReal.coe_add, ← Monotone.map_max EReal.coe_strictMono.monotone]
  rfl

/-- The second layer's channel mix. -/
theorem v72_node (B : Fin 2048) (k : Fin 128) (o : Fin 32) :
    val_main_v72 (F := Ideal) a0 a1 a2 a3 a4 (ix2 (node B k) o)
      = ((h2R (EI 0) (EI 1) (fun e => HX B (wcol e)) (fun k' => HX B (pcol k')) W1 b1 W2 o k : ℝ) : EReal) := by
  have el : ∀ i : Fin 32, lidx_main_v72 (ix2 (node B k) o) i = ix2 (node B k) i :=
    fun i => funext fun a => match a with | ⟨0, _⟩ => rfl | ⟨1, _⟩ => rfl
  have er : ∀ i : Fin 32, ridx_main_v72 (ix2 (node B k) o) i = ix2 i o :=
    fun i => funext fun a => match a with | ⟨0, _⟩ => rfl | ⟨1, _⟩ => rfl
  rw [val_main_v72_apply]
  simp only [el, er, v71_node hI, hI.w2, ← EReal.coe_mul, coe_sum]
  rfl

/-- The second propagation. -/
theorem v85_node (B : Fin 2048) (k : Fin 128) (c : Fin 32) :
    val_main_v85 (F := Ideal) a0 a1 a2 a3 a4 (ix2 (node B k) c)
      = ((propR (EI 0) (EI 1) (fun e => HX B (wcol e)) (h2R (EI 0) (EI 1) (fun e => HX B (wcol e)) (fun k' => HX B (pcol k')) W1 b1 W2 c) k : ℝ) : EReal) := by
  have hg : gather_S262144x32_S2359296x1_S2359296x32_1_0_n_n_0_1_132
      = IndexOps.rowsGather 262144 32 2359296 gather_S262144x32_S2359296x1_S2359296x32_1_0_n_n_0_1_132.wf := rfl
  have hd : scatter_S262144x32_S2359296x1_S2359296x32_1_0_0_1
      = IndexOps.rowsScatter 262144 32 2359296 scatter_S262144x32_S2359296x1_S2359296x32_1_0_0_1.wf := rfl
  unfold val_main_v85 val_main_v82 val_main_v79
  rw [hg, hd]
  exact layer a0 a1 HX EI hI.hx hI.ei _ _
    (val_main_v72 (F := Ideal) a0 a1 a2 a3 a4) (val_main_v83 (F := Ideal)) (val_main_v78 (F := Ideal) a1) (val_main_v84 (F := Ideal) a1)
    (val_main_v81 (F := Ideal) a0 a1) (fun B' k' c' => h2R (EI 0) (EI 1) (fun e => HX B' (wcol e)) (fun k'' => HX B' (pcol k'')) W1 b1 W2 c' k')
    (fun B' k' c' => v72_node hI B' k' c') (v78_col hI) v84_col v81_fac v83_zero B k c

/-- The second layer's output. -/
theorem v89_node (B : Fin 2048) (k : Fin 128) (c : Fin 32) :
    val_main_v89 (F := Ideal) a0 a1 a2 a3 a4 a5 (ix2 (node B k) c)
      = ((x2R (EI 0) (EI 1) (fun e => HX B (wcol e)) (fun k' => HX B (pcol k')) W1 b1 W2 b2 c k : ℝ) : EReal) := by
  have eb : idx_main_v86 (idx_main_v87 (ix2 (node B k) c)) = ix1 c := funext fun a => match a with | ⟨0, _⟩ => rfl
  rw [val_main_v89_apply, val_main_v88_apply, v85_node hI, val_main_v87_apply, val_main_v86_apply, eb, hI.b2,
    val_main_call3_v0_apply, val_main_call3_cst_apply, Ideal.maximumf_def, Ideal.addf_def, Ideal.ofBits_def, ofBits_zero_f32',
    ← EReal.coe_add, ← Monotone.map_max EReal.coe_strictMono.monotone]
  rfl

/-- The third layer's channel mix. -/
theorem v90_node (B : Fin 2048) (k : Fin 128) (c : Fin 1) :
    val_main_v90 (F := Ideal) a0 a1 a2 a3 a4 a5 a6 (ix2 (node B k) c)
      = ((h3R (EI 0) (EI 1) (fun e => HX B (wcol e)) (fun k' => HX B (pcol k')) W1 b1 W2 b2 W3 k : ℝ) : EReal) := by
  obtain rfl : c = 0 := Subsingleton.elim _ _
  have el : ∀ i : Fin 32, lidx_main_v90 (ix2 (node B k) (0 : Fin 1)) i = ix2 (node B k) i :=
    fun i => funext fun a => match a with | ⟨0, _⟩ => rfl | ⟨1, _⟩ => rfl
  have er : ∀ i : Fin 32, ridx_main_v90 (ix2 (node B k) (0 : Fin 1)) i = ix2 i (0 : Fin 1) :=
    fun i => funext fun a => match a with | ⟨0, _⟩ => rfl | ⟨1, _⟩ => rfl
  rw [val_main_v90_apply]
  simp only [el, er, v89_node hI, hI.w3, ← EReal.coe_mul, coe_sum]
  rfl

/-- The third propagation. -/
theorem v102_node (B : Fin 2048) (k : Fin 128) (c : Fin 1) :
    val_main_v102 (F := Ideal) a0 a1 a2 a3 a4 a5 a6 (ix2 (node B k) c)
      = ((propR (EI 0) (EI 1) (fun e => HX B (wcol e)) (h3R (EI 0) (EI 1) (fun e => HX B (wcol e)) (fun k' => HX B (pcol k')) W1 b1 W2 b2 W3) k : ℝ) : EReal) := by
  have hg : gather_S262144x1_S2359296x1_S2359296x1_1_0_n_n_0_1_11
      = IndexOps.rowsGather 262144 1 2359296 gather_S262144x1_S2359296x1_S2359296x1_1_0_n_n_0_1_11.wf := rfl
  have hd : scatter_S262144x1_S2359296x1_S2359296x1_1_0_0_1
      = IndexOps.rowsScatter 262144 1 2359296 scatter_S262144x1_S2359296x1_S2359296x1_1_0_0_1.wf := rfl
  unfold val_main_v102 val_main_v99 val_main_v97
  rw [hg, hd]
  exact layer a0 a1 HX EI hI.hx hI.ei _ _
    (val_main_v90 (F := Ideal) a0 a1 a2 a3 a4 a5 a6) (val_main_v100 (F := Ideal)) (val_main_v96 (F := Ideal) a1) (val_main_v101 (F := Ideal) a1)
    (val_main_v98 (F := Ideal) a0 a1) (fun B' k' _ => h3R (EI 0) (EI 1) (fun e => HX B' (wcol e)) (fun k'' => HX B' (pcol k'')) W1 b1 W2 b2 W3 k')
    (fun B' k' c' => v90_node hI B' k' c') (v96_col hI) v101_col v98_fac v100_zero B k c

/-- The network's output at node `k` of graph `B`, as the last column table holds it. -/
theorem v105_node (B : Fin 2048) (k : Fin 128) :
    val_main_v105 (F := Ideal) a0 a1 a2 a3 a4 a5 a6 a7 (ix2 (node B k) (0 : Fin 1))
      = ((outR (EI 0) (EI 1) (fun e => HX B (wcol e)) (fun k' => HX B (pcol k')) W1 b1 W2 b2 W3 b3 k : ℝ) : EReal) := by
  have eb : idx_main_v103 (idx_main_v104 (ix2 (node B k) (0 : Fin 1))) = ix1 (0 : Fin 1) :=
    funext fun a => match a with | ⟨0, _⟩ => rfl
  rw [val_main_v105_apply, v102_node hI, val_main_v104_apply, val_main_v103_apply, eb, hI.b3, Ideal.addf_def, ← EReal.coe_add]
  rfl

end stages

/-- THE REFERENCE'S RESULT at `(B, n)` on real data. -/
theorem final
    (a0 : (⟨S2048x1154, .f32⟩ : BufTy).Contents (Elt Ideal)) (a1 : (⟨S2x1024, .i32⟩ : BufTy).Contents (Elt Ideal))
    (a2 : (⟨S1x32, .f32⟩ : BufTy).Contents (Elt Ideal)) (a3 : (⟨S32, .f32⟩ : BufTy).Contents (Elt Ideal))
    (a4 : (⟨S32x32, .f32⟩ : BufTy).Contents (Elt Ideal)) (a5 : (⟨S32, .f32⟩ : BufTy).Contents (Elt Ideal))
    (a6 : (⟨S32x1, .f32⟩ : BufTy).Contents (Elt Ideal)) (a7 : (⟨S1, .f32⟩ : BufTy).Contents (Elt Ideal))
    (HX : Fin 2048 → Fin 1154 → ℝ) (EI : Fin 2 → Fin 1024 → Fin 128) (W1 b1 : Fin 32 → ℝ) (W2 : Fin 32 → Fin 32 → ℝ)
    (b2 : Fin 32 → ℝ) (W3 : Fin 32 → ℝ) (b3 : ℝ)
    (hI : Inputs a0 a1 a2 a3 a4 a5 a6 a7 HX EI W1 b1 W2 b2 W3 b3) (B : Fin 2048) (n : Fin 128) :
    val_main_v106 (F := Ideal) a0 a1 a2 a3 a4 a5 a6 a7 (ix2 B n)
      = ((resultR HX EI W1 b1 W2 b2 W3 b3 B n : ℝ) : EReal) := by
  have e : idx_main_v106 (ix2 B n) = ix2 (node B n) (0 : Fin 1) := by
    funext a
    match a with
    | ⟨0, _⟩ => exact Fin.ext (by show (B.val * 128 + n.val) / 1 = B.val * 128 + n.val; omega)
    | ⟨1, _⟩ => rfl
  rw [val_main_v106_apply, e, v105_node hI]
  rfl

end Cert.Gcn.Ref

end
-- ==== Proof.lean ====
/-
  Three graph-convolution layers over a batch of 2048 graphs that share one edge list (128 nodes, 1024 edges each):
  the kernel, which turns every gather and segment sum into a product with a one-hot matrix and handles 64 graphs
  per grid point, against the reference, which batches the graphs into one block-diagonal graph of 262144 nodes and
  2359296 edge rows (self-loops appended) and gathers and scatters along it.  Under the precondition — every float
  input a real number, every entry of `edge_index` a node index in `[0, 128)` — both compute, at graph `B` and node
  `n`, the real number `Cert.Gcn.result … B n` of Spec.lean:
    * the kernel's array by KArray.lean (blocks to array) over KBlock.lean (one grid point);
    * the reference's by RefStages.lean (stage by stage), in the arrangement `resultR`, equal to `result` by
      distributivity of the reals (Spec.lean `resultR_eq`);
    * the precondition is decoded once, in Pre.lean.
  The frames of the two kernel programs are the generated ones; the reference's frame is its generated run with the
  result dropped; the idealisation's seven rewrites are each the narrowing to bf16 and back, the identity at the
  extended reals.
-/
import proofs.«402176_j11295763988681_3_alg».proof.Defs
import proofs.«402176_j11295763988681_3_alg».proof.Proof.Gen.Kernel
import proofs.«402176_j11295763988681_3_alg».proof.Proof.Gen.Kernel.Skeleton
import proofs.«402176_j11295763988681_3_alg».proof.Proof.Gen.Kernel.Launch
import proofs.«402176_j11295763988681_3_alg».proof.Proof.Gen.Kernel.Points
import proofs.«402176_j11295763988681_3_alg».proof.Proof.Gen.Kernel.Frame
import proofs.«402176_j11295763988681_3_alg».proof.Proof.Gen.KernelIdeal
import proofs.«402176_j11295763988681_3_alg».proof.Proof.Gen.KernelIdeal.Skeleton
import proofs.«402176_j11295763988681_3_alg».proof.Proof.Gen.KernelIdeal.Launch
import proofs.«402176_j11295763988681_3_alg».proof.Proof.Gen.KernelIdeal.Points
import proofs.«402176_j11295763988681_3_alg».proof.Proof.Gen.KernelIdeal.Frame
import proofs.«402176_j11295763988681_3_alg».proof.Proof.Gen.ReferenceIdeal
import proofs.«402176_j11295763988681_3_alg».proof.Proof.Gen.Pre_finite_inputs
import proofs.«402176_j11295763988681_3_alg».proof.Proof.Gen.KernelIdeal.Value
import proofs.«402176_j11295763988681_3_alg».proof.Proof.Gen.ReferenceIdeal.Run
import proofs.«402176_j11295763988681_3_alg».proof.Proof.Gen.ReferenceIdeal.Read
import proofs.«402176_j11295763988681_3_alg».proof.Proof.Spec
import proofs.«402176_j11295763988681_3_alg».proof.Proof.Pre
import proofs.«402176_j11295763988681_3_alg».proof.Proof.KArray
import proofs.«402176_j11295763988681_3_alg».proof.Proof.RefStages
import Idealize.ShloMosaic.Adequacy
import Idealize.ShloMosaic.Init

noncomputable section

namespace Cert.Proof

open Idealize.ShloMosaic Idealize.ShloMosaic.TcCoe Idealize.SL.Sem Idealize.ShloMosaic.ValueIdx

section
variable [hPre : Cert.Pre_finite_inputs.Facts] [hK : Cert.Kernel.Facts] [hKI : Cert.KernelIdeal.Facts] [hR : Cert.ReferenceIdeal.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the real network's value, index by index. -/
theorem algebraic : Cert.algebraic_KernelIdeal_ReferenceIdeal := by
  intro m ρ m' ρ' hpre hagree
  refine ⟨fun c => (Cert.KernelIdeal.Gen.dats m 0 c).arrAt 9 Cert.KernelIdeal.cfg0.N, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨HX, EI, W1, b1, W2, b2, W3, b3, hI⟩ := Cert.Gcn.Pre.inputs_of_pre _ _ _ _ _ _ _ _ (hpre c)
  have hI' : Cert.Gcn.Inputs (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      HX EI W1 b1 W2 b2 W3 b3 := by
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact hI
  rw [Cert.ReferenceIdeal.Read.val_main_v106_eq]
  funext i
  obtain ⟨B, n, rfl⟩ : ∃ (B : Fin 2048) (n : Fin 128), i = ix2 B n := ⟨i 0, i 1, eq_ix2 i⟩
  exact (Cert.Gcn.Ref.final _ _ _ _ _ _ _ _ HX EI W1 b1 W2 b2 W3 b3 hI' B n).trans
    ((congrArg (fun r : ℝ => (r : EReal)) (Cert.Gcn.resultR_eq HX EI W1 b1 W2 b2 W3 b3 B n)).trans
      (Cert.Gcn.KArray.final m c HX EI W1 b1 W2 b2 W3 b3 hI B n).symm)

end

/-- Each of the idealisation's seven rewrites replaces a narrowing to bf16 and back by its operand. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
